-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v202)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v202) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x256x256 : Shape := ⟨4, ![32, 16, 256, 256]⟩
abbrev S_ : Shape := ⟨0, ![]⟩
abbrev S2x128 : Shape := ⟨2, ![2, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x64 : Shape := ⟨2, ![2, 64]⟩
abbrev S64x32 : Shape := ⟨2, ![64, 32]⟩
abbrev S32 : Shape := ⟨1, ![32]⟩
abbrev S32x4 : Shape := ⟨2, ![32, 4]⟩
abbrev S4 : Shape := ⟨1, ![4]⟩

class Facts : Prop where
  bcast_S_S32x16x256x256 : S_.BroadcastsInDim S32x16x256x256 (![] : Fin 0 → Fin S32x16x256x256.rank)
  reducesTo_S32x16x256x256_S_d0_1_2_3 : S32x16x256x256.ReducesTo [0, 1, 2, 3] S_
  h_S_ : 0 < S_.numel
  reducesTo_S_S_d : S_.ReducesTo [] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x64 : S_.BroadcastsInDim S2x64 (![] : Fin 0 → Fin S2x64.rank)
  reducesTo_S2x64_S_d0_1 : S2x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x4 : S_.BroadcastsInDim S32x4 (![] : Fin 0 → Fin S32x4.rank)
  reducesTo_S32x4_S_d0_1 : S32x4.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_arg14 : FVec F S32x4 .f32) (main_arg15 : FVec F S4 .f32) (main_v67 : IVec S_ 1) : IVec S_ 1 :=
  let main_v68 : FVec F S32x4 .f32 := Host.absf main_arg14
  let main_cst_26 : FVec F S_ .f32 := constant S_ .f32 0x7F800000#32
  let main_v69 : FVec F S32x4 .f32 := broadcastInDim S32x4 ![] bcast_S_S32x4 main_cst_26
  let main_v70 : IVec S32x4 1 := cmpf .olt main_v68 main_v69
  let main_c_27 : IVec S_ 1 := constantI S_ 1 1#1
  let main_v71 : IVec S_ 1 := (fun x v => Host.reduce IntOp.andi x v reducesTo_S32x4_S_d0_1 h_S_) main_v70 main_c_27
  let main_v72 : IVec S_ 1 := andi main_v67 main_v71
  let main_v73 : FVec F S4 .f32 := Host.absf main_arg15
  let main_cst_28 : FVec F S_ .f32 := constant S_ .f32 0x7F800000#32
  let main_v74 : FVec F S4 .f32 := broadcastInDim S4 ![] bcast_S_S4 main_cst_28
  let main_v75 : IVec S4 1 := cmpf .olt main_v73 main_v74
  let main_c_29 : IVec S_ 1 := constantI S_ 1 1#1
  let main_v76 : IVec S_ 1 := (fun x v => Host.reduce IntOp.andi x v reducesTo_S4_S_d0 h_S_) main_v75 main_c_29
  let main_v77 : IVec S_ 1 := andi main_v72 main_v76
  main_v77

def fn_part3 {F : FTy → Type} [FloatOps F] (main_arg11 : FVec F S64 .f32) (main_arg12 : FVec F S64x32 .f32) (main_arg13 : FVec F S32 .f32) (main_arg14 : FVec F S32x4 .f32) (main_arg15 : FVec F S4 .f32) (main_v47 : IVec S_ 1) (main_v50 : IVec S2x64 1) : IVec S_ 1 :=
  let main_c_19 : IVec S_ 1 := constantI S_ 1 1#1
  let main_v51 : IVec S_ 1 := (fun x v => Host.reduce IntOp.andi x v reducesTo_S2x64_S_d0_1 h_S_) main_v50 main_c_19
  let main_v52 : IVec S_ 1 := andi main_v47 main_v51
  let main_v53 : FVec F S64 .f32 := Host.absf main_arg11
  let main_cst_20 : FVec F S_ .f32 := constant S_ .f32 0x7F800000#32
  let main_v54 : FVec F S64 .f32 := broadcastInDim S64 ![] bcast_S_S64 main_cst_20
  let main_v55 : IVec S64 1 := cmpf .olt main_v53 main_v54
  let main_c_21 : IVec S_ 1 := constantI S_ 1 1#1
  let main_v56 : IVec S_ 1 := (fun x v => Host.reduce IntOp.andi x v reducesTo_S64_S_d0 h_S_) main_v55 main_c_21
  let main_v57 : IVec S_ 1 := andi main_v52 main_v56
  let main_v58 : FVec F S64x32 .f32 := Host.absf main_arg12
  let main_cst_22 : FVec F S_ .f32 := constant S_ .f32 0x7F800000#32
  let main_v59 : FVec F S64x32 .f32 := broadcastInDim S64x32 ![] bcast_S_S64x32 main_cst_22
  let main_v60 : IVec S64x32 1 := cmpf .olt main_v58 main_v59
  let main_c_23 : IVec S_ 1 := constantI S_ 1 1#1
  let main_v61 : IVec S_ 1 := (fun x v => Host.reduce IntOp.andi x v reducesTo_S64x32_S_d0_1 h_S_) main_v60 main_c_23
  let main_v62 : IVec S_ 1 := andi main_v57 main_v61
  let main_v63 : FVec F S32 .f32 := Host.absf main_arg13
  let main_cst_24 : FVec F S_ .f32 := constant S_ .f32 0x7F800000#32
  let main_v64 : FVec F S32 .f32 := broadcastInDim S32 ![] bcast_S_S32 main_cst_24
  let main_v65 : IVec S32 1 := cmpf .olt main_v63 main_v64
  let main_c_25 : IVec S_ 1 := constantI S_ 1 1#1
  let main_v66 : IVec S_ 1 := (fun x v => Host.reduce IntOp.andi x v reducesTo_S32_S_d0 h_S_) main_v65 main_c_25
  let main_v67 : IVec S_ 1 := andi main_v62 main_v66
  fn_part4 (F := F) main_arg14 main_arg15 main_v67

def fn_part2 {F : FTy → Type} [FloatOps F] (main_arg8 : FVec F S64x1 .f32) (main_arg9 : FVec F S1 .f32) (main_arg10 : FVec F S2x64 .f32) (main_arg11 : FVec F S64 .f32) (main_arg12 : FVec F S64x32 .f32) (main_arg13 : FVec F S32 .f32) (main_arg14 : FVec F S32x4 .f32) (main_arg15 : FVec F S4 .f32) (main_v32 : IVec S_ 1) (main_v33 : FVec F S64 .f32) : IVec S_ 1 :=
  let main_cst_12 : FVec F S_ .f32 := constant S_ .f32 0x7F800000#32
  let main_v34 : FVec F S64 .f32 := broadcastInDim S64 ![] bcast_S_S64 main_cst_12
  let main_v35 : IVec S64 1 := cmpf .olt main_v33 main_v34
  let main_c_13 : IVec S_ 1 := constantI S_ 1 1#1
  let main_v36 : IVec S_ 1 := (fun x v => Host.reduce IntOp.andi x v reducesTo_S64_S_d0 h_S_) main_v35 main_c_13
  let main_v37 : IVec S_ 1 := andi main_v32 main_v36
  let main_v38 : FVec F S64x1 .f32 := Host.absf main_arg8
  let main_cst_14 : FVec F S_ .f32 := constant S_ .f32 0x7F800000#32
  let main_v39 : FVec F S64x1 .f32 := broadcastInDim S64x1 ![] bcast_S_S64x1 main_cst_14
  let main_v40 : IVec S64x1 1 := cmpf .olt main_v38 main_v39
  let main_c_15 : IVec S_ 1 := constantI S_ 1 1#1
  let main_v41 : IVec S_ 1 := (fun x v => Host.reduce IntOp.andi x v reducesTo_S64x1_S_d0_1 h_S_) main_v40 main_c_15
  let main_v42 : IVec S_ 1 := andi main_v37 main_v41
  let main_v43 : FVec F S1 .f32 := Host.absf main_arg9
  let main_cst_16 : FVec F S_ .f32 := constant S_ .f32 0x7F800000#32
  let main_v44 : FVec F S1 .f32 := broadcastInDim S1 ![] bcast_S_S1 main_cst_16
  let main_v45 : IVec S1 1 := cmpf .olt main_v43 main_v44
  let main_c_17 : IVec S_ 1 := constantI S_ 1 1#1
  let main_v46 : IVec S_ 1 := (fun x v => Host.reduce IntOp.andi x v reducesTo_S1_S_d0 h_S_) main_v45 main_c_17
  let main_v47 : IVec S_ 1 := andi main_v42 main_v46
  let main_v48 : FVec F S2x64 .f32 := Host.absf main_arg10
  let main_cst_18 : FVec F S_ .f32 := constant S_ .f32 0x7F800000#32
  let main_v49 : FVec F S2x64 .f32 := broadcastInDim S2x64 ![] bcast_S_S2x64 main_cst_18
  let main_v50 : IVec S2x64 1 := cmpf .olt main_v48 main_v49
  fn_part3 (F := F) main_arg11 main_arg12 main_arg13 main_arg14 main_arg15 main_v47 main_v50

def fn_part1 {F : FTy → Type} [FloatOps F] (main_arg4 : FVec F S128x128 .f32) (main_arg5 : FVec F S128 .f32) (main_arg6 : FVec F S128x64 .f32) (main_arg7 : FVec F S64 .f32) (main_arg8 : FVec F S64x1 .f32) (main_arg9 : FVec F S1 .f32) (main_arg10 : FVec F S2x64 .f32) (main_arg11 : FVec F S64 .f32) (main_arg12 : FVec F S64x32 .f32) (main_arg13 : FVec F S32 .f32) (main_arg14 : FVec F S32x4 .f32) (main_arg15 : FVec F S4 .f32) (main_v12 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v12 main_v16
  let main_v18 : FVec F S128x128 .f32 := Host.absf main_arg4
  let main_cst_6 : FVec F S_ .f32 := constant S_ .f32 0x7F800000#32
  let main_v19 : FVec F S128x128 .f32 := broadcastInDim S128x128 ![] bcast_S_S128x128 main_cst_6
  let main_v20 : IVec S128x128 1 := cmpf .olt main_v18 main_v19
  let main_c_7 : IVec S_ 1 := constantI S_ 1 1#1
  let main_v21 : IVec S_ 1 := (fun x v => Host.reduce IntOp.andi x v reducesTo_S128x128_S_d0_1 h_S_) main_v20 main_c_7
  let main_v22 : IVec S_ 1 := andi main_v17 main_v21
  let main_v23 : FVec F S128 .f32 := Host.absf main_arg5
  let main_cst_8 : FVec F S_ .f32 := constant S_ .f32 0x7F800000#32
  let main_v24 : FVec F S128 .f32 := broadcastInDim S128 ![] bcast_S_S128 main_cst_8
  let main_v25 : IVec S128 1 := cmpf .olt main_v23 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v22 main_v26
  let main_v28 : FVec F S128x64 .f32 := Host.absf main_arg6
  let main_cst_10 : FVec F S_ .f32 := constant S_ .f32 0x7F800000#32
  let main_v29 : FVec F S128x64 .f32 := broadcastInDim S128x64 ![] bcast_S_S128x64 main_cst_10
  let main_v30 : IVec S128x64 1 := cmpf .olt main_v28 main_v29
  let main_c_11 : IVec S_ 1 := constantI S_ 1 1#1
  let main_v31 : IVec S_ 1 := (fun x v => Host.reduce IntOp.andi x v reducesTo_S128x64_S_d0_1 h_S_) main_v30 main_c_11
  let main_v32 : IVec S_ 1 := andi main_v27 main_v31
  let main_v33 : FVec F S64 .f32 := Host.absf main_arg7
  fn_part2 (F := F) main_arg8 main_arg9 main_arg10 main_arg11 main_arg12 main_arg13 main_arg14 main_arg15 main_v32 main_v33

def fn {F : FTy → Type} [FloatOps F] (main_arg0 : FVec F S32x16x256x256 .f32) (main_arg1 : FVec F S_ .f32) (main_arg2 : FVec F S2x128 .f32) (main_arg3 : FVec F S128 .f32) (main_arg4 : FVec F S128x128 .f32) (main_arg5 : FVec F S128 .f32) (main_arg6 : FVec F S128x64 .f32) (main_arg7 : FVec F S64 .f32) (main_arg8 : FVec F S64x1 .f32) (main_arg9 : FVec F S1 .f32) (main_arg10 : FVec F S2x64 .f32) (main_arg11 : FVec F S64 .f32) (main_arg12 : FVec F S64x32 .f32) (main_arg13 : FVec F S32 .f32) (main_arg14 : FVec F S32x4 .f32) (main_arg15 : FVec F S4 .f32) : IVec S_ 1 :=
  let main_v0 : FVec F S32x16x256x256 .f32 := Host.absf main_arg0
  let main_cst : FVec F S_ .f32 := constant S_ .f32 0x7F800000#32
  let main_v1 : FVec F S32x16x256x256 .f32 := broadcastInDim S32x16x256x256 ![] bcast_S_S32x16x256x256 main_cst
  let main_v2 : IVec S32x16x256x256 1 := cmpf .olt main_v0 main_v1
  let main_c : IVec S_ 1 := constantI S_ 1 1#1
  let main_v3 : IVec S_ 1 := (fun x v => Host.reduce IntOp.andi x v reducesTo_S32x16x256x256_S_d0_1_2_3 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S2x128 .f32 := Host.absf main_arg2
  let main_cst_2 : FVec F S_ .f32 := constant S_ .f32 0x7F800000#32
  let main_v9 : FVec F S2x128 .f32 := broadcastInDim S2x128 ![] bcast_S_S2x128 main_cst_2
  let main_v10 : IVec S2x128 1 := cmpf .olt main_v8 main_v9
  let main_c_3 : IVec S_ 1 := constantI S_ 1 1#1
  let main_v11 : IVec S_ 1 := (fun x v => Host.reduce IntOp.andi x v reducesTo_S2x128_S_d0_1 h_S_) main_v10 main_c_3
  let main_v12 : IVec S_ 1 := andi main_v7 main_v11
  let main_v13 : FVec F S128 .f32 := Host.absf main_arg3
  let main_cst_4 : FVec F S_ .f32 := constant S_ .f32 0x7F800000#32
  let main_v14 : FVec F S128 .f32 := broadcastInDim S128 ![] bcast_S_S128 main_cst_4
  let main_v15 : IVec S128 1 := cmpf .olt main_v13 main_v14
  let main_c_5 : IVec S_ 1 := constantI S_ 1 1#1
  fn_part1 (F := F) main_arg4 main_arg5 main_arg6 main_arg7 main_arg8 main_arg9 main_arg10 main_arg11 main_arg12 main_arg13 main_arg14 main_arg15 main_v12 main_v15 main_c_5
-- ==== Kernel.lean ====
abbrev S32x16x256x256 : Shape := ⟨4, ![32, 16, 256, 256]⟩
abbrev S_ : Shape := ⟨0, ![]⟩
abbrev S2x128 : Shape := ⟨2, ![2, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x64 : Shape := ⟨2, ![2, 64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S32x8x256x256 : Shape := ⟨4, ![32, 8, 256, 256]⟩
abbrev S32x2 : Shape := ⟨2, ![32, 2]⟩
abbrev S32x8x16x256 : Shape := ⟨4, ![32, 8, 16, 256]⟩
abbrev S32x8x16 : Shape := ⟨3, ![32, 8, 16]⟩
abbrev S32x8 : Shape := ⟨2, ![32, 8]⟩
abbrev S32x1 : Shape := ⟨2, ![32, 1]⟩
abbrev S32x128 : Shape := ⟨2, ![32, 128]⟩
abbrev S1x128 : Shape := ⟨2, ![1, 128]⟩
abbrev S32x64 : Shape := ⟨2, ![32, 64]⟩
abbrev S1x64 : Shape := ⟨2, ![1, 64]⟩
abbrev S1x1 : Shape := ⟨2, ![1, 1]⟩
abbrev S32x1x1x1 : Shape := ⟨4, ![32, 1, 1, 1]⟩
abbrev S32x32 : Shape := ⟨2, ![32, 32]⟩
abbrev S1x32 : Shape := ⟨2, ![1, 32]⟩
abbrev S1x4 : Shape := ⟨2, ![1, 4]⟩
abbrev S32x16x16x256 : Shape := ⟨4, ![32, 16, 16, 256]⟩
abbrev S1x1x1x1 : Shape := ⟨4, ![1, 1, 1, 1]⟩

abbrev nBuf : Space → Nat
  | .hbm => 248
  | .vmem => 48
  | .smem => 0
  | _ => 0

abbrev hbmTy0_0 (i : Nat) : BufTy := match i % 128 with
  | 0 => ⟨S32x16x256x256, .f32⟩
  | 1 => ⟨S_, .f32⟩
  | 2 => ⟨S2x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S64x1, .f32⟩
  | 9 => ⟨S1, .f32⟩
  | 10 => ⟨S2x64, .f32⟩
  | 11 => ⟨S64, .f32⟩
  | 12 => ⟨S64x32, .f32⟩
  | 13 => ⟨S32, .f32⟩
  | 14 => ⟨S32x4, .f32⟩
  | 15 => ⟨S4, .f32⟩
  | 16 => ⟨S32x8x256x256, .f32⟩
  | 17 => ⟨S32x8x256x256, .f32⟩
  | 18 => ⟨S32x2, .f32⟩
  | 19 => ⟨S_, .f32⟩
  | 20 => ⟨S32x2, .f32⟩
  | 21 => ⟨S32x2, .f32⟩
  | 22 => ⟨S32x128, .f32⟩
  | 23 => ⟨S1x128, .f32⟩
  | 24 => ⟨S32x128, .f32⟩
  | 25 => ⟨S32x128, .f32⟩
  | 26 => ⟨S32x128, .f32⟩
  | 27 => ⟨S_, .f32⟩
  | 28 => ⟨S32x128, .f32⟩
  | 29 => ⟨S32x128, .f32⟩
  | 30 => ⟨S32x128, .f32⟩
  | 31 => ⟨S1x128, .f32⟩
  | 32 => ⟨S32x128, .f32⟩
  | 33 => ⟨S32x128, .f32⟩
  | 34 => ⟨S32x128, .f32⟩
  | 35 => ⟨S_, .f32⟩
  | 36 => ⟨S32x128, .f32⟩
  | 37 => ⟨S32x128, .f32⟩
  | 38 => ⟨S32x64, .f32⟩
  | 39 => ⟨S1x64, .f32⟩
  | 40 => ⟨S32x64, .f32⟩
  | 41 => ⟨S32x64, .f32⟩
  | 42 => ⟨S32x64, .f32⟩
  | 43 => ⟨S_, .f32⟩
  | 44 => ⟨S32x64, .f32⟩
  | 45 => ⟨S32x64, .f32⟩
  | 46 => ⟨S32x1, .f32⟩
  | 47 => ⟨S1x1, .f32⟩
  | 48 => ⟨S32x1, .f32⟩
  | 49 => ⟨S32x1, .f32⟩
  | 50 => ⟨S_, .f32⟩
  | 51 => ⟨S_, .f32⟩
  | 52 => ⟨S_, .f32⟩
  | 53 => ⟨S32x1, .f32⟩
  | 54 => ⟨S32x64, .f32⟩
  | 55 => ⟨S32x64, .f32⟩
  | 56 => ⟨S32x64, .f32⟩
  | 57 => ⟨S32x64, .f32⟩
  | 58 => ⟨S32x128, .f32⟩
  | 59 => ⟨S32x128, .f32⟩
  | 60 => ⟨S32x128, .f32⟩
  | 61 => ⟨S32x128, .f32⟩
  | 62 => ⟨S32x128, .f32⟩
  | 63 => ⟨S32x128, .f32⟩
  | 64 => ⟨S32x128, .f32⟩
  | 65 => ⟨S32x128, .f32⟩
  | 66 => ⟨S32x2, .f32⟩
  | 67 => ⟨S_, .f32⟩
  | 68 => ⟨S_, .f32⟩
  | 69 => ⟨S32x1, .f32⟩
  | 70 => ⟨S32, .f32⟩
  | 71 => ⟨S32, .f32⟩
  | 72 => ⟨S32, .f32⟩
  | 73 => ⟨S_, .f32⟩
  | 74 => ⟨S32, .f32⟩
  | 75 => ⟨S32, .f32⟩
  | 76 => ⟨S32x1x1x1, .f32⟩
  | 77 => ⟨S32x8x256x256, .f32⟩
  | 78 => ⟨S32x2, .f32⟩
  | 79 => ⟨S_, .f32⟩
  | 80 => ⟨S32x2, .f32⟩
  | 81 => ⟨S32x2, .f32⟩
  | 82 => ⟨S32x128, .f32⟩
  | 83 => ⟨S1x128, .f32⟩
  | 84 => ⟨S32x128, .f32⟩
  | 85 => ⟨S32x128, .f32⟩
  | 86 => ⟨S32x128, .f32⟩
  | 87 => ⟨S_, .f32⟩
  | 88 => ⟨S32x128, .f32⟩
  | 89 => ⟨S32x128, .f32⟩
  | 90 => ⟨S32x128, .f32⟩
  | 91 => ⟨S1x128, .f32⟩
  | 92 => ⟨S32x128, .f32⟩
  | 93 => ⟨S32x128, .f32⟩
  | 94 => ⟨S32x128, .f32⟩
  | 95 => ⟨S_, .f32⟩
  | 96 => ⟨S32x128, .f32⟩
  | 97 => ⟨S32x128, .f32⟩
  | 98 => ⟨S32x64, .f32⟩
  | 99 => ⟨S1x64, .f32⟩
  | 100 => ⟨S32x64, .f32⟩
  | 101 => ⟨S32x64, .f32⟩
  | 102 => ⟨S32x64, .f32⟩
  | 103 => ⟨S_, .f32⟩
  | 104 => ⟨S32x64, .f32⟩
  | 105 => ⟨S32x64, .f32⟩
  | 106 => ⟨S32x1, .f32⟩
  | 107 => ⟨S1x1, .f32⟩
  | 108 => ⟨S32x1, .f32⟩
  | 109 => ⟨S32x1, .f32⟩
  | 110 => ⟨S_, .f32⟩
  | 111 => ⟨S_, .f32⟩
  | 112 => ⟨S_, .f32⟩
  | 113 => ⟨S32x1, .f32⟩
  | 114 => ⟨S32x64, .f32⟩
  | 115 => ⟨S32x64, .f32⟩
  | 116 => ⟨S32x64, .f32⟩
  | 117 => ⟨S32x64, .f32⟩
  | 118 => ⟨S32x128, .f32⟩
  | 119 => ⟨S32x128, .f32⟩
  | 120 => ⟨S32x128, .f32⟩
  | 121 => ⟨S32x128, .f32⟩
  | 122 => ⟨S32x128, .f32⟩
  | 123 => ⟨S32x128, .f32⟩
  | 124 => ⟨S32x128, .f32⟩
  | 125 => ⟨S32x128, .f32⟩
  | 126 => ⟨S32x2, .f32⟩
  | 127 => ⟨S32x1, .f32⟩
  | _ => ⟨S32x16x256x256, .f32⟩

abbrev hbmTy0_1 (i : Nat) : BufTy := match i % 128 with
  | 0 => ⟨S32, .f32⟩
  | 1 => ⟨S32, .f32⟩
  | 2 => ⟨S32, .f32⟩
  | 3 => ⟨S_, .f32⟩
  | 4 => ⟨S32, .f32⟩
  | 5 => ⟨S32, .f32⟩
  | 6 => ⟨S32x1x1x1, .f32⟩
  | 7 => ⟨S32x8x256x256, .f32⟩
  | 8 => ⟨S32x2, .f32⟩
  | 9 => ⟨S_, .f32⟩
  | 10 => ⟨S32x2, .f32⟩
  | 11 => ⟨S32x2, .f32⟩
  | 12 => ⟨S32x128, .f32⟩
  | 13 => ⟨S1x128, .f32⟩
  | 14 => ⟨S32x128, .f32⟩
  | 15 => ⟨S32x128, .f32⟩
  | 16 => ⟨S32x128, .f32⟩
  | 17 => ⟨S_, .f32⟩
  | 18 => ⟨S32x128, .f32⟩
  | 19 => ⟨S32x128, .f32⟩
  | 20 => ⟨S32x128, .f32⟩
  | 21 => ⟨S1x128, .f32⟩
  | 22 => ⟨S32x128, .f32⟩
  | 23 => ⟨S32x128, .f32⟩
  | 24 => ⟨S32x128, .f32⟩
  | 25 => ⟨S_, .f32⟩
  | 26 => ⟨S32x128, .f32⟩
  | 27 => ⟨S32x128, .f32⟩
  | 28 => ⟨S32x64, .f32⟩
  | 29 => ⟨S1x64, .f32⟩
  | 30 => ⟨S32x64, .f32⟩
  | 31 => ⟨S32x64, .f32⟩
  | 32 => ⟨S32x64, .f32⟩
  | 33 => ⟨S_, .f32⟩
  | 34 => ⟨S32x64, .f32⟩
  | 35 => ⟨S32x64, .f32⟩
  | 36 => ⟨S32x1, .f32⟩
  | 37 => ⟨S1x1, .f32⟩
  | 38 => ⟨S32x1, .f32⟩
  | 39 => ⟨S32x1, .f32⟩
  | 40 => ⟨S_, .f32⟩
  | 41 => ⟨S_, .f32⟩
  | 42 => ⟨S_, .f32⟩
  | 43 => ⟨S32x1, .f32⟩
  | 44 => ⟨S32x64, .f32⟩
  | 45 => ⟨S32x64, .f32⟩
  | 46 => ⟨S32x64, .f32⟩
  | 47 => ⟨S32x64, .f32⟩
  | 48 => ⟨S32x128, .f32⟩
  | 49 => ⟨S32x128, .f32⟩
  | 50 => ⟨S32x128, .f32⟩
  | 51 => ⟨S32x128, .f32⟩
  | 52 => ⟨S32x128, .f32⟩
  | 53 => ⟨S32x128, .f32⟩
  | 54 => ⟨S32x128, .f32⟩
  | 55 => ⟨S32x128, .f32⟩
  | 56 => ⟨S32x2, .f32⟩
  | 57 => ⟨S_, .f32⟩
  | 58 => ⟨S_, .f32⟩
  | 59 => ⟨S32x1, .f32⟩
  | 60 => ⟨S32, .f32⟩
  | 61 => ⟨S32, .f32⟩
  | 62 => ⟨S32, .f32⟩
  | 63 => ⟨S_, .f32⟩
  | 64 => ⟨S32, .f32⟩
  | 65 => ⟨S32, .f32⟩
  | 66 => ⟨S32x1x1x1, .f32⟩
  | 67 => ⟨S32x8x256x256, .f32⟩
  | 68 => ⟨S32x2, .f32⟩
  | 69 => ⟨S_, .f32⟩
  | 70 => ⟨S32x2, .f32⟩
  | 71 => ⟨S32x2, .f32⟩
  | 72 => ⟨S32x64, .f32⟩
  | 73 => ⟨S1x64, .f32⟩
  | 74 => ⟨S32x64, .f32⟩
  | 75 => ⟨S32x64, .f32⟩
  | 76 => ⟨S32x64, .f32⟩
  | 77 => ⟨S32x32, .f32⟩
  | 78 => ⟨S1x32, .f32⟩
  | 79 => ⟨S32x32, .f32⟩
  | 80 => ⟨S32x32, .f32⟩
  | 81 => ⟨S32x32, .f32⟩
  | 82 => ⟨S32x4, .f32⟩
  | 83 => ⟨S1x4, .f32⟩
  | 84 => ⟨S32x4, .f32⟩
  | 85 => ⟨S32x4, .f32⟩
  | 86 => ⟨S32x64, .f32⟩
  | 87 => ⟨S1x64, .f32⟩
  | 88 => ⟨S32x64, .f32⟩
  | 89 => ⟨S32x64, .f32⟩
  | 90 => ⟨S32x64, .f32⟩
  | 91 => ⟨S32x32, .f32⟩
  | 92 => ⟨S1x32, .f32⟩
  | 93 => ⟨S32x32, .f32⟩
  | 94 => ⟨S32x32, .f32⟩
  | 95 => ⟨S32x32, .f32⟩
  | 96 => ⟨S32x4, .f32⟩
  | 97 => ⟨S1x4, .f32⟩
  | 98 => ⟨S32x4, .f32⟩
  | 99 => ⟨S32x4, .f32⟩
  | 100 => ⟨S32x4, .f32⟩
  | 101 => ⟨S_, .f32⟩
  | 102 => ⟨S_, .f32⟩
  | 103 => ⟨S_, .f32⟩
  | 104 => ⟨S_, .f32⟩
  | 105 => ⟨S1x1, .f32⟩
  | 106 => ⟨S1x1, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S1x1, .f32⟩
  | 119 => ⟨S32x16x256x256, .f32⟩
  | _ => ⟨S32x16x256x256, .f32⟩

abbrev hbmTy (i : Nat) : BufTy := match i / 128 with
  | 0 => hbmTy0_0 i
  | 1 => hbmTy0_1 i
  | _ => ⟨S32x16x256x256, .f32⟩

abbrev bufTy : (tb : Table) → Fin (tcTables nBuf tb) → BufTy
  | .hbm, ⟨i, _⟩ => hbmTy i
  | .local _ .vmem, ⟨0, _⟩ => ⟨S32x8x16x256, .f32⟩
  | .local _ .vmem, ⟨1, _⟩ => ⟨S32x8x16x256, .f32⟩
  | .local _ .vmem, ⟨2, _⟩ => ⟨S32x8x16x256, .f32⟩
  | .local _ .vmem, ⟨3, _⟩ => ⟨S32x8x16x256, .f32⟩
  | .local _ .vmem, ⟨4, _⟩ => ⟨S32x2, .f32⟩
  | .local _ .vmem, ⟨5, _⟩ => ⟨S32x8x16x256, .f32⟩
  | .local _ .vmem, ⟨6, _⟩ => ⟨S32x8x16x256, .f32⟩
  | .local _ .vmem, ⟨7, _⟩ => ⟨S32x1x1x1, .f32⟩
  | .local _ .vmem, ⟨8, _⟩ => ⟨S32x8x16x256, .f32⟩
  | .local _ .vmem, ⟨9, _⟩ => ⟨S32x8x16x256, .f32⟩
  | .local _ .vmem, ⟨10, _⟩ => ⟨S32x8x16x256, .f32⟩
  | .local _ .vmem, ⟨11, _⟩ => ⟨S32x8x16x256, .f32⟩
  | .local _ .vmem, ⟨12, _⟩ => ⟨S32x8x16x256, .f32⟩
  | .local _ .vmem, ⟨13, _⟩ => ⟨S32x8x16x256, .f32⟩
  | .local _ .vmem, ⟨14, _⟩ => ⟨S32x2, .f32⟩
  | .local _ .vmem, ⟨15, _⟩ => ⟨S32x8x16x256, .f32⟩
  | .local _ .vmem, ⟨16, _⟩ => ⟨S32x8x16x256, .f32⟩
  | .local _ .vmem, ⟨17, _⟩ => ⟨S32x1x1x1, .f32⟩
  | .local _ .vmem, ⟨18, _⟩ => ⟨S32x8x16x256, .f32⟩
  | .local _ .vmem, ⟨19, _⟩ => ⟨S32x8x16x256, .f32⟩
  | .local _ .vmem, ⟨20, _⟩ => ⟨S32x8x16x256, .f32⟩
  | .local _ .vmem, ⟨21, _⟩ => ⟨S32x8x16x256, .f32⟩
  | .local _ .vmem, ⟨22, _⟩ => ⟨S32x8x16x256, .f32⟩
  | .local _ .vmem, ⟨23, _⟩ => ⟨S32x8x16x256, .f32⟩
  | .local _ .vmem, ⟨24, _⟩ => ⟨S32x2, .f32⟩
  | .local _ .vmem, ⟨25, _⟩ => ⟨S32x8x16x256, .f32⟩
  | .local _ .vmem, ⟨26, _⟩ => ⟨S32x8x16x256, .f32⟩
  | .local _ .vmem, ⟨27, _⟩ => ⟨S32x1x1x1, .f32⟩
  | .local _ .vmem, ⟨28, _⟩ => ⟨S32x8x16x256, .f32⟩
  | .local _ .vmem, ⟨29, _⟩ => ⟨S32x8x16x256, .f32⟩
  | .local _ .vmem, ⟨30, _⟩ => ⟨S32x8x16x256, .f32⟩
  | .local _ .vmem, ⟨31, _⟩ => ⟨S32x8x16x256, .f32⟩
  | .local _ .vmem, ⟨32, _⟩ => ⟨S32x8x16x256, .f32⟩
  | .local _ .vmem, ⟨33, _⟩ => ⟨S32x8x16x256, .f32⟩
  | .local _ .vmem, ⟨34, _⟩ => ⟨S32x2, .f32⟩
  | .local _ .vmem, ⟨35, _⟩ => ⟨S32x8x16x256, .f32⟩
  | .local _ .vmem, ⟨36, _⟩ => ⟨S32x8x16x256, .f32⟩
  | .local _ .vmem, ⟨37, _⟩ => ⟨S1x1, .f32⟩
  | .local _ .vmem, ⟨38, _⟩ => ⟨S32x8x16x256, .f32⟩
  | .local _ .vmem, ⟨39, _⟩ => ⟨S32x8x16x256, .f32⟩
  | .local _ .vmem, ⟨40, _⟩ => ⟨S1x1, .f32⟩
  | .local _ .vmem, ⟨41, _⟩ => ⟨S32x8x16x256, .f32⟩
  | .local _ .vmem, ⟨42, _⟩ => ⟨S32x8x16x256, .f32⟩
  | .local _ .vmem, ⟨43, _⟩ => ⟨S32x8x16x256, .f32⟩
  | .local _ .vmem, ⟨44, _⟩ => ⟨S32x8x16x256, .f32⟩
  | .local _ .vmem, ⟨45, _⟩ => ⟨S1x1, .f32⟩
  | .local _ .vmem, ⟨46, _⟩ => ⟨S32x16x16x256, .f32⟩
  | .local _ .vmem, ⟨47, _⟩ => ⟨S32x16x16x256, .f32⟩
  | _, _ => ⟨S32x16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_6 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_8 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_9 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_10 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_11 : Ref sig .tc := ⟨.hbm, 110, rfl⟩
abbrev main_v82 : Ref sig .tc := ⟨.hbm, 111, rfl⟩
abbrev main_cst_12 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_13 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_14 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_15 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_16 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_17 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_18 : Ref sig .tc := ⟨.hbm, 168, rfl⟩
abbrev main_v133 : Ref sig .tc := ⟨.hbm, 169, rfl⟩
abbrev main_cst_19 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_cst_20 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_cst_21 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_cst_22 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_cst_23 : Ref sig .tc := ⟨.hbm, 229, rfl⟩
abbrev main_v189 : Ref sig .tc := ⟨.hbm, 230, rfl⟩
abbrev main_cst_24 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_cst_25 : Ref sig .tc := ⟨.hbm, 239, rfl⟩
abbrev main_v197 : Ref sig .tc := ⟨.hbm, 240, rfl⟩
abbrev main_cst_26 : Ref sig .tc := ⟨.hbm, 241, rfl⟩
abbrev main_v198 : Ref sig .tc := ⟨.hbm, 242, rfl⟩
abbrev main_v199 : Ref sig .tc := ⟨.hbm, 243, rfl⟩
abbrev main_cst_27 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc8_stg0_0 : Ref sig .tc := ⟨.vmem, 38, rfl⟩
abbrev cc8_stg0_1 : Ref sig .tc := ⟨.vmem, 39, rfl⟩
abbrev cc8_stg1_0 : Ref sig .tc := ⟨.vmem, 40, rfl⟩
abbrev cc9_stg0_0 : Ref sig .tc := ⟨.vmem, 41, rfl⟩
abbrev cc9_stg0_1 : Ref sig .tc := ⟨.vmem, 42, rfl⟩
abbrev cc9_stg1_0 : Ref sig .tc := ⟨.vmem, 43, rfl⟩
abbrev cc9_stg1_1 : Ref sig .tc := ⟨.vmem, 44, rfl⟩
abbrev cc9_stg2_0 : Ref sig .tc := ⟨.vmem, 45, rfl⟩
abbrev cc9_stg3_0 : Ref sig .tc := ⟨.vmem, 46, rfl⟩
abbrev cc9_stg3_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc7_sem0_0 : DmaSem sig := 35
abbrev cc7_sem0_1 : DmaSem sig := 36
abbrev cc7_sem1_0 : DmaSem sig := 37
abbrev cc8_sem0_0 : DmaSem sig := 38
abbrev cc8_sem0_1 : DmaSem sig := 39
abbrev cc8_sem1_0 : DmaSem sig := 40
abbrev cc9_sem0_0 : DmaSem sig := 41
abbrev cc9_sem0_1 : DmaSem sig := 42
abbrev cc9_sem1_0 : DmaSem sig := 43
abbrev cc9_sem1_1 : DmaSem sig := 44
abbrev cc9_sem2_0 : DmaSem sig := 45
abbrev cc9_sem3_0 : DmaSem sig := 46
abbrev cc9_sem3_1 : DmaSem sig := 47

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x8x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage1_0 : Fin 2 → Memref sig .tc .vmem S32x8x16x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x1x1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x8x16x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S32x8x16x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S32x8x16x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![16], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc3_transform_2 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage3_0 : Fin 2 → Memref sig .tc .vmem S32x8x16x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x1x1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S32x8x16x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![16], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc4_transform_1 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S32x8x16x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S32x8x16x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![16], ![false]⟩

def cc5_transform_0 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc5_transform_1 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc5_transform_2 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage5_0 : Fin 2 → Memref sig .tc .vmem S32x8x16x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S32x1x1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S32x8x16x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![16], ![false]⟩

def cc6_transform_0 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc6_transform_1 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S32x8x16x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S32x8x16x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S32x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![16], ![false]⟩

def cc7_transform_0 (i : grid7.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S32x8x16x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev grid8 : Pipeline.Grid := ⟨1, ![16], ![false]⟩

def cc8_transform_0 (i : grid8.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S32x8x16x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev grid9 : Pipeline.Grid := ⟨1, ![16], ![false]⟩

def cc9_transform_0 (i : grid9.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc9_transform_1 (i : grid9.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage9_0 : Fin 2 → Memref sig .tc .vmem S32x8x16x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S32x8x16x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x1 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S32x16x16x256 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S32x16x256x256_S32x8x256x256_0_0_0_0 : S32x16x256x256.Slices ![0, 0, 0, 0] S32x8x256x256
  slices_S32x16x256x256_S32x8x256x256_0_8_0_0 : S32x16x256x256.Slices ![0, 8, 0, 0] S32x8x256x256
  inb_S32x2_S32x2_0_0 : ∀ a, (![0, 0] : Fin 2 → Nat) a + S32x2.size a ≤ S32x2.size a
  h_S32x2 : 0 < S32x2.numel
  inb_S32x8x16x256_S32x8x16x256_0_0_0_0 : ∀ a, (![0, 0, 0, 0] : Fin 4 → Nat) a + S32x8x16x256.size a ≤ S32x8x16x256.size a
  h_S32x8x16x256 : 0 < S32x8x16x256.numel
  shapeCasts_S32x8x16x256_S32x8x16x256 : S32x8x16x256.ShapeCasts S32x8x16x256
  reduces_S32x8x16x256_S32x8x16 : S32x8x16x256.Reduces [3] S32x8x16
  reduces_S32x8x16_S32x8 : S32x8x16.Reduces [2] S32x8
  reduces_S32x8_S32 : S32x8.Reduces [1] S32
  shapeCasts_S32_S32x1 : S32.ShapeCasts S32x1
  concatenates_S32x1_S32x1_S32x2_d1 : Shape.Concatenates [S32x1, S32x1] S32x2 1
  shapeCasts_S32x2_S32x2 : S32x2.ShapeCasts S32x2
  bcast_S_S32x2 : S_.BroadcastsInDim S32x2 (![] : Fin 0 → Fin S32x2.rank)
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S_S32x64 : S_.BroadcastsInDim S32x64 (![] : Fin 0 → Fin S32x64.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  reducesTo_S32x1_S_d0_1 : S32x1.ReducesTo [0, 1] S_
  h_S_ : 0 < S_.numel
  bcast_S_S32x1 : S_.BroadcastsInDim S32x1 (![] : Fin 0 → Fin S32x1.rank)
  slices_S32x2_S32x1_0_0 : S32x2.Slices ![0, 0] S32x1
  shapeCasts_S32x1_S32 : S32x1.ShapeCasts S32
  bcast_S_S32 : S_.BroadcastsInDim S32 (![] : Fin 0 → Fin S32.rank)
  shapeCasts_S32_S32x1x1x1 : S32.ShapeCasts S32x1x1x1
  inb_S32x1x1x1_S32x1x1x1_0_0_0_0 : ∀ a, (![0, 0, 0, 0] : Fin 4 → Nat) a + S32x1x1x1.size a ≤ S32x1x1x1.size a
  h_S32x1x1x1 : 0 < S32x1x1x1.numel
  shapeCasts_S32x1x1x1_S32x1x1x1 : S32x1x1x1.ShapeCasts S32x1x1x1
  broadcasts_S32x1x1x1_S32x8x16x256 : S32x1x1x1.Broadcasts S32x8x16x256
  slices_S32x2_S32x1_0_1 : S32x2.Slices ![0, 1] S32x1
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  bcast_S4_S1x4_1 : S4.BroadcastsInDim S1x4 (![1] : Fin 1 → Fin S1x4.rank)
  bcast_S1x4_S32x4_0_1 : S1x4.BroadcastsInDim S32x4 (![0, 1] : Fin 2 → Fin S32x4.rank)
  reducesTo_S32x4_S_d0_1 : S32x4.ReducesTo [0, 1] S_
  inb_S1x1_S1x1_0_0 : ∀ a, (![0, 0] : Fin 2 → Nat) a + S1x1.size a ≤ S1x1.size a
  h_S1x1 : 0 < S1x1.numel
  shapeCasts_S32_S1x32 : S32.ShapeCasts S1x32
  reduces_S1x32_S1 : S1x32.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  shapeCasts_S_S1x1 : S_.ShapeCasts S1x1
  shapeCasts_S1x1_S1x1x1x1 : S1x1.ShapeCasts S1x1x1x1
  broadcasts_S1x1x1x1_S32x8x16x256 : S1x1x1x1.Broadcasts S32x8x16x256
  inb_S32x16x16x256_S32x8x16x256_0_0_0_0 : ∀ a, (![0, 0, 0, 0] : Fin 4 → Nat) a + S32x8x16x256.size a ≤ S32x16x16x256.size a
  inb_S32x16x16x256_S32x8x16x256_0_8_0_0 : ∀ a, (![0, 8, 0, 0] : Fin 4 → Nat) a + S32x8x16x256.size a ≤ S32x16x16x256.size a
  dot_S32x2_S2x128_S32x128_1_0_0_1_n_n_wf : DotDims.WF S32x2 S2x128 S32x128 [1] [0] [0] [1] [] []
  dot_S32x128_S128x128_S32x128_1_0_0_1_n_n_wf : DotDims.WF S32x128 S128x128 S32x128 [1] [0] [0] [1] [] []
  dot_S32x128_S128x64_S32x64_1_0_0_1_n_n_wf : DotDims.WF S32x128 S128x64 S32x64 [1] [0] [0] [1] [] []
  dot_S32x64_S64x1_S32x1_1_0_0_1_n_n_wf : DotDims.WF S32x64 S64x1 S32x1 [1] [0] [0] [1] [] []
  dot_S32x1_S64x1_S32x64_1_1_0_0_n_n_wf : DotDims.WF S32x1 S64x1 S32x64 [1] [1] [0] [0] [] []
  dot_S32x64_S128x64_S32x128_1_1_0_0_n_n_wf : DotDims.WF S32x64 S128x64 S32x128 [1] [1] [0] [0] [] []
  dot_S32x128_S128x128_S32x128_1_1_0_0_n_n_wf : DotDims.WF S32x128 S128x128 S32x128 [1] [1] [0] [0] [] []
  dot_S32x128_S2x128_S32x2_1_1_0_0_n_n_wf : DotDims.WF S32x128 S2x128 S32x2 [1] [1] [0] [0] [] []
  dot_S32x2_S2x64_S32x64_1_0_0_1_n_n_wf : DotDims.WF S32x2 S2x64 S32x64 [1] [0] [0] [1] [] []
  dot_S32x64_S64x32_S32x32_1_0_0_1_n_n_wf : DotDims.WF S32x64 S64x32 S32x32 [1] [0] [0] [1] [] []
  dot_S32x32_S32x4_S32x4_1_0_0_1_n_n_wf : DotDims.WF S32x32 S32x4 S32x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x8x16x256.size a ≤ S32x8x256x256.size a
  hwx0_0 : ∀ i : grid0.Coords, EltTy.bits .f32 = 32 ∨ (Rect.block (s := S32x8x256x256) S32x8x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x8x16x256.size a ≤ S32x8x256x256.size a
  hwx0_1 : ∀ i : grid0.Coords, EltTy.bits .f32 = 32 ∨ (Rect.block (s := S32x8x256x256) S32x8x16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x2.size a ≤ S32x2.size a
  hwx0_2 : ∀ i : grid0.Coords, EltTy.bits .f32 = 32 ∨ (Rect.block (s := S32x2) S32x2.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x8x16x256.size a ≤ S32x8x256x256.size a
  hwx1_0 : ∀ i : grid1.Coords, EltTy.bits .f32 = 32 ∨ (Rect.block (s := S32x8x256x256) S32x8x16x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1x1x1.size a ≤ S32x1x1x1.size a
  hwx1_1 : ∀ i : grid1.Coords, EltTy.bits .f32 = 32 ∨ (Rect.block (s := S32x1x1x1) S32x1x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x8x16x256.size a ≤ S32x8x256x256.size a
  hwx1_2 : ∀ i : grid1.Coords, EltTy.bits .f32 = 32 ∨ (Rect.block (s := S32x8x256x256) S32x8x16x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x8x16x256.size a ≤ S32x8x256x256.size a
  hwx2_0 : ∀ i : grid2.Coords, EltTy.bits .f32 = 32 ∨ (Rect.block (s := S32x8x256x256) S32x8x16x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x8x16x256.size a ≤ S32x8x256x256.size a
  hwx2_1 : ∀ i : grid2.Coords, EltTy.bits .f32 = 32 ∨ (Rect.block (s := S32x8x256x256) S32x8x16x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x2.size a ≤ S32x2.size a
  hwx2_2 : ∀ i : grid2.Coords, EltTy.bits .f32 = 32 ∨ (Rect.block (s := S32x2) S32x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S32x8x16x256.size a ≤ S32x8x256x256.size a
  hwx3_0 : ∀ i : grid3.Coords, EltTy.bits .f32 = 32 ∨ (Rect.block (s := S32x8x256x256) S32x8x16x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x1x1x1.size a ≤ S32x1x1x1.size a
  hwx3_1 : ∀ i : grid3.Coords, EltTy.bits .f32 = 32 ∨ (Rect.block (s := S32x1x1x1) S32x1x1x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S32x8x16x256.size a ≤ S32x8x256x256.size a
  hwx3_2 : ∀ i : grid3.Coords, EltTy.bits .f32 = 32 ∨ (Rect.block (s := S32x8x256x256) S32x8x16x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S32x8x16x256.size a ≤ S32x8x256x256.size a
  hwx4_0 : ∀ i : grid4.Coords, EltTy.bits .f32 = 32 ∨ (Rect.block (s := S32x8x256x256) S32x8x16x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S32x8x16x256.size a ≤ S32x8x256x256.size a
  hwx4_1 : ∀ i : grid4.Coords, EltTy.bits .f32 = 32 ∨ (Rect.block (s := S32x8x256x256) S32x8x16x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x2.size a ≤ S32x2.size a
  hwx4_2 : ∀ i : grid4.Coords, EltTy.bits .f32 = 32 ∨ (Rect.block (s := S32x2) S32x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S32x8x16x256.size a ≤ S32x8x256x256.size a
  hwx5_0 : ∀ i : grid5.Coords, EltTy.bits .f32 = 32 ∨ (Rect.block (s := S32x8x256x256) S32x8x16x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S32x1x1x1.size a ≤ S32x1x1x1.size a
  hwx5_1 : ∀ i : grid5.Coords, EltTy.bits .f32 = 32 ∨ (Rect.block (s := S32x1x1x1) S32x1x1x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S32x8x16x256.size a ≤ S32x8x256x256.size a
  hwx5_2 : ∀ i : grid5.Coords, EltTy.bits .f32 = 32 ∨ (Rect.block (s := S32x8x256x256) S32x8x16x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S32x8x16x256.size a ≤ S32x8x256x256.size a
  hwx6_0 : ∀ i : grid6.Coords, EltTy.bits .f32 = 32 ∨ (Rect.block (s := S32x8x256x256) S32x8x16x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S32x8x16x256.size a ≤ S32x8x256x256.size a
  hwx6_1 : ∀ i : grid6.Coords, EltTy.bits .f32 = 32 ∨ (Rect.block (s := S32x8x256x256) S32x8x16x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32x2.size a ≤ S32x2.size a
  hwx6_2 : ∀ i : grid6.Coords, EltTy.bits .f32 = 32 ∨ (Rect.block (s := S32x2) S32x2.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S32x8x16x256.size a ≤ S32x8x256x256.size a
  hwx7_0 : ∀ i : grid7.Coords, EltTy.bits .f32 = 32 ∨ (Rect.block (s := S32x8x256x256) S32x8x16x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x1.size a ≤ S1x1.size a
  hwx7_1 : ∀ i : grid7.Coords, EltTy.bits .f32 = 32 ∨ (Rect.block (s := S1x1) S1x1.size (cc7_transform_1 i) (hinb7_1 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S32x8x16x256.size a ≤ S32x8x256x256.size a
  hwx8_0 : ∀ i : grid8.Coords, EltTy.bits .f32 = 32 ∨ (Rect.block (s := S32x8x256x256) S32x8x16x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x1.size a ≤ S1x1.size a
  hwx8_1 : ∀ i : grid8.Coords, EltTy.bits .f32 = 32 ∨ (Rect.block (s := S1x1) S1x1.size (cc8_transform_1 i) (hinb8_1 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S32x8x16x256.size a ≤ S32x8x256x256.size a
  hwx9_0 : ∀ i : grid9.Coords, EltTy.bits .f32 = 32 ∨ (Rect.block (s := S32x8x256x256) S32x8x16x256.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S32x8x16x256.size a ≤ S32x8x256x256.size a
  hwx9_1 : ∀ i : grid9.Coords, EltTy.bits .f32 = 32 ∨ (Rect.block (s := S32x8x256x256) S32x8x16x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x1.size a ≤ S1x1.size a
  hwx9_2 : ∀ i : grid9.Coords, EltTy.bits .f32 = 32 ∨ (Rect.block (s := S1x1) S1x1.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S32x16x16x256.size a ≤ S32x16x256x256.size a
  hwx9_3 : ∀ i : grid9.Coords, EltTy.bits .f32 = 32 ∨ (Rect.block (s := S32x16x256x256) S32x16x16x256.size (cc9_transform_3 i) (hinb9_3 i)).WholeWords (EltTy.packing .f32)

variable [Facts₀]

def dot_S32x2_S2x128_S32x128_1_0_0_1_n_n : DotDims S32x2 S2x128 S32x128 where
  lhsContracting := [1]
  rhsContracting := [0]
  lhsNonContracting := [0]
  rhsNonContracting := [1]
  lhsBatch := []
  rhsBatch := []
  wf := dot_S32x2_S2x128_S32x128_1_0_0_1_n_n_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S32x128_S128x64_S32x64_1_0_0_1_n_n : DotDims S32x128 S128x64 S32x64 where
  lhsContracting := [1]
  rhsContracting := [0]
  lhsNonContracting := [0]
  rhsNonContracting := [1]
  lhsBatch := []
  rhsBatch := []
  wf := dot_S32x128_S128x64_S32x64_1_0_0_1_n_n_wf
def dot_S32x64_S64x1_S32x1_1_0_0_1_n_n : DotDims S32x64 S64x1 S32x1 where
  lhsContracting := [1]
  rhsContracting := [0]
  lhsNonContracting := [0]
  rhsNonContracting := [1]
  lhsBatch := []
  rhsBatch := []
  wf := dot_S32x64_S64x1_S32x1_1_0_0_1_n_n_wf
def dot_S32x1_S64x1_S32x64_1_1_0_0_n_n : DotDims S32x1 S64x1 S32x64 where
  lhsContracting := [1]
  rhsContracting := [1]
  lhsNonContracting := [0]
  rhsNonContracting := [0]
  lhsBatch := []
  rhsBatch := []
  wf := dot_S32x1_S64x1_S32x64_1_1_0_0_n_n_wf
def dot_S32x64_S128x64_S32x128_1_1_0_0_n_n : DotDims S32x64 S128x64 S32x128 where
  lhsContracting := [1]
  rhsContracting := [1]
  lhsNonContracting := [0]
  rhsNonContracting := [0]
  lhsBatch := []
  rhsBatch := []
  wf := dot_S32x64_S128x64_S32x128_1_1_0_0_n_n_wf
def dot_S32x128_S128x128_S32x128_1_1_0_0_n_n : DotDims S32x128 S128x128 S32x128 where
  lhsContracting := [1]
  rhsContracting := [1]
  lhsNonContracting := [0]
  rhsNonContracting := [0]
  lhsBatch := []
  rhsBatch := []
  wf := dot_S32x128_S128x128_S32x128_1_1_0_0_n_n_wf
def dot_S32x128_S2x128_S32x2_1_1_0_0_n_n : DotDims S32x128 S2x128 S32x2 where
  lhsContracting := [1]
  rhsContracting := [1]
  lhsNonContracting := [0]
  rhsNonContracting := [0]
  lhsBatch := []
  rhsBatch := []
  wf := dot_S32x128_S2x128_S32x2_1_1_0_0_n_n_wf
def dot_S32x2_S2x64_S32x64_1_0_0_1_n_n : DotDims S32x2 S2x64 S32x64 where
  lhsContracting := [1]
  rhsContracting := [0]
  lhsNonContracting := [0]
  rhsNonContracting := [1]
  lhsBatch := []
  rhsBatch := []
  wf := dot_S32x2_S2x64_S32x64_1_0_0_1_n_n_wf
def dot_S32x64_S64x32_S32x32_1_0_0_1_n_n : DotDims S32x64 S64x32 S32x32 where
  lhsContracting := [1]
  rhsContracting := [0]
  lhsNonContracting := [0]
  rhsNonContracting := [1]
  lhsBatch := []
  rhsBatch := []
  wf := dot_S32x64_S64x32_S32x32_1_0_0_1_n_n_wf
def dot_S32x32_S32x4_S32x4_1_0_0_1_n_n : DotDims S32x32 S32x4 S32x4 where
  lhsContracting := [1]
  rhsContracting := [0]
  lhsNonContracting := [0]
  rhsNonContracting := [1]
  lhsBatch := []
  rhsBatch := []
  wf := dot_S32x32_S32x4_S32x4_1_0_0_1_n_n_wf

abbrev win0_0 : Pipeline.Window sig grid0 :=
  Pipeline.Window.ofSpec (Memref.whole main_v0) S32x8x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x8x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x2.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S32x8x16x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S32x1x1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S32x8x16x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S32x8x16x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S32x8x16x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S32x2.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S32x8x16x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v103) S32x1x1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v104) S32x8x16x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v104) S32x8x16x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S32x8x16x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v105) S32x2.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v53) S32x8x16x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v155) S32x1x1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v156) S32x8x16x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v104) S32x8x16x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v156) S32x8x16x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v157) S32x2.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v104) S32x8x16x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v191) S1x1.size cc7_transform_1 reads7_1 true true 1 stage7_1 sem7_1
    hrank7 hreads7_1 hinb7_1 nbuf7_1 (Memref.isWhole_whole _) hwx7_1 hstage7_1

abbrev win7 : Fin 2 → Pipeline.Window sig grid7 := fun | 0 => win7_0 | 1 => win7_1 | ⟨_ + 2, h⟩ => absurd h (Nat.not_lt.2 (Nat.le_add_left _ _))
abbrev spec7 : Fin 2 → Pipeline.WinSpec sig grid7.rank := fun w => (win7 w).toWinSpec

abbrev win8_0 : Pipeline.Window sig grid8 :=
  Pipeline.Window.ofSpec (Memref.whole main_v156) S32x8x16x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v192) S1x1.size cc8_transform_1 reads8_1 true true 1 stage8_1 sem8_1
    hrank8 hreads8_1 hinb8_1 nbuf8_1 (Memref.isWhole_whole _) hwx8_1 hstage8_1

abbrev win8 : Fin 2 → Pipeline.Window sig grid8 := fun | 0 => win8_0 | 1 => win8_1 | ⟨_ + 2, h⟩ => absurd h (Nat.not_lt.2 (Nat.le_add_left _ _))
abbrev spec8 : Fin 2 → Pipeline.WinSpec sig grid8.rank := fun w => (win8 w).toWinSpec

abbrev win9_0 : Pipeline.Window sig grid9 :=
  Pipeline.Window.ofSpec (Memref.whole main_v104) S32x8x16x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v156) S32x8x16x256.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v201) S1x1.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v202) S32x16x16x256.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S32x16x256x256 : Shape := ⟨4, ![32, 16, 256, 256]⟩
abbrev S_ : Shape := ⟨0, ![]⟩
abbrev S2x128 : Shape := ⟨2, ![2, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x64 : Shape := ⟨2, ![2, 64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S32x8x256x256 : Shape := ⟨4, ![32, 8, 256, 256]⟩
abbrev S32x1 : Shape := ⟨2, ![32, 1]⟩
abbrev S32x2 : Shape := ⟨2, ![32, 2]⟩
abbrev S32x128 : Shape := ⟨2, ![32, 128]⟩
abbrev S1x128 : Shape := ⟨2, ![1, 128]⟩
abbrev S32x64 : Shape := ⟨2, ![32, 64]⟩
abbrev S1x64 : Shape := ⟨2, ![1, 64]⟩
abbrev S1x1 : Shape := ⟨2, ![1, 1]⟩
abbrev S32x1x1x1 : Shape := ⟨4, ![32, 1, 1, 1]⟩
abbrev S32x32 : Shape := ⟨2, ![32, 32]⟩
abbrev S1x32 : Shape := ⟨2, ![1, 32]⟩
abbrev S1x4 : Shape := ⟨2, ![1, 4]⟩

abbrev nBuf : Space → Nat
  | .hbm => 299
  | .vmem => 0
  | .smem => 0
  | _ => 0

abbrev hbmTy0_0 (i : Nat) : BufTy := match i % 128 with
  | 0 => ⟨S32x16x256x256, .f32⟩
  | 1 => ⟨S_, .f32⟩
  | 2 => ⟨S2x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S64x1, .f32⟩
  | 9 => ⟨S1, .f32⟩
  | 10 => ⟨S2x64, .f32⟩
  | 11 => ⟨S64, .f32⟩
  | 12 => ⟨S64x32, .f32⟩
  | 13 => ⟨S32, .f32⟩
  | 14 => ⟨S32x4, .f32⟩
  | 15 => ⟨S4, .f32⟩
  | 16 => ⟨S32x8x256x256, .f32⟩
  | 17 => ⟨S32x8x256x256, .f32⟩
  | 18 => ⟨S_, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S_, .f32⟩
  | 26 => ⟨S32, .f32⟩
  | 27 => ⟨S32, .f32⟩
  | 28 => ⟨S32x1, .f32⟩
  | 29 => ⟨S32x1, .f32⟩
  | 30 => ⟨S32x2, .f32⟩
  | 31 => ⟨S32x128, .f32⟩
  | 32 => ⟨S1x128, .f32⟩
  | 33 => ⟨S32x128, .f32⟩
  | 34 => ⟨S32x128, .f32⟩
  | 35 => ⟨S32x128, .f32⟩
  | 36 => ⟨S_, .f32⟩
  | 37 => ⟨S32x128, .f32⟩
  | 38 => ⟨S32x128, .f32⟩
  | 39 => ⟨S32x128, .f32⟩
  | 40 => ⟨S1x128, .f32⟩
  | 41 => ⟨S32x128, .f32⟩
  | 42 => ⟨S32x128, .f32⟩
  | 43 => ⟨S32x128, .f32⟩
  | 44 => ⟨S_, .f32⟩
  | 45 => ⟨S32x128, .f32⟩
  | 46 => ⟨S32x128, .f32⟩
  | 47 => ⟨S32x64, .f32⟩
  | 48 => ⟨S1x64, .f32⟩
  | 49 => ⟨S32x64, .f32⟩
  | 50 => ⟨S32x64, .f32⟩
  | 51 => ⟨S32x64, .f32⟩
  | 52 => ⟨S_, .f32⟩
  | 53 => ⟨S32x64, .f32⟩
  | 54 => ⟨S32x64, .f32⟩
  | 55 => ⟨S32x1, .f32⟩
  | 56 => ⟨S1x1, .f32⟩
  | 57 => ⟨S32x1, .f32⟩
  | 58 => ⟨S32x1, .f32⟩
  | 59 => ⟨S_, .f32⟩
  | 60 => ⟨S_, .f32⟩
  | 61 => ⟨S_, .f32⟩
  | 62 => ⟨S32x1, .f32⟩
  | 63 => ⟨S32x64, .f32⟩
  | 64 => ⟨S32x64, .f32⟩
  | 65 => ⟨S32x64, .f32⟩
  | 66 => ⟨S32x64, .f32⟩
  | 67 => ⟨S32x128, .f32⟩
  | 68 => ⟨S32x128, .f32⟩
  | 69 => ⟨S32x128, .f32⟩
  | 70 => ⟨S32x128, .f32⟩
  | 71 => ⟨S32x128, .f32⟩
  | 72 => ⟨S32x128, .f32⟩
  | 73 => ⟨S32x128, .f32⟩
  | 74 => ⟨S32x128, .f32⟩
  | 75 => ⟨S32x2, .f32⟩
  | 76 => ⟨S_, .f32⟩
  | 77 => ⟨S_, .f32⟩
  | 78 => ⟨S32x1, .f32⟩
  | 79 => ⟨S32, .f32⟩
  | 80 => ⟨S_, .f32⟩
  | 81 => ⟨S32, .f32⟩
  | 82 => ⟨S32, .f32⟩
  | 83 => ⟨S32x1x1x1, .f32⟩
  | 84 => ⟨S32x1x1x1, .f32⟩
  | 85 => ⟨S32x1x1x1, .f32⟩
  | 86 => ⟨S32x8x256x256, .f32⟩
  | 87 => ⟨S32x8x256x256, .f32⟩
  | 88 => ⟨S_, .f32⟩
  | 89 => ⟨S32, .f32⟩
  | 90 => ⟨S_, .f32⟩
  | 91 => ⟨S32, .f32⟩
  | 92 => ⟨S32, .f32⟩
  | 93 => ⟨S_, .f32⟩
  | 94 => ⟨S32, .f32⟩
  | 95 => ⟨S_, .f32⟩
  | 96 => ⟨S32, .f32⟩
  | 97 => ⟨S32, .f32⟩
  | 98 => ⟨S32x1, .f32⟩
  | 99 => ⟨S32x1, .f32⟩
  | 100 => ⟨S32x2, .f32⟩
  | 101 => ⟨S32x128, .f32⟩
  | 102 => ⟨S1x128, .f32⟩
  | 103 => ⟨S32x128, .f32⟩
  | 104 => ⟨S32x128, .f32⟩
  | 105 => ⟨S32x128, .f32⟩
  | 106 => ⟨S_, .f32⟩
  | 107 => ⟨S32x128, .f32⟩
  | 108 => ⟨S32x128, .f32⟩
  | 109 => ⟨S32x128, .f32⟩
  | 110 => ⟨S1x128, .f32⟩
  | 111 => ⟨S32x128, .f32⟩
  | 112 => ⟨S32x128, .f32⟩
  | 113 => ⟨S32x128, .f32⟩
  | 114 => ⟨S_, .f32⟩
  | 115 => ⟨S32x128, .f32⟩
  | 116 => ⟨S32x128, .f32⟩
  | 117 => ⟨S32x64, .f32⟩
  | 118 => ⟨S1x64, .f32⟩
  | 119 => ⟨S32x64, .f32⟩
  | 120 => ⟨S32x64, .f32⟩
  | 121 => ⟨S32x64, .f32⟩
  | 122 => ⟨S_, .f32⟩
  | 123 => ⟨S32x64, .f32⟩
  | 124 => ⟨S32x64, .f32⟩
  | 125 => ⟨S32x1, .f32⟩
  | 126 => ⟨S1x1, .f32⟩
  | 127 => ⟨S32x1, .f32⟩
  | _ => ⟨S32x16x256x256, .f32⟩

abbrev hbmTy0_1 (i : Nat) : BufTy := match i % 128 with
  | 0 => ⟨S32x1, .f32⟩
  | 1 => ⟨S_, .f32⟩
  | 2 => ⟨S_, .f32⟩
  | 3 => ⟨S_, .f32⟩
  | 4 => ⟨S32x1, .f32⟩
  | 5 => ⟨S32x64, .f32⟩
  | 6 => ⟨S32x64, .f32⟩
  | 7 => ⟨S32x64, .f32⟩
  | 8 => ⟨S32x64, .f32⟩
  | 9 => ⟨S32x128, .f32⟩
  | 10 => ⟨S32x128, .f32⟩
  | 11 => ⟨S32x128, .f32⟩
  | 12 => ⟨S32x128, .f32⟩
  | 13 => ⟨S32x128, .f32⟩
  | 14 => ⟨S32x128, .f32⟩
  | 15 => ⟨S32x128, .f32⟩
  | 16 => ⟨S32x128, .f32⟩
  | 17 => ⟨S32x2, .f32⟩
  | 18 => ⟨S32x1, .f32⟩
  | 19 => ⟨S32, .f32⟩
  | 20 => ⟨S_, .f32⟩
  | 21 => ⟨S32, .f32⟩
  | 22 => ⟨S32, .f32⟩
  | 23 => ⟨S32x1x1x1, .f32⟩
  | 24 => ⟨S32x1x1x1, .f32⟩
  | 25 => ⟨S32x1x1x1, .f32⟩
  | 26 => ⟨S32x8x256x256, .f32⟩
  | 27 => ⟨S32x8x256x256, .f32⟩
  | 28 => ⟨S_, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S_, .f32⟩
  | 36 => ⟨S32, .f32⟩
  | 37 => ⟨S32, .f32⟩
  | 38 => ⟨S32x1, .f32⟩
  | 39 => ⟨S32x1, .f32⟩
  | 40 => ⟨S32x2, .f32⟩
  | 41 => ⟨S32x128, .f32⟩
  | 42 => ⟨S1x128, .f32⟩
  | 43 => ⟨S32x128, .f32⟩
  | 44 => ⟨S32x128, .f32⟩
  | 45 => ⟨S32x128, .f32⟩
  | 46 => ⟨S_, .f32⟩
  | 47 => ⟨S32x128, .f32⟩
  | 48 => ⟨S32x128, .f32⟩
  | 49 => ⟨S32x128, .f32⟩
  | 50 => ⟨S1x128, .f32⟩
  | 51 => ⟨S32x128, .f32⟩
  | 52 => ⟨S32x128, .f32⟩
  | 53 => ⟨S32x128, .f32⟩
  | 54 => ⟨S_, .f32⟩
  | 55 => ⟨S32x128, .f32⟩
  | 56 => ⟨S32x128, .f32⟩
  | 57 => ⟨S32x64, .f32⟩
  | 58 => ⟨S1x64, .f32⟩
  | 59 => ⟨S32x64, .f32⟩
  | 60 => ⟨S32x64, .f32⟩
  | 61 => ⟨S32x64, .f32⟩
  | 62 => ⟨S_, .f32⟩
  | 63 => ⟨S32x64, .f32⟩
  | 64 => ⟨S32x64, .f32⟩
  | 65 => ⟨S32x1, .f32⟩
  | 66 => ⟨S1x1, .f32⟩
  | 67 => ⟨S32x1, .f32⟩
  | 68 => ⟨S32x1, .f32⟩
  | 69 => ⟨S_, .f32⟩
  | 70 => ⟨S_, .f32⟩
  | 71 => ⟨S_, .f32⟩
  | 72 => ⟨S32x1, .f32⟩
  | 73 => ⟨S32x64, .f32⟩
  | 74 => ⟨S32x64, .f32⟩
  | 75 => ⟨S32x64, .f32⟩
  | 76 => ⟨S32x64, .f32⟩
  | 77 => ⟨S32x128, .f32⟩
  | 78 => ⟨S32x128, .f32⟩
  | 79 => ⟨S32x128, .f32⟩
  | 80 => ⟨S32x128, .f32⟩
  | 81 => ⟨S32x128, .f32⟩
  | 82 => ⟨S32x128, .f32⟩
  | 83 => ⟨S32x128, .f32⟩
  | 84 => ⟨S32x128, .f32⟩
  | 85 => ⟨S32x2, .f32⟩
  | 86 => ⟨S_, .f32⟩
  | 87 => ⟨S_, .f32⟩
  | 88 => ⟨S32x1, .f32⟩
  | 89 => ⟨S32, .f32⟩
  | 90 => ⟨S_, .f32⟩
  | 91 => ⟨S32, .f32⟩
  | 92 => ⟨S32, .f32⟩
  | 93 => ⟨S32x1x1x1, .f32⟩
  | 94 => ⟨S32x1x1x1, .f32⟩
  | 95 => ⟨S32x1x1x1, .f32⟩
  | 96 => ⟨S32x8x256x256, .f32⟩
  | 97 => ⟨S32x8x256x256, .f32⟩
  | 98 => ⟨S32x16x256x256, .f32⟩
  | 99 => ⟨S_, .f32⟩
  | 100 => ⟨S32, .f32⟩
  | 101 => ⟨S_, .f32⟩
  | 102 => ⟨S32, .f32⟩
  | 103 => ⟨S32, .f32⟩
  | 104 => ⟨S_, .f32⟩
  | 105 => ⟨S32, .f32⟩
  | 106 => ⟨S_, .f32⟩
  | 107 => ⟨S32, .f32⟩
  | 108 => ⟨S32, .f32⟩
  | 109 => ⟨S32x1, .f32⟩
  | 110 => ⟨S32x1, .f32⟩
  | 111 => ⟨S32x2, .f32⟩
  | 112 => ⟨S32x64, .f32⟩
  | 113 => ⟨S1x64, .f32⟩
  | 114 => ⟨S32x64, .f32⟩
  | 115 => ⟨S32x64, .f32⟩
  | 116 => ⟨S32x64, .f32⟩
  | 117 => ⟨S32x32, .f32⟩
  | 118 => ⟨S1x32, .f32⟩
  | 119 => ⟨S32x32, .f32⟩
  | 120 => ⟨S32x32, .f32⟩
  | 121 => ⟨S32x32, .f32⟩
  | 122 => ⟨S32x4, .f32⟩
  | 123 => ⟨S1x4, .f32⟩
  | 124 => ⟨S32x4, .f32⟩
  | 125 => ⟨S32x4, .f32⟩
  | 126 => ⟨S_, .f32⟩
  | 127 => ⟨S32, .f32⟩
  | _ => ⟨S32x16x256x256, .f32⟩

abbrev hbmTy0_2 (i : Nat) : BufTy := match i % 128 with
  | 0 => ⟨S_, .f32⟩
  | 1 => ⟨S32, .f32⟩
  | 2 => ⟨S32, .f32⟩
  | 3 => ⟨S_, .f32⟩
  | 4 => ⟨S32, .f32⟩
  | 5 => ⟨S_, .f32⟩
  | 6 => ⟨S32, .f32⟩
  | 7 => ⟨S32, .f32⟩
  | 8 => ⟨S32x1, .f32⟩
  | 9 => ⟨S32x1, .f32⟩
  | 10 => ⟨S32x2, .f32⟩
  | 11 => ⟨S32x64, .f32⟩
  | 12 => ⟨S1x64, .f32⟩
  | 13 => ⟨S32x64, .f32⟩
  | 14 => ⟨S32x64, .f32⟩
  | 15 => ⟨S32x64, .f32⟩
  | 16 => ⟨S32x32, .f32⟩
  | 17 => ⟨S1x32, .f32⟩
  | 18 => ⟨S32x32, .f32⟩
  | 19 => ⟨S32x32, .f32⟩
  | 20 => ⟨S32x32, .f32⟩
  | 21 => ⟨S32x4, .f32⟩
  | 22 => ⟨S1x4, .f32⟩
  | 23 => ⟨S32x4, .f32⟩
  | 24 => ⟨S32x4, .f32⟩
  | 25 => ⟨S32x4, .f32⟩
  | 26 => ⟨S_, .f32⟩
  | 27 => ⟨S_, .f32⟩
  | 28 => ⟨S_, .f32⟩
  | 29 => ⟨S_, .f32⟩
  | 30 => ⟨S32x16x256x256, .f32⟩
  | 31 => ⟨S_, .f32⟩
  | 32 => ⟨S_, .f32⟩
  | 33 => ⟨S_, .f32⟩
  | 34 => ⟨S_, .f32⟩
  | 35 => ⟨S_, .f32⟩
  | 36 => ⟨S32x16x256x256, .f32⟩
  | 37 => ⟨S32x16x256x256, .f32⟩
  | 38 => ⟨S_, .f32⟩
  | 39 => ⟨S_, .f32⟩
  | 40 => ⟨S32x16x256x256, .f32⟩
  | 41 => ⟨S32x16x256x256, .f32⟩
  | 42 => ⟨S32x16x256x256, .f32⟩
  | _ => ⟨S32x16x256x256, .f32⟩

abbrev hbmTy (i : Nat) : BufTy := match i / 128 with
  | 0 => hbmTy0_0 i
  | 1 => hbmTy0_1 i
  | 2 => hbmTy0_2 i
  | _ => ⟨S32x16x256x256, .f32⟩

abbrev bufTy : (tb : Table) → Fin (tcTables nBuf tb) → BufTy
  | .hbm, ⟨i, _⟩ => hbmTy i
  | _, _ => ⟨S32x16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_10 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_15 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_16 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_17 : Ref sig .tc := ⟨.hbm, 129, rfl⟩
abbrev main_v95 : Ref sig .tc := ⟨.hbm, 130, rfl⟩
abbrev main_cst_18 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_19 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_20 : Ref sig .tc := ⟨.hbm, 156, rfl⟩
abbrev main_v119 : Ref sig .tc := ⟨.hbm, 157, rfl⟩
abbrev main_cst_21 : Ref sig .tc := ⟨.hbm, 158, rfl⟩
abbrev main_v120 : Ref sig .tc := ⟨.hbm, 159, rfl⟩
abbrev main_v121 : Ref sig .tc := ⟨.hbm, 160, rfl⟩
abbrev main_cst_22 : Ref sig .tc := ⟨.hbm, 161, rfl⟩
abbrev main_v122 : Ref sig .tc := ⟨.hbm, 162, rfl⟩
abbrev main_cst_23 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_24 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_25 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_26 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_cst_27 : Ref sig .tc := ⟨.hbm, 197, rfl⟩
abbrev main_v153 : Ref sig .tc := ⟨.hbm, 198, rfl⟩
abbrev main_cst_28 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_cst_29 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_cst_30 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_cst_31 : Ref sig .tc := ⟨.hbm, 227, rfl⟩
abbrev main_v179 : Ref sig .tc := ⟨.hbm, 228, rfl⟩
abbrev main_cst_32 : Ref sig .tc := ⟨.hbm, 229, rfl⟩
abbrev main_v180 : Ref sig .tc := ⟨.hbm, 230, rfl⟩
abbrev main_v181 : Ref sig .tc := ⟨.hbm, 231, rfl⟩
abbrev main_cst_33 : Ref sig .tc := ⟨.hbm, 232, rfl⟩
abbrev main_v182 : Ref sig .tc := ⟨.hbm, 233, rfl⟩
abbrev main_cst_34 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_cst_35 : Ref sig .tc := ⟨.hbm, 254, rfl⟩
abbrev main_v202 : Ref sig .tc := ⟨.hbm, 255, rfl⟩
abbrev main_cst_36 : Ref sig .tc := ⟨.hbm, 256, rfl⟩
abbrev main_v203 : Ref sig .tc := ⟨.hbm, 257, rfl⟩
abbrev main_v204 : Ref sig .tc := ⟨.hbm, 258, rfl⟩
abbrev main_cst_37 : Ref sig .tc := ⟨.hbm, 259, rfl⟩
abbrev main_v205 : Ref sig .tc := ⟨.hbm, 260, rfl⟩
abbrev main_cst_38 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_cst_39 : Ref sig .tc := ⟨.hbm, 282, rfl⟩
abbrev main_v226 : Ref sig .tc := ⟨.hbm, 283, rfl⟩
abbrev main_cst_40 : Ref sig .tc := ⟨.hbm, 284, rfl⟩
abbrev main_v227 : Ref sig .tc := ⟨.hbm, 285, rfl⟩
abbrev main_v228 : Ref sig .tc := ⟨.hbm, 286, rfl⟩
abbrev main_cst_41 : Ref sig .tc := ⟨.hbm, 287, rfl⟩
abbrev main_v229 : Ref sig .tc := ⟨.hbm, 288, rfl⟩
abbrev main_v230 : Ref sig .tc := ⟨.hbm, 289, rfl⟩
abbrev main_cst_42 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_cst_43 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩

abbrev nD : Nat := 1
abbrev τ : Topo := Topo.v7x

variable {F : FTy → Type} [FloatOps F]

class Facts₀ : Prop where
  slices_S32x16x256x256_S32x8x256x256_0_0_0_0 : S32x16x256x256.Slices ![0, 0, 0, 0] S32x8x256x256
  slices_S32x16x256x256_S32x8x256x256_0_8_0_0 : S32x16x256x256.Slices ![0, 8, 0, 0] S32x8x256x256
  reducesTo_S32x8x256x256_S32_d1_2_3 : S32x8x256x256.ReducesTo [1, 2, 3] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S_S32x64 : S_.BroadcastsInDim S32x64 (![] : Fin 0 → Fin S32x64.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  reducesTo_S32x1_S_d0_1 : S32x1.ReducesTo [0, 1] S_
  bcast_S_S32x1 : S_.BroadcastsInDim S32x1 (![] : Fin 0 → Fin S32x1.rank)
  slices_S32x2_S32x1_0_0 : S32x2.Slices ![0, 0] S32x1
  shapeCasts_S32x1_S32 : S32x1.ShapeCasts S32
  bcast_S32_S32x1x1x1_0 : S32.BroadcastsInDim S32x1x1x1 (![0] : Fin 1 → Fin S32x1x1x1.rank)
  bcast_S_S32x1x1x1 : S_.BroadcastsInDim S32x1x1x1 (![] : Fin 0 → Fin S32x1x1x1.rank)
  bcast_S32x1x1x1_S32x8x256x256_0_1_2_3 : S32x1x1x1.BroadcastsInDim S32x8x256x256 (![0, 1, 2, 3] : Fin 4 → Fin S32x8x256x256.rank)
  slices_S32x2_S32x1_0_1 : S32x2.Slices ![0, 1] S32x1
  concatenates_S32x8x256x256_S32x8x256x256_S32x16x256x256_d1 : Shape.Concatenates [S32x8x256x256, S32x8x256x256] S32x16x256x256 1
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  bcast_S4_S1x4_1 : S4.BroadcastsInDim S1x4 (![1] : Fin 1 → Fin S1x4.rank)
  bcast_S1x4_S32x4_0_1 : S1x4.BroadcastsInDim S32x4 (![0, 1] : Fin 2 → Fin S32x4.rank)
  reducesTo_S32x4_S_d0_1 : S32x4.ReducesTo [0, 1] S_
  reducesTo_S32x16x256x256_S_d0_1_2_3 : S32x16x256x256.ReducesTo [0, 1, 2, 3] S_
  bcast_S_S32x16x256x256 : S_.BroadcastsInDim S32x16x256x256 (![] : Fin 0 → Fin S32x16x256x256.rank)
  dot_S32x2_S2x128_S32x128_1_0_0_1_n_n_wf : DotDims.WF S32x2 S2x128 S32x128 [1] [0] [0] [1] [] []
  dot_S32x128_S128x128_S32x128_1_0_0_1_n_n_wf : DotDims.WF S32x128 S128x128 S32x128 [1] [0] [0] [1] [] []
  dot_S32x128_S128x64_S32x64_1_0_0_1_n_n_wf : DotDims.WF S32x128 S128x64 S32x64 [1] [0] [0] [1] [] []
  dot_S32x64_S64x1_S32x1_1_0_0_1_n_n_wf : DotDims.WF S32x64 S64x1 S32x1 [1] [0] [0] [1] [] []
  dot_S32x1_S64x1_S32x64_1_1_0_0_n_n_wf : DotDims.WF S32x1 S64x1 S32x64 [1] [1] [0] [0] [] []
  dot_S32x64_S128x64_S32x128_1_1_0_0_n_n_wf : DotDims.WF S32x64 S128x64 S32x128 [1] [1] [0] [0] [] []
  dot_S32x128_S128x128_S32x128_1_1_0_0_n_n_wf : DotDims.WF S32x128 S128x128 S32x128 [1] [1] [0] [0] [] []
  dot_S32x128_S2x128_S32x2_1_1_0_0_n_n_wf : DotDims.WF S32x128 S2x128 S32x2 [1] [1] [0] [0] [] []
  dot_S32x2_S2x64_S32x64_1_0_0_1_n_n_wf : DotDims.WF S32x2 S2x64 S32x64 [1] [0] [0] [1] [] []
  dot_S32x64_S64x32_S32x32_1_0_0_1_n_n_wf : DotDims.WF S32x64 S64x32 S32x32 [1] [0] [0] [1] [] []
  dot_S32x32_S32x4_S32x4_1_0_0_1_n_n_wf : DotDims.WF S32x32 S32x4 S32x4 [1] [0] [0] [1] [] []

variable [Facts₀]

def dot_S32x2_S2x128_S32x128_1_0_0_1_n_n : DotDims S32x2 S2x128 S32x128 where
  lhsContracting := [1]
  rhsContracting := [0]
  lhsNonContracting := [0]
  rhsNonContracting := [1]
  lhsBatch := []
  rhsBatch := []
  wf := dot_S32x2_S2x128_S32x128_1_0_0_1_n_n_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S32x128_S128x64_S32x64_1_0_0_1_n_n : DotDims S32x128 S128x64 S32x64 where
  lhsContracting := [1]
  rhsContracting := [0]
  lhsNonContracting := [0]
  rhsNonContracting := [1]
  lhsBatch := []
  rhsBatch := []
  wf := dot_S32x128_S128x64_S32x64_1_0_0_1_n_n_wf
def dot_S32x64_S64x1_S32x1_1_0_0_1_n_n : DotDims S32x64 S64x1 S32x1 where
  lhsContracting := [1]
  rhsContracting := [0]
  lhsNonContracting := [0]
  rhsNonContracting := [1]
  lhsBatch := []
  rhsBatch := []
  wf := dot_S32x64_S64x1_S32x1_1_0_0_1_n_n_wf
def dot_S32x1_S64x1_S32x64_1_1_0_0_n_n : DotDims S32x1 S64x1 S32x64 where
  lhsContracting := [1]
  rhsContracting := [1]
  lhsNonContracting := [0]
  rhsNonContracting := [0]
  lhsBatch := []
  rhsBatch := []
  wf := dot_S32x1_S64x1_S32x64_1_1_0_0_n_n_wf
def dot_S32x64_S128x64_S32x128_1_1_0_0_n_n : DotDims S32x64 S128x64 S32x128 where
  lhsContracting := [1]
  rhsContracting := [1]
  lhsNonContracting := [0]
  rhsNonContracting := [0]
  lhsBatch := []
  rhsBatch := []
  wf := dot_S32x64_S128x64_S32x128_1_1_0_0_n_n_wf
def dot_S32x128_S128x128_S32x128_1_1_0_0_n_n : DotDims S32x128 S128x128 S32x128 where
  lhsContracting := [1]
  rhsContracting := [1]
  lhsNonContracting := [0]
  rhsNonContracting := [0]
  lhsBatch := []
  rhsBatch := []
  wf := dot_S32x128_S128x128_S32x128_1_1_0_0_n_n_wf
def dot_S32x128_S2x128_S32x2_1_1_0_0_n_n : DotDims S32x128 S2x128 S32x2 where
  lhsContracting := [1]
  rhsContracting := [1]
  lhsNonContracting := [0]
  rhsNonContracting := [0]
  lhsBatch := []
  rhsBatch := []
  wf := dot_S32x128_S2x128_S32x2_1_1_0_0_n_n_wf
def dot_S32x2_S2x64_S32x64_1_0_0_1_n_n : DotDims S32x2 S2x64 S32x64 where
  lhsContracting := [1]
  rhsContracting := [0]
  lhsNonContracting := [0]
  rhsNonContracting := [1]
  lhsBatch := []
  rhsBatch := []
  wf := dot_S32x2_S2x64_S32x64_1_0_0_1_n_n_wf
def dot_S32x64_S64x32_S32x32_1_0_0_1_n_n : DotDims S32x64 S64x32 S32x32 where
  lhsContracting := [1]
  rhsContracting := [0]
  lhsNonContracting := [0]
  rhsNonContracting := [1]
  lhsBatch := []
  rhsBatch := []
  wf := dot_S32x64_S64x32_S32x32_1_0_0_1_n_n_wf
def dot_S32x32_S32x4_S32x4_1_0_0_1_n_n : DotDims S32x32 S32x4 S32x4 where
  lhsContracting := [1]
  rhsContracting := [0]
  lhsNonContracting := [0]
  rhsNonContracting := [1]
  lhsBatch := []
  rhsBatch := []
  wf := dot_S32x32_S32x4_S32x4_1_0_0_1_n_n_wf

class Facts : Prop extends Facts₀ where

variable [Facts]
-- ==== Proof.Spec.lean ====
/-
  The leapfrog step of the kernel as functions of arrays, written once and used by every later module.

  The program splits the state [32,16,256,256] into q (channels 0..7) and p (channels 8..15), and three times moves one of
  them by a per-batch scalar: the scalar is a gradient component of a four-layer tanh network evaluated at the per-batch
  MEANS of q and p (the sums over the 2^19 entries of a batch item, divided by 2^19), times a multiple of dt, divided by
  2^19. Here are, in order: the means of a pair of stacked sums; the network's three hidden layers, the four backward
  products of its gradient, and the gradient as their composition; the two per-batch steps (the p-step with factor
  -1/2 dt, the q-step with factor dt); the Casimir network (three layers); the mean error over the [32,4] Casimir values;
  the final scale 1 - 0.1 err / (sqrt(sq + sp) + 1e-10). These are generic in the float instance: they are the host
  operations themselves, composed.

  At the ideal instance (extended reals) come the four functions the four kinds of kernel region compute on whole arrays:
  the pair of per-batch sums of two arrays; an array plus a per-batch scalar; the sum of squares of an array; the two
  halves scaled by one scalar and laid side by side along the channel axis. The last definition composes all of them
  into the kernel's result as a function of the sixteen arguments.
-/
import proofs.«126091_j27977416966525_1_alg».proof.Proof.Gen.KernelIdeal
import Idealize.ShloMosaic.PureOps.Ideal
import Idealize.ShloMosaic.Lib.ValueIdx

noncomputable section

open scoped BigOperators

namespace Leap

open Cert.KernelIdeal Cert.KernelIdeal.Gen Idealize.ShloMosaic Idealize.ShloMosaic.ValueIdx

variable {F : FTy → Type} [FloatOps F]

/-! ## The host operations, composed (any float instance) -/

/-- The first eight channels of the state: q. -/
def qOf (st : Vec F S32x16x256x256 .f32) : Vec F S32x8x256x256 .f32 :=
  extractStridedSlice S32x8x256x256 ![0, 0, 0, 0] st slices_S32x16x256x256_S32x8x256x256_0_0_0_0

/-- The last eight channels of the state: p. -/
def pOf (st : Vec F S32x16x256x256 .f32) : Vec F S32x8x256x256 .f32 :=
  extractStridedSlice S32x8x256x256 ![0, 8, 0, 0] st slices_S32x16x256x256_S32x8x256x256_0_8_0_0

/-- Per-batch means from per-batch sums: every entry divided by 2^19 (the word 0x49000000). -/
def meansOf (s : Vec F S32x2 .f32) : Vec F S32x2 .f32 :=
  Host.divf s (broadcastInDim S32x2 ![] bcast_S_S32x2 (constant S_ .f32 0x49000000#32))

/-- First hidden layer: tanh (s W1 + b1). -/
def hid1 (W1 : Vec F S2x128 .f32) (b1 : Vec F S128 .f32) (s : Vec F S32x2 .f32) : Vec F S32x128 .f32 :=
  Host.tanh (addf (Host.dotGeneral dot_S32x2_S2x128_S32x128_1_0_0_1_n_n none s W1)
    (broadcastInDim S32x128 ![0, 1] bcast_S1x128_S32x128_0_1 (broadcastInDim S1x128 ![1] bcast_S128_S1x128_1 b1)))

/-- Second hidden layer: tanh (h W2 + b2). -/
def hid2 (W2 : Vec F S128x128 .f32) (b2 : Vec F S128 .f32) (h : Vec F S32x128 .f32) : Vec F S32x128 .f32 :=
  Host.tanh (addf (Host.dotGeneral dot_S32x128_S128x128_S32x128_1_0_0_1_n_n none h W2)
    (broadcastInDim S32x128 ![0, 1] bcast_S1x128_S32x128_0_1 (broadcastInDim S1x128 ![1] bcast_S128_S1x128_1 b2)))

/-- Third hidden layer: tanh (h W3 + b3). -/
def hid3 (W3 : Vec F S128x64 .f32) (b3 : Vec F S64 .f32) (h : Vec F S32x128 .f32) : Vec F S32x64 .f32 :=
  Host.tanh (addf (Host.dotGeneral dot_S32x128_S128x64_S32x64_1_0_0_1_n_n none h W3)
    (broadcastInDim S32x64 ![0, 1] bcast_S1x64_S32x64_0_1 (broadcastInDim S1x64 ![1] bcast_S64_S1x64_1 b3)))

/-- Backward through the output layer: (1 W4ᵀ) (1 - h3). -/
def back3 (W4 : Vec F S64x1 .f32) (h3 : Vec F S32x64 .f32) : Vec F S32x64 .f32 :=
  mulf (Host.dotGeneral dot_S32x1_S64x1_S32x64_1_1_0_0_n_n none
      (broadcastInDim S32x1 ![] bcast_S_S32x1 (constant S_ .f32 0x3F800000#32)) W4)
    (subf (broadcastInDim S32x64 ![] bcast_S_S32x64 (constant S_ .f32 0x3F800000#32)) h3)

/-- Backward through the third layer: ((d + d h3) W3ᵀ) (1 - h2). -/
def back2 (W3 : Vec F S128x64 .f32) (d h3 : Vec F S32x64 .f32) (h2 : Vec F S32x128 .f32) : Vec F S32x128 .f32 :=
  mulf (Host.dotGeneral dot_S32x64_S128x64_S32x128_1_1_0_0_n_n none (addf d (mulf d h3)) W3)
    (subf (broadcastInDim S32x128 ![] bcast_S_S32x128 (constant S_ .f32 0x3F800000#32)) h2)

/-- Backward through the second layer: ((d + d h2) W2ᵀ) (1 - h1). -/
def back1 (W2 : Vec F S128x128 .f32) (d h2 h1 : Vec F S32x128 .f32) : Vec F S32x128 .f32 :=
  mulf (Host.dotGeneral dot_S32x128_S128x128_S32x128_1_1_0_0_n_n none (addf d (mulf d h2)) W2)
    (subf (broadcastInDim S32x128 ![] bcast_S_S32x128 (constant S_ .f32 0x3F800000#32)) h1)

/-- Backward through the first layer: (d + d h1) W1ᵀ, the gradient with respect to the two means. -/
def back0 (W1 : Vec F S2x128 .f32) (d h1 : Vec F S32x128 .f32) : Vec F S32x2 .f32 :=
  Host.dotGeneral dot_S32x128_S2x128_S32x2_1_1_0_0_n_n none (addf d (mulf d h1)) W1

/-- The gradient of the summed network output with respect to the [32,2] means. -/
def gradH (W1 : Vec F S2x128 .f32) (b1 : Vec F S128 .f32) (W2 : Vec F S128x128 .f32) (b2 : Vec F S128 .f32)
    (W3 : Vec F S128x64 .f32) (b3 : Vec F S64 .f32) (W4 : Vec F S64x1 .f32) (s : Vec F S32x2 .f32) : Vec F S32x2 .f32 :=
  back0 W1
    (back1 W2
      (back2 W3 (back3 W4 (hid3 W3 b3 (hid2 W2 b2 (hid1 W1 b1 s)))) (hid3 W3 b3 (hid2 W2 b2 (hid1 W1 b1 s))) (hid2 W2 b2 (hid1 W1 b1 s)))
      (hid2 W2 b2 (hid1 W1 b1 s)) (hid1 W1 b1 s))
    (hid1 W1 b1 s)

/-- The per-batch step of p: ((-1/2 dt) g[:,0]) / 2^19, as a [32,1,1,1] array. -/
def stepP (dt : Vec F S_ .f32) (g : Vec F S32x2 .f32) : Vec F S32x1x1x1 .f32 :=
  shapeCast S32x1x1x1 (Host.divf
    (mulf (broadcastInDim S32 ![] bcast_S_S32 (mulf (constant S_ .f32 0xBF000000#32) dt))
      (shapeCast S32 (extractStridedSlice S32x1 ![0, 0] g slices_S32x2_S32x1_0_0) shapeCasts_S32x1_S32))
    (broadcastInDim S32 ![] bcast_S_S32 (constant S_ .f32 0x49000000#32))) shapeCasts_S32_S32x1x1x1

/-- The per-batch step of q: (dt g[:,1]) / 2^19, as a [32,1,1,1] array. -/
def stepQ (dt : Vec F S_ .f32) (g : Vec F S32x2 .f32) : Vec F S32x1x1x1 .f32 :=
  shapeCast S32x1x1x1 (Host.divf
    (mulf (broadcastInDim S32 ![] bcast_S_S32 dt)
      (shapeCast S32 (extractStridedSlice S32x1 ![0, 1] g slices_S32x2_S32x1_0_1) shapeCasts_S32x1_S32))
    (broadcastInDim S32 ![] bcast_S_S32 (constant S_ .f32 0x49000000#32))) shapeCasts_S32_S32x1x1x1

/-- The Casimir network: tanh, tanh, affine, from the [32,2] means to [32,4]. -/
def casF (cW1 : Vec F S2x64 .f32) (cb1 : Vec F S64 .f32) (cW2 : Vec F S64x32 .f32) (cb2 : Vec F S32 .f32)
    (cW3 : Vec F S32x4 .f32) (cb3 : Vec F S4 .f32) (s : Vec F S32x2 .f32) : Vec F S32x4 .f32 :=
  addf (Host.dotGeneral dot_S32x32_S32x4_S32x4_1_0_0_1_n_n none
      (Host.tanh (addf (Host.dotGeneral dot_S32x64_S64x32_S32x32_1_0_0_1_n_n none
          (Host.tanh (addf (Host.dotGeneral dot_S32x2_S2x64_S32x64_1_0_0_1_n_n none s cW1)
            (broadcastInDim S32x64 ![0, 1] bcast_S1x64_S32x64_0_1 (broadcastInDim S1x64 ![1] bcast_S64_S1x64_1 cb1)))) cW2)
        (broadcastInDim S32x32 ![0, 1] bcast_S1x32_S32x32_0_1 (broadcastInDim S1x32 ![1] bcast_S32_S1x32_1 cb2)))) cW3)
    (broadcastInDim S32x4 ![0, 1] bcast_S1x4_S32x4_0_1 (broadcastInDim S1x4 ![1] bcast_S4_S1x4_1 cb3))

/-- The mean of the 128 differences of the new and the old Casimir values. -/
def errOf (cn co : Vec F S32x4 .f32) : Vec F S_ .f32 :=
  Host.divf (Host.reduceAdd (subf cn co) (constant S_ .f32 0x00000000#32) reducesTo_S32x4_S_d0_1 h_S_)
    (constant S_ .f32 0x43000000#32)

/-- The final scale: 1 - (0.1 err) / (sqrt (sq + sp) + 1e-10), as a [1,1] array. -/
def scaleOf (err : Vec F S_ .f32) (sq sp : Vec F S1x1 .f32) : Vec F S1x1 .f32 :=
  shapeCast S1x1 (subf (constant S_ .f32 0x3F800000#32)
    (Host.divf (mulf (constant S_ .f32 0x3DCCCCCD#32) err)
      (addf (Host.sqrt (addf (shapeCast S_ sq shapeCasts_S1x1_S_) (shapeCast S_ sp shapeCasts_S1x1_S_)))
        (constant S_ .f32 0x2EDBE6FF#32)))) shapeCasts_S_S1x1

/-! ## The four kinds of region, on whole arrays (extended reals) -/

/-- The sum of one batch item of a [32,8,256,256] array. -/
def rowSum (x : Vec Ideal S32x8x256x256 .f32) (b : Fin 32) : EReal :=
  ∑ c : Fin 8, ∑ h : Fin 256, ∑ w : Fin 256, x (ix4 b c h w)

/-- Two arrays' per-batch sums, stacked as the two columns of a [32,2] array. -/
def sum2 (a b : Vec Ideal S32x8x256x256 .f32) : Vec Ideal S32x2 .f32 :=
  fun j => if (j 1).val = 0 then rowSum a (j 0) else rowSum b (j 0)

theorem sum2_ix (a b : Vec Ideal S32x8x256x256 .f32) (i : Fin 32) (k : Fin 2) :
    sum2 a b (ix2 i k) = if k.val = 0 then rowSum a i else rowSum b i := rfl

/-- An array plus a per-batch scalar. -/
def addB (x : Vec Ideal S32x8x256x256 .f32) (c : Vec Ideal S32x1x1x1 .f32) : Vec Ideal S32x8x256x256 .f32 :=
  fun i => x i + c (ix4 (i 0) 0 0 0)

theorem addB_ix (x : Vec Ideal S32x8x256x256 .f32) (c : Vec Ideal S32x1x1x1 .f32) (b : Fin 32) (ch : Fin 8) (h w : Fin 256) :
    addB x c (ix4 b ch h w) = x (ix4 b ch h w) + c (ix4 b 0 0 0) := rfl

/-- The sum of the squares of all entries, as a [1,1] array. -/
def sumSq (x : Vec Ideal S32x8x256x256 .f32) : Vec Ideal S1x1 .f32 :=
  fun _ => ∑ i : S32x8x256x256.Idx, x i * x i

/-- q and p scaled by one scalar and laid side by side along the channel axis: channels 0..7 from q, 8..15 from p. -/
def finOut (q p : Vec Ideal S32x8x256x256 .f32) (s : Vec Ideal S1x1 .f32) : Vec Ideal S32x16x256x256 .f32 :=
  fun i =>
    if h : (i 1).val < 8 then q (ix4 (i 0) ⟨(i 1).val, h⟩ (i 2) (i 3)) * s (ix2 0 0)
    else p (ix4 (i 0) ⟨(i 1).val - 8, by have h16 : (i 1).val < 16 := (i 1).isLt; omega⟩ (i 2) (i 3)) * s (ix2 0 0)

/-! ## The kernel's result as a function of its arguments -/

/-- The whole program: three moves by gradient steps at the running means, then the scale by the Casimir error. -/
def kOut (st : Vec Ideal S32x16x256x256 .f32) (dt : Vec Ideal S_ .f32)
    (W1 : Vec Ideal S2x128 .f32) (b1 : Vec Ideal S128 .f32) (W2 : Vec Ideal S128x128 .f32) (b2 : Vec Ideal S128 .f32)
    (W3 : Vec Ideal S128x64 .f32) (b3 : Vec Ideal S64 .f32) (W4 : Vec Ideal S64x1 .f32) (b4 : Vec Ideal S1 .f32)
    (cW1 : Vec Ideal S2x64 .f32) (cb1 : Vec Ideal S64 .f32) (cW2 : Vec Ideal S64x32 .f32) (cb2 : Vec Ideal S32 .f32)
    (cW3 : Vec Ideal S32x4 .f32) (cb3 : Vec Ideal S4 .f32) : Vec Ideal S32x16x256x256 .f32 :=
  let q := qOf st
  let p := pOf st
  let m1 := meansOf (sum2 q p)
  let ph := addB p (stepP dt (gradH W1 b1 W2 b2 W3 b3 W4 m1))
  let m2 := meansOf (sum2 q ph)
  let qn := addB q (stepQ dt (gradH W1 b1 W2 b2 W3 b3 W4 m2))
  let m3 := meansOf (sum2 qn ph)
  let pn := addB ph (stepP dt (gradH W1 b1 W2 b2 W3 b3 W4 m3))
  let m4 := meansOf (sum2 qn pn)
  let err := errOf (casF cW1 cb1 cW2 cb2 cW3 cb3 m4) (casF cW1 cb1 cW2 cb2 cW3 cb3 m1)
  finOut qn pn (scaleOf err (sumSq qn) (sumSq pn))

end Leap

end
-- ==== Proof.KVals.lean ====
/-
  The kernel's intermediate arrays as functions of the launch memory: the names the two halves of the run's reading share.
  q and p are the halves of the state; m1 .. m4 the four pairs of running means; ph, qn, pn the half-moved p, the moved q
  and the moved p; err the mean Casimir error and scale the final scale. Their composition is the result (`kOut_eq`).
-/
import proofs.«126091_j27977416966525_1_alg».proof.Proof.Gen.KernelIdeal
import proofs.«126091_j27977416966525_1_alg».proof.Proof.Spec

set_option maxRecDepth 16384

noncomputable section

open scoped BigOperators

namespace Leap.KVals

open Cert.KernelIdeal Cert.KernelIdeal.Gen Idealize.ShloMosaic Idealize.ShloMosaic.TcCoe Idealize.SL.Sem Leap

variable (m : (ℓ : Loc nD τ sig) → Buf (Elt Ideal) ℓ) (c : Dev nD)

/-- The gradient of the network at a pair of means, with the launch memory's weights. -/
def vG (s : Vec Ideal S32x2 .f32) : Vec Ideal S32x2 .f32 := gradH (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) s
/-- The Casimir network at a pair of means, with the launch memory's weights. -/
def vC (s : Vec Ideal S32x2 .f32) : Vec Ideal S32x4 .f32 := casF (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) s
def vQ : Vec Ideal S32x8x256x256 .f32 := qOf (m ((c : Thread nD τ).loc main_arg0))
def vP : Vec Ideal S32x8x256x256 .f32 := pOf (m ((c : Thread nD τ).loc main_arg0))
def vM1 : Vec Ideal S32x2 .f32 := meansOf (sum2 (vQ m c) (vP m c))
def vPh : Vec Ideal S32x8x256x256 .f32 := addB (vP m c) (stepP (m ((c : Thread nD τ).loc main_arg1)) (vG m c (vM1 m c)))
def vM2 : Vec Ideal S32x2 .f32 := meansOf (sum2 (vQ m c) (vPh m c))
def vQn : Vec Ideal S32x8x256x256 .f32 := addB (vQ m c) (stepQ (m ((c : Thread nD τ).loc main_arg1)) (vG m c (vM2 m c)))
def vM3 : Vec Ideal S32x2 .f32 := meansOf (sum2 (vQn m c) (vPh m c))
def vPn : Vec Ideal S32x8x256x256 .f32 := addB (vPh m c) (stepP (m ((c : Thread nD τ).loc main_arg1)) (vG m c (vM3 m c)))
def vM4 : Vec Ideal S32x2 .f32 := meansOf (sum2 (vQn m c) (vPn m c))
def vErr : Vec Ideal S_ .f32 := errOf (vC m c (vM4 m c)) (vC m c (vM1 m c))
def vScale : Vec Ideal S1x1 .f32 := scaleOf (vErr m c) (sumSq (vQn m c)) (sumSq (vPn m c))

/-- The named pieces compose to the kernel's result function of the sixteen arguments. -/
theorem kOut_eq : finOut (vQn m c) (vPn m c) (vScale m c) = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := rfl

end Leap.KVals

end
-- ==== Proof.KHost.lean ====
/-
  The kernel's host stretches, read: what each stretch of host operations between two regions leaves in the one or two
  buffers a later region or stretch reads, as the composed functions of Spec.lean applied to what the stretch finds in the
  buffers it reads. A stretch is a straight line of pure operations, so its result at a buffer is the operations' composed
  term; these lemmas name that term. Stated at an arbitrary valuation of the buffers (the contents the stretch is entered
  with), at any float instance. The last lemmas say which buffers a stretch leaves alone: every buffer it does not write.
-/
import proofs.«126091_j27977416966525_1_alg».proof.Proof.Gen.KernelIdeal.Launch
import proofs.«126091_j27977416966525_1_alg».proof.Proof.Spec
import Idealize.ShloMosaic.Lib.StableHlo.Run

set_option maxRecDepth 16384

noncomputable section

open scoped BigOperators

namespace Leap.KHost

open Cert.KernelIdeal Cert.KernelIdeal.Gen Idealize.ShloMosaic Idealize.ShloMosaic.TcCoe Leap

variable {F : FTy → Type} [FloatOps F] (W : Valuation τ sig (Elt F))

/-- The first stretch slices q out of the state. -/
theorem h0_q : StableHlo.after hostOps0 W (Proc.devRef .tc main_v0) = qOf (W (Proc.devRef .tc main_arg0)) := by
  simp only [hostOps0]
  after_results
  rfl

/-- The first stretch slices p out of the state. -/
theorem h0_p : StableHlo.after hostOps0 W (Proc.devRef .tc main_v1) = pOf (W (Proc.devRef .tc main_arg0)) := by
  simp only [hostOps0]
  after_results
  rfl

/-- After region 0: the means of the first pair of sums. -/
theorem h1_means : StableHlo.after hostOps1 W (Proc.devRef .tc main_v4) = meansOf (W (Proc.devRef .tc main_v2)) := by
  simp only [hostOps1]
  after_results_simp
  rfl

set_option maxHeartbeats 2000000 in
/-- After region 0: the first step of p, from the gradient at the first means. -/
theorem h1_step : StableHlo.after hostOps1 W (Proc.devRef .tc main_v52)
    = stepP (W (Proc.devRef .tc main_arg1)) (gradH (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (meansOf (W (Proc.devRef .tc main_v2)))) := by
  simp only [hostOps1]
  after_results_simp
  rfl

set_option maxHeartbeats 2000000 in
/-- After region 2: the step of q, from the gradient at the second means. -/
theorem h3_step : StableHlo.after hostOps3 W (Proc.devRef .tc main_v103)
    = stepQ (W (Proc.devRef .tc main_arg1)) (gradH (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (meansOf (W (Proc.devRef .tc main_v54)))) := by
  simp only [hostOps3]
  after_results_simp
  rfl

set_option maxHeartbeats 2000000 in
/-- After region 4: the second step of p, from the gradient at the third means. -/
theorem h5_step : StableHlo.after hostOps5 W (Proc.devRef .tc main_v155)
    = stepP (W (Proc.devRef .tc main_arg1)) (gradH (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (meansOf (W (Proc.devRef .tc main_v105)))) := by
  simp only [hostOps5]
  after_results_simp
  rfl

set_option maxHeartbeats 2000000 in
/-- After region 6: the mean Casimir error, the new values at the fourth means, the old at the first. -/
theorem h7_err : StableHlo.after hostOps7 W (Proc.devRef .tc main_v190)
    = errOf (casF (W (Proc.devRef .tc main_arg10)) (W (Proc.devRef .tc main_arg11)) (W (Proc.devRef .tc main_arg12)) (W (Proc.devRef .tc main_arg13)) (W (Proc.devRef .tc main_arg14)) (W (Proc.devRef .tc main_arg15)) (meansOf (W (Proc.devRef .tc main_v157)))) (casF (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_v4))) := by
  simp only [hostOps7]
  after_results_simp
  rfl

/-- After regions 7 and 8: the final scale from the error and the two sums of squares. -/
theorem h9_scale : StableHlo.after hostOps9 W (Proc.devRef .tc main_v201)
    = scaleOf (W (Proc.devRef .tc main_v190)) (W (Proc.devRef .tc main_v191)) (W (Proc.devRef .tc main_v192)) := by
  simp only [hostOps9]
  after_results
  rfl

/-! ## What each stretch leaves alone -/

/-- The buffers stretch 0 writes. -/
abbrev written0 : List (Ref sig .tc) := [main_v0, main_v1]

/-- Every operation of stretch 0 writes one buffer, and that buffer is in the list. -/
theorem hostOps0_writes : (hostOps0 : List (HloOp τ sig (Elt F))).Forall fun op => op.writes ⊆ (written0.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))

/-- A buffer stretch 0 does not write keeps its contents through it. -/
theorem keep0 (b : Ref sig .tc) (h : b ∉ written0) :
    StableHlo.after hostOps0 W (Proc.devRef .tc b) = W (Proc.devRef .tc b) :=
  StableHlo.after_of_writes_sub hostOps0 W hostOps0_writes h

/-- The buffers stretch 1 writes. -/
abbrev written1 : List (Ref sig .tc) := [main_cst, main_v3, main_v4, main_v5, main_v6, main_v7, main_v8, main_v9, main_cst_0, main_v10, main_v11, main_v12, main_v13, main_v14, main_v15, main_v16, main_cst_1, main_v17, main_v18, main_v19, main_v20, main_v21, main_v22, main_v23, main_cst_2, main_v24, main_v25, main_v26, main_v27, main_v28, main_v29, main_cst_3, main_v30, main_cst_4, main_v31, main_v32, main_v33, main_v34, main_v35, main_v36, main_v37, main_v38, main_v39, main_v40, main_v41, main_v42, main_v43, main_v44, main_cst_5, main_v45, main_v46, main_v47, main_v48, main_v49, main_cst_6, main_v50, main_v51, main_v52]

/-- Every operation of stretch 1 writes one buffer, and that buffer is in the list. -/
theorem hostOps1_writes : (hostOps1 : List (HloOp τ sig (Elt F))).Forall fun op => op.writes ⊆ (written1.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))

/-- A buffer stretch 1 does not write keeps its contents through it. -/
theorem keep1 (b : Ref sig .tc) (h : b ∉ written1) :
    StableHlo.after hostOps1 W (Proc.devRef .tc b) = W (Proc.devRef .tc b) :=
  StableHlo.after_of_writes_sub hostOps1 W hostOps1_writes h

/-- The buffers stretch 3 writes. -/
abbrev written3 : List (Ref sig .tc) := [main_cst_7, main_v55, main_v56, main_v57, main_v58, main_v59, main_v60, main_v61, main_cst_8, main_v62, main_v63, main_v64, main_v65, main_v66, main_v67, main_v68, main_cst_9, main_v69, main_v70, main_v71, main_v72, main_v73, main_v74, main_v75, main_cst_10, main_v76, main_v77, main_v78, main_v79, main_v80, main_v81, main_cst_11, main_v82, main_cst_12, main_v83, main_v84, main_v85, main_v86, main_v87, main_v88, main_v89, main_v90, main_v91, main_v92, main_v93, main_v94, main_v95, main_v96, main_v97, main_v98, main_v99, main_v100, main_cst_13, main_v101, main_v102, main_v103]

/-- Every operation of stretch 3 writes one buffer, and that buffer is in the list. -/
theorem hostOps3_writes : (hostOps3 : List (HloOp τ sig (Elt F))).Forall fun op => op.writes ⊆ (written3.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))

/-- A buffer stretch 3 does not write keeps its contents through it. -/
theorem keep3 (b : Ref sig .tc) (h : b ∉ written3) :
    StableHlo.after hostOps3 W (Proc.devRef .tc b) = W (Proc.devRef .tc b) :=
  StableHlo.after_of_writes_sub hostOps3 W hostOps3_writes h

/-- The buffers stretch 5 writes. -/
abbrev written5 : List (Ref sig .tc) := [main_cst_14, main_v106, main_v107, main_v108, main_v109, main_v110, main_v111, main_v112, main_cst_15, main_v113, main_v114, main_v115, main_v116, main_v117, main_v118, main_v119, main_cst_16, main_v120, main_v121, main_v122, main_v123, main_v124, main_v125, main_v126, main_cst_17, main_v127, main_v128, main_v129, main_v130, main_v131, main_v132, main_cst_18, main_v133, main_cst_19, main_v134, main_v135, main_v136, main_v137, main_v138, main_v139, main_v140, main_v141, main_v142, main_v143, main_v144, main_v145, main_v146, main_v147, main_cst_20, main_v148, main_v149, main_v150, main_v151, main_v152, main_cst_21, main_v153, main_v154, main_v155]

/-- Every operation of stretch 5 writes one buffer, and that buffer is in the list. -/
theorem hostOps5_writes : (hostOps5 : List (HloOp τ sig (Elt F))).Forall fun op => op.writes ⊆ (written5.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))

/-- A buffer stretch 5 does not write keeps its contents through it. -/
theorem keep5 (b : Ref sig .tc) (h : b ∉ written5) :
    StableHlo.after hostOps5 W (Proc.devRef .tc b) = W (Proc.devRef .tc b) :=
  StableHlo.after_of_writes_sub hostOps5 W hostOps5_writes h

/-- The buffers stretch 7 writes. -/
abbrev written7 : List (Ref sig .tc) := [main_cst_22, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_cst_23, main_v189, main_cst_24, main_v190]

/-- Every operation of stretch 7 writes one buffer, and that buffer is in the list. -/
theorem hostOps7_writes : (hostOps7 : List (HloOp τ sig (Elt F))).Forall fun op => op.writes ⊆ (written7.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))

/-- A buffer stretch 7 does not write keeps its contents through it. -/
theorem keep7 (b : Ref sig .tc) (h : b ∉ written7) :
    StableHlo.after hostOps7 W (Proc.devRef .tc b) = W (Proc.devRef .tc b) :=
  StableHlo.after_of_writes_sub hostOps7 W hostOps7_writes h

/-- The buffers stretch 9 writes. -/
abbrev written9 : List (Ref sig .tc) := [main_v193, main_v194, main_v195, main_v196, main_cst_25, main_v197, main_cst_26, main_v198, main_v199, main_cst_27, main_v200, main_v201]

/-- Every operation of stretch 9 writes one buffer, and that buffer is in the list. -/
theorem hostOps9_writes : (hostOps9 : List (HloOp τ sig (Elt F))).Forall fun op => op.writes ⊆ (written9.map (Proc.devRef (τ := τ) .tc)).toFinset := by
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))

/-- A buffer stretch 9 does not write keeps its contents through it. -/
theorem keep9 (b : Ref sig .tc) (h : b ∉ written9) :
    StableHlo.after hostOps9 W (Proc.devRef .tc b) = W (Proc.devRef .tc b) :=
  StableHlo.after_of_writes_sub hostOps9 W hostOps9_writes h

end Leap.KHost

end
-- ==== Proof.Sums.lean ====
/-
  Re-indexing finite sums, in any commutative additive monoid (the extended reals' addition is commutative and
  associative, so none of this needs finiteness): a sum over all indices of a rank-4 array is the quadruple sum over its
  coordinates; sixteen tiles of sixteen rows are the 256 rows; sixteen channels are two halves of eight.
-/
import proofs.«126091_j27977416966525_1_alg».proof.Proof.Spec
import Idealize.ShloMosaic.Lib.ValueIdx

set_option maxRecDepth 16384

noncomputable section

open scoped BigOperators

namespace Leap

open Cert.KernelIdeal Cert.KernelIdeal.Gen Idealize.ShloMosaic Idealize.ShloMosaic.ValueIdx

variable {M : Type} [AddCommMonoid M]

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over all indices of a rank-4 array is the quadruple sum over its coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  -- re-index along the bijection with the fourfold product, then split the product sum one factor at a time
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A row below 256 is a tile below 16 and a row below 16 within it: h = 16 t + r, with t = h / 16 and r = h % 16. -/
def tileEquiv16 : Fin 16 × Fin 16 ≃ Fin 256 where
  toFun p := ⟨16 * p.1.val + p.2.val, by omega⟩
  invFun h := (⟨h.val / 16, by omega⟩, ⟨h.val % 16, by omega⟩)
  left_inv p := by
    obtain ⟨⟨t, ht⟩, ⟨r, hr⟩⟩ := p
    simp only [Prod.mk.injEq, Fin.mk.injEq]
    omega
  right_inv h := by
    obtain ⟨h, hh⟩ := h
    simp only [Fin.mk.injEq]
    omega

/-- Sixteen tiles of sixteen rows are the 256 rows. -/
theorem sum_tiles16 (f : Fin 256 → M) :
    ∑ t : Fin 16, ∑ r : Fin 16, f ⟨16 * t.val + r.val, by omega⟩ = ∑ h : Fin 256, f h := by
  -- re-index the 256 rows along (t, r) ↦ 16 t + r, then split the sum over pairs
  rw [← Equiv.sum_comp tileEquiv16 f, Fintype.sum_prod_type]
  rfl

/-- Sixteen channels are two halves of eight. -/
theorem sum_halves16 (f : Fin 16 → M) :
    ∑ ch : Fin 16, f ch = (∑ k : Fin 8, f ⟨k.val, by omega⟩) + ∑ k : Fin 8, f ⟨k.val + 8, by omega⟩ := by
  -- a sum over 8 + 8 indices is the sum over the first eight plus the sum over the last eight
  exact Fin.sum_univ_add (a := 8) (b := 8) f

/-- At any extents: the sum over the indices of a rank-4 array whose first coordinate is `b` is the triple sum over the
    other three coordinates. -/
theorem sum_filter_first {n0 n1 n2 n3 : Nat} (f : (⟨4, ![n0, n1, n2, n3]⟩ : Shape).Idx → M) (b : Fin n0) :
    ∑ i ∈ Finset.univ.filter (fun i : (⟨4, ![n0, n1, n2, n3]⟩ : Shape).Idx => (i 0).val = b.val), f i
      = ∑ c : Fin n1, ∑ h : Fin n2, ∑ w : Fin n3, f (ix4 b c h w) := by
  -- the filtered sum is the full sum with the entries off the slice replaced by zero; split it by coordinates
  rw [Finset.sum_filter]
  refine (sum_idx4 (n0 := n0) (n1 := n1) (n2 := n2) (n3 := n3) _).trans ?_
  show ∑ a : Fin n0, ∑ c : Fin n1, ∑ h : Fin n2, ∑ w : Fin n3, (if a.val = b.val then f (ix4 a c h w) else 0) = _
  -- of the outer sum over the first coordinate only the term at b is not a sum of zeros
  rw [Finset.sum_eq_single b]
  · simp only [↓reduceIte]
  · intro a _ hab
    have hne : ¬ a.val = b.val := fun h => hab (Fin.ext h)
    simp only [hne, ↓reduceIte, Finset.sum_const_zero]
  · intro h
    exact absurd (Finset.mem_univ b) h

/-- The entries of one batch item: the indices whose first coordinate is `b` are the triples of the other three. -/
theorem sum_filter_batch (x : Vec Ideal S32x8x256x256 .f32) (b : Fin 32) :
    ∑ i ∈ Finset.univ.filter (fun i : S32x8x256x256.Idx => (i 0).val = b.val), x i = rowSum x b := by
  -- the slice of the first coordinate at b, at the extents 32, 8, 256, 256
  exact sum_filter_first (n0 := 32) (n1 := 8) (n2 := 256) (n3 := 256) x b

end Leap

end
-- ==== Proof.RegSum0.lean ====
/- The pair of per-batch sums region 0 accumulates over its sixteen row tiles: each point adds, for both input arrays, the sum over channels, the tile's sixteen rows and all lanes of every batch item to a [32,2] block that is zeroed at the first point and written back after the last; so the result array holds the two whole per-batch sums. -/
import proofs.«126091_j27977416966525_1_alg».proof.Proof.Gen.KernelIdeal.Frame
import proofs.«126091_j27977416966525_1_alg».proof.Proof.Spec
import proofs.«126091_j27977416966525_1_alg».proof.Proof.Sums
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Leap.Reg0

open Cert.KernelIdeal Cert.KernelIdeal.Gen Idealize.ShloMosaic Idealize.ShloMosaic.TcCoe Idealize.SL.Sem
open Idealize.ShloMosaic.Pipeline (Dat)
open Idealize.ShloMosaic.ValueIdx Leap

variable {F : FTy → Type} [FloatOps F]

/-! ## One point of the grid -/

/-- The offsets of an access at the origin of a rank-2 buffer are all zero, -/
theorem hz2 : (![0, 0] : Fin 2 → Nat) = fun _ => 0 :=
  funext fun a => match a with
    | ⟨0, _⟩ => rfl
    | ⟨1, _⟩ => rfl
/-- and likewise at rank 4. -/
theorem hz4 : (![0, 0, 0, 0] : Fin 4 → Nat) = fun _ => 0 :=
  funext fun a => match a with
    | ⟨0, _⟩ => rfl
    | ⟨1, _⟩ => rfl
    | ⟨2, _⟩ => rfl
    | ⟨3, _⟩ => rfl

/-- Away from the first point the body leaves, in the accumulator holding `xo`, the body's arithmetic on the two
    input blocks and `xo`. -/
theorem out_B (c : Dev nD) (i : grid0.Coords) (a1 : Memref sig .tc .vmem S32x8x16x256 .f32) (h1 : a1.IsWhole)
    (a2 : Memref sig .tc .vmem S32x8x16x256 .f32) (h2 : a2.IsWhole) (a3 : Memref sig .tc .vmem S32x2 .f32) (h3 : a3.IsWhole)
    (hc : ¬cond0_0 i) (x0 x1 : Vec F S32x8x16x256 .f32) (xo : Vec F S32x2 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  rw [View.canon_unit_zero hz2]
  simp only [View.readAt_eq_ld, h1.read_unread, h2.read_unread, h3.read_unread,
    View.ld_unit_zero (S := S32x8x16x256) hz4, View.ld_unit_zero (S := S32x2) hz2]

/-- At the first point the body zeroes the accumulator first, so it leaves the body's arithmetic on the two input
    blocks and the zero block. -/
theorem out_A (c : Dev nD) (i : grid0.Coords) (a1 : Memref sig .tc .vmem S32x8x16x256 .f32) (h1 : a1.IsWhole)
    (a2 : Memref sig .tc .vmem S32x8x16x256 .f32) (h2 : a2.IsWhole) (a3 : Memref sig .tc .vmem S32x2 .f32) (h3 : a3.IsWhole)
    (hc : cond0_0 i) (x0 x1 : Vec F S32x8x16x256 .f32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S32x2) hz2, View.readCov_unit_zero (S := S32x2) _ hz2]
  simp only [View.readAt_eq_ld, h1.read_unread, h2.read_unread,
    View.ld_unit_zero (S := S32x8x16x256) hz4]

/-- The sum of one batch item of a row tile: over its channels, its sixteen rows and its lanes. -/
def tileSum (x : Vec Ideal S32x8x16x256 .f32) (b : Fin 32) : EReal :=
  ∑ ch : Fin 8, ∑ r : Fin 16, ∑ l : Fin 256, x (ix4 b ch r l)

/-- The three reductions in a row (lanes, then rows, then channels) give that sum. -/
theorem red3 (x : Vec Ideal S32x8x16x256 .f32) (b : Fin 32) :
    multiReduction (F := Ideal) .add [1] S32
      (multiReduction (F := Ideal) .add [2] S32x8
        (multiReduction (F := Ideal) .add [3] S32x8x16 x 0x00000000#32 reduces_S32x8x16x256_S32x8x16 (.inl rfl) rfl)
        0x00000000#32 reduces_S32x8x16_S32x8 (.inl rfl) rfl)
      0x00000000#32 reduces_S32x8_S32 (.inl rfl) rfl (ix1 b) = tileSum x b := by
  refine (Ideal.multiReduction_add_single _ 0x00000000#32 reduces_S32x8_S32 (.inl rfl) rfl (ix1 b)).trans ?_
  unfold tileSum
  refine Finset.sum_congr rfl fun ch _ => ?_
  refine (Ideal.multiReduction_add_single _ 0x00000000#32 reduces_S32x8x16_S32x8 (.inl rfl) rfl _).trans ?_
  refine Finset.sum_congr rfl fun r _ => ?_
  refine (Ideal.multiReduction_add_single _ 0x00000000#32 reduces_S32x8x16x256_S32x8x16 (.inl rfl) rfl _).trans ?_
  refine Finset.sum_congr rfl fun l _ => ?_
  refine congrArg x (funext fun a => Fin.ext ?_)
  match a with
  | ⟨0, _⟩ => rfl
  | ⟨1, _⟩ => rfl
  | ⟨2, _⟩ => rfl
  | ⟨3, _⟩ => rfl

/-- A [32] vector recast as a [32,1] column keeps its entries: (b, 0) is at the same row-major position as b. -/
theorem col_apply (v : Vec Ideal S32 .f32) (b : Fin 32) :
    shapeCast S32x1 v shapeCasts_S32_S32x1 (ix2 b (0 : Fin 1)) = v (ix1 b) :=
  shapeCast_apply v _ (ix2 b (0 : Fin 1)) (ix1 b) (by
    rw [Shape.rowMajor_val_one, Shape.rowMajor_val_two]
    show b.val = b.val * 1 + 0
    omega)

/-- The body's arithmetic read at one entry of the [32,2] block: the accumulator's entry plus the tile's sum of the
    first input block (column 0) or of the second (column 1). -/
theorem pay_apply (x0 x1 : Vec Ideal S32x8x16x256 .f32) (xo : Vec Ideal S32x2 .f32) (b : Fin 32) (k : Fin 2) :
    k0_pay2 x0 x1 xo (ix2 b k) = xo (ix2 b k) + (if k.val = 0 then tileSum x0 b else tileSum x1 b) := by
  unfold k0_pay2
  have e0 : shapeCast S32x8x16x256 x0 shapeCasts_S32x8x16x256_S32x8x16x256 = x0 := shapeCast_self _ _
  have e1 : shapeCast S32x8x16x256 x1 shapeCasts_S32x8x16x256_S32x8x16x256 = x1 := shapeCast_self _ _
  have e2 : shapeCast S32x2 xo shapeCasts_S32x2_S32x2 = xo := shapeCast_self _ _
  rw [e0, e1, e2, addf_apply]
  congr 1
  match k with
  | ⟨0, _⟩ =>
    refine (concatenate_pair_apply_left _ _ _ concatenates_S32x1_S32x1_S32x2_d1 (ix2 b (0 : Fin 2)) rfl
      (ix2 b (0 : Fin 1)) (fun d => ?_)).trans ((col_apply _ b).trans (red3 x0 b))
    match d with
    | ⟨0, _⟩ => rfl
    | ⟨1, _⟩ => rfl
  | ⟨1, _⟩ =>
    refine (concatenate_pair_apply_right _ _ _ concatenates_S32x1_S32x1_S32x2_d1 (ix2 b (1 : Fin 2)) rfl rfl
      (ix2 b (0 : Fin 1)) (fun d hd => ?_) rfl).trans ((col_apply _ b).trans (red3 x1 b))
    match d with
    | ⟨0, _⟩ => rfl
    | ⟨1, _⟩ => exact absurd rfl hd

/-! ## The blocks the two input windows read -/

/-- The sum over the channels, the sixteen rows of row tile `t` and all lanes of batch item `b` of a whole array
    (there are sixteen row tiles; past them the empty sum). -/
def bandSum (a : Vec Ideal S32x8x256x256 .f32) (b : Fin 32) (t : ℕ) : EReal :=
  if h : t < 16 then ∑ ch : Fin 8, ∑ r : Fin 16, ∑ l : Fin 256, a (ix4 b ch ⟨16 * t + r.val, by omega⟩ l) else 0

section Blocks
variable (V : (c : Dev nD) → (b : Ref sig .tc) → Buf (Elt Ideal) ((c : Thread nD τ).loc b)) (c : Dev nD)

/-- The first window's block at point `t` holds rows 16 t .. 16 t + 15 of every batch item and channel of its array. -/
theorem blkA_apply (t : Fin cfg0.N) (b : Fin 32) (ch : Fin 8) (r : Fin 16) (l : Fin 256) (h : 16 * t.val + r.val < 256) :
    (iblk0 V c 0 t : Vec Ideal S32x8x16x256 .f32) (ix4 b ch r l)
      = (V c main_v0 : Vec Ideal S32x8x256x256 .f32) (ix4 b ch ⟨16 * t.val + r.val, h⟩ l) := by
  have hi : win0_0.index t 0 = 0 ∧ win0_0.index t 1 = 0 ∧ win0_0.index t 2 = t.val ∧ win0_0.index t 3 = 0 :=
    (by decide +kernel : ∀ t : Fin grid0.N,
      win0_0.index t 0 = 0 ∧ win0_0.index t 1 = 0 ∧ win0_0.index t 2 = t.val ∧ win0_0.index t 3 = 0) t
  unfold iblk0
  rw [View.read_apply]
  show (V c main_v0 : Vec Ideal S32x8x256x256 .f32) _ = V c main_v0 _
  congr 1
  funext a
  apply Fin.ext
  match a with
  | ⟨0, _⟩ => show win0_0.index t 0 * 32 + 1 * b.val = b.val; rw [hi.1]; omega
  | ⟨1, _⟩ => show win0_0.index t 1 * 8 + 1 * ch.val = ch.val; rw [hi.2.1]; omega
  | ⟨2, _⟩ => show win0_0.index t 2 * 16 + 1 * r.val = 16 * t.val + r.val; rw [hi.2.2.1]; omega
  | ⟨3, _⟩ => show win0_0.index t 3 * 256 + 1 * l.val = l.val; rw [hi.2.2.2]; omega

/-- The second window's block at point `t` holds the same rows of its array. -/
theorem blkB_apply (t : Fin cfg0.N) (b : Fin 32) (ch : Fin 8) (r : Fin 16) (l : Fin 256) (h : 16 * t.val + r.val < 256) :
    (iblk0 V c 1 t : Vec Ideal S32x8x16x256 .f32) (ix4 b ch r l)
      = (V c main_v1 : Vec Ideal S32x8x256x256 .f32) (ix4 b ch ⟨16 * t.val + r.val, h⟩ l) := by
  have hi : win0_1.index t 0 = 0 ∧ win0_1.index t 1 = 0 ∧ win0_1.index t 2 = t.val ∧ win0_1.index t 3 = 0 :=
    (by decide +kernel : ∀ t : Fin grid0.N,
      win0_1.index t 0 = 0 ∧ win0_1.index t 1 = 0 ∧ win0_1.index t 2 = t.val ∧ win0_1.index t 3 = 0) t
  unfold iblk0
  rw [View.read_apply]
  show (V c main_v1 : Vec Ideal S32x8x256x256 .f32) _ = V c main_v1 _
  congr 1
  funext a
  apply Fin.ext
  match a with
  | ⟨0, _⟩ => show win0_1.index t 0 * 32 + 1 * b.val = b.val; rw [hi.1]; omega
  | ⟨1, _⟩ => show win0_1.index t 1 * 8 + 1 * ch.val = ch.val; rw [hi.2.1]; omega
  | ⟨2, _⟩ => show win0_1.index t 2 * 16 + 1 * r.val = 16 * t.val + r.val; rw [hi.2.2.1]; omega
  | ⟨3, _⟩ => show win0_1.index t 3 * 256 + 1 * l.val = l.val; rw [hi.2.2.2]; omega

/-- So the tile sum of the first window's block at point `t` is the sum over row tile `t` of its array, -/
theorem tile_blkA (t : Fin cfg0.N) (b : Fin 32) :
    tileSum (iblk0 V c 0 t) b = bandSum (V c main_v0) b t.val := by
  have hN : t.val < 16 := lt_of_lt_of_eq t.isLt (show cfg0.N = 16 from N_0)
  unfold tileSum bandSum
  rw [dif_pos hN]
  exact Finset.sum_congr rfl fun ch _ => Finset.sum_congr rfl fun r _ => Finset.sum_congr rfl fun l _ =>
    blkA_apply V c t b ch r l _

/-- and likewise for the second window. -/
theorem tile_blkB (t : Fin cfg0.N) (b : Fin 32) :
    tileSum (iblk0 V c 1 t) b = bandSum (V c main_v1) b t.val := by
  have hN : t.val < 16 := lt_of_lt_of_eq t.isLt (show cfg0.N = 16 from N_0)
  unfold tileSum bandSum
  rw [dif_pos hN]
  exact Finset.sum_congr rfl fun ch _ => Finset.sum_congr rfl fun r _ => Finset.sum_congr rfl fun l _ =>
    blkB_apply V c t b ch r l _

/-! ## The accumulator after each point -/

/-- The zero block's entries are zero. -/
theorem zero_apply (j : S32x2.Idx) : (k0_pay1 (F := Ideal)) j = 0 := Ideal.ofBits_zero_f32

/-- After point `n` the accumulator's entry (b, k) is the sum, over the row tiles up to `n`, of the tile sums of the
    first array (k = 0) or of the second (k = 1): by induction on the point. -/
theorem outs_apply : ∀ (n : ℕ) (h : n < cfg0.N) (b : Fin 32) (k : Fin 2),
    outsAt0 V c n h (ix2 b k)
      = ∑ t ∈ Finset.range (n + 1), (if k.val = 0 then bandSum (V c main_v0) b t else bandSum (V c main_v1) b t)
  | 0, h, b, k => by
    rw [outsAt0_A V c ⟨0, h⟩ rfl, out_A, pay_apply, zero_apply, zero_add, Finset.sum_range_one, tile_blkA, tile_blkB]
  | n + 1, h, b, k => by
    have hN : cfg0.N = 16 := N_0
    have hB : ¬(⟨n + 1, h⟩ : Fin cfg0.N).val % 16 = 0 := by dsimp only; omega
    rw [outsAt0_B V c ⟨n + 1, h⟩ hB, out_B, pay_apply, Finset.sum_range_succ, tile_blkA, tile_blkB]
    congr 1
    exact outs_apply n _ b k

/-! ## All sixteen points -/

/-- The sixteen row tiles' sums of an array make up the sum of a whole batch item. -/
theorem bands_sum (a : Vec Ideal S32x8x256x256 .f32) (b : Fin 32) :
    ∑ t ∈ Finset.range 16, bandSum a b t = rowSum a b := by
  rw [Finset.sum_range]
  refine (Finset.sum_congr rfl fun t _ => (dif_pos t.isLt : bandSum a b t.val = _)).trans ?_
  rw [Finset.sum_comm]
  exact Finset.sum_congr rfl fun ch _ => sum_tiles16 (fun h => ∑ l : Fin 256, a (ix4 b ch h l))

/-- After the sixteenth point the accumulator holds the two arrays' per-batch sums. -/
theorem outs_last (n : ℕ) (h : n < cfg0.N) (hn : n = 15) :
    outsAt0 V c n h = sum2 (V c main_v0) (V c main_v1) := by
  subst hn
  funext j
  obtain ⟨b, k, rfl⟩ : ∃ b k, j = ix2 b k := ⟨j 0, j 1, eq_ix2 j⟩
  rw [outs_apply V c 15 h b k, sum2_ix]
  by_cases hk : k.val = 0
  · simp only [if_pos hk]; exact bands_sum _ b
  · simp only [if_neg hk]; exact bands_sum _ b

/-! ## The result array -/

/-- At the last point the result window's block index is zero on both axes: its rectangle starts at the array's origin. -/
theorem last_off : (fun a => win0_2.index t0_15 a * main_v2.ty.shape.size a) = fun _ => 0 :=
  funext fun a => by
    rw [(by decide +kernel : ∀ a, win0_2.index t0_15 a = 0) a, Nat.zero_mul]

end Blocks

/-- What region 0 leaves in its result array, as a function of the arrays it is entered with. -/
theorem value (V : (c : Dev nD) → (b : Ref sig .tc) → Buf (Elt Ideal) ((c : Thread nD τ).loc b)) (c : Dev nD) :
    (dat0 (F := Ideal) V c).arrAt 2 cfg0.N = (sum2 (V c main_v0) (V c main_v1) : Buf (Elt Ideal) ((c : Thread nD τ).loc main_v2)) := by
  have hN : cfg0.N = 16 := N_0
  refine (dat0 V c).arrAt_eq_of_cover 2 _ (fun t hf => ?_) fun i => ⟨t0_15, (flush0_2 t0_15).mpr rfl, ?_⟩
  · -- the one write-back is the last point's; its block is the whole array
    obtain rfl : t = t0_15 := Fin.ext (by
      have h15 := (flush0_2 t).mp hf
      have hlt := t.isLt
      show t.val = 15
      omega)
    refine Eq.trans ?_ (Memref.read_access_unit_zero (Elt Ideal) main_v2 last_off
      (fun a => by rw [congrFun last_off a, Nat.zero_add]) _).symm
    show (cfg0.win 2).cut (grid0.coords t0_15) ((dat0 V c).after 2 t0_15) = _
    rw [after0_2, outs_last V c t0_15.val t0_15.isLt rfl]
    rfl
  · show i ∈ ((View.whole main_v2).slice (win0_2.rect t0_15)).set
    rw [View.set_slice_whole]
    exact View.mem_set_unit_zero (S := S32x2) last_off _ i

end Leap.Reg0

end
-- ==== Proof.RegAdd1.lean ====
/- Region 1 adds a per-batch scalar to an array, row tile by row tile: point t writes rows 16t..16t+15 of every batch item and channel, each entry the input's plus the scalar of its batch item; the sixteen tiles cover the array. -/
import proofs.«126091_j27977416966525_1_alg».proof.Proof.Gen.KernelIdeal.Frame
import proofs.«126091_j27977416966525_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Leap.Reg1

open Cert.KernelIdeal Cert.KernelIdeal.Gen Idealize.ShloMosaic Idealize.ShloMosaic.TcCoe Idealize.SL.Sem
open Idealize.ShloMosaic.Pipeline (Dat)
open Idealize.ShloMosaic.ValueIdx Leap

/-- The four offsets of an access to a whole block are zero. -/
theorem off_zero : (![0, 0, 0, 0] : Fin 4 → Nat) = fun _ => 0 := funext fun a => by fin_cases a <;> rfl

/-- The block the body stores, entry by entry: the input block's entry plus the scalar of its batch item
    (the scalar block has one entry per batch item, repeated along the three other axes). -/
theorem out_eq (x0 : Vec Ideal S32x8x16x256 .f32) (x1 : Vec Ideal S32x1x1x1 .f32) :
    out1_2 x0 x1 = fun j => x0 j + x1 (ix4 (j 0) 0 0 0) := by
  unfold out1_2
  rw [View.canon_unit_zero off_zero]
  simp only [View.ld_unit_zero (S := S32x8x16x256) off_zero, View.ld_unit_zero (S := S32x1x1x1) off_zero]
  unfold k1_pay1
  dsimp only
  rw [shapeCast_self, shapeCast_self]
  funext j
  show x0 j + broadcastTo S32x8x16x256 x1 broadcasts_S32x1x1x1_S32x8x16x256 j = _
  refine congrArg (x0 j + ·) (broadcastTo_apply x1 _ j (ix4 (j 0) 0 0 0) fun a => ?_)
  match a with
  | ⟨0, _⟩ => rfl
  | ⟨1, _⟩ => rfl
  | ⟨2, _⟩ => rfl
  | ⟨3, _⟩ => rfl

/-- Equal indices give equal sums of an array's entry and a scalar's. -/
theorem add_congr (X : Vec Ideal S32x8x256x256 .f32) (C : Vec Ideal S32x1x1x1 .f32) {p q : S32x8x256x256.Idx} {r s : S32x1x1x1.Idx}
    (hp : p = q) (hr : r = s) : X p + C r = X q + C s := by rw [hp, hr]

/-- The block index maps over the grid: point t reads and writes the t-th tile of sixteen rows (axis 2), all of
    the other three axes; every point reads the whole array of scalars. -/
theorem idx_facts : ∀ t : Fin cfg1.N,
    win1_0.index t (0 : Fin 4) = 0 ∧ win1_0.index t (1 : Fin 4) = 0 ∧ win1_0.index t (2 : Fin 4) = t.val ∧ win1_0.index t (3 : Fin 4) = 0
    ∧ win1_1.index t (0 : Fin 4) = 0 ∧ win1_1.index t (1 : Fin 4) = 0 ∧ win1_1.index t (2 : Fin 4) = 0 ∧ win1_1.index t (3 : Fin 4) = 0
    ∧ win1_2.index t (0 : Fin 4) = 0 ∧ win1_2.index t (1 : Fin 4) = 0 ∧ win1_2.index t (2 : Fin 4) = t.val ∧ win1_2.index t (3 : Fin 4) = 0 :=
  (by decide +kernel : ∀ t : Fin grid1.N, _)

variable (V : (c : Dev nD) → (b : Ref sig .tc) → Buf (Elt Ideal) ((c : Thread nD τ).loc b))

/-- What point t writes back is its block of the whole-array function: the input block sits where the output block
    does (block index times block size plus the coordinate inside the block, axis by axis), and the scalar read
    for an entry is the one of the entry's batch item. -/
theorem flushed_eq (c : Dev nD) (t : Fin cfg1.N) :
    (dat1 (F := Ideal) V c).flushed 2 t = ((cfg1.win 2).blk t).view.read (Elt Ideal) (addB (V c main_v1) (V c main_v52)) := by
  show (cfg1.win 2).cut (grid1.coords t) ((dat1 V c).after 2 t) = _
  rw [after1_2]
  obtain ⟨a0, a1, a2, a3, s0, s1, s2, s3, o0, o1, o2, o3⟩ := idx_facts t
  funext j
  refine (congrFun (out_eq (iblk1 V c 0 t) (iblk1 V c 1 t)) j).trans ?_
  have h0 : (((cfg1.win 0).blk t).view.emb j : S32x8x256x256.Idx) = ((cfg1.win 2).blk t).view.emb j := by
    funext a; apply Fin.ext
    match a with
    | ⟨0, _⟩ => show win1_0.index t (0 : Fin 4) * 32 + 1 * (j 0).val = win1_2.index t (0 : Fin 4) * 32 + 1 * (j 0).val; omega
    | ⟨1, _⟩ => show win1_0.index t (1 : Fin 4) * 8 + 1 * (j 1).val = win1_2.index t (1 : Fin 4) * 8 + 1 * (j 1).val; omega
    | ⟨2, _⟩ => show win1_0.index t (2 : Fin 4) * 16 + 1 * (j 2).val = win1_2.index t (2 : Fin 4) * 16 + 1 * (j 2).val; omega
    | ⟨3, _⟩ => show win1_0.index t (3 : Fin 4) * 256 + 1 * (j 3).val = win1_2.index t (3 : Fin 4) * 256 + 1 * (j 3).val; omega
  have h1 : (((cfg1.win 1).blk t).view.emb (ix4 (n0 := 32) (n1 := 1) (n2 := 1) (n3 := 1) (j 0) 0 0 0) : S32x1x1x1.Idx)
      = ix4 (n0 := 32) (n1 := 1) (n2 := 1) (n3 := 1) ((((cfg1.win 2).blk t).view.emb j) 0) 0 0 0 := by
    funext a; apply Fin.ext
    match a with
    | ⟨0, _⟩ => show win1_1.index t (0 : Fin 4) * 32 + 1 * (j 0).val = win1_2.index t (0 : Fin 4) * 32 + 1 * (j 0).val; omega
    | ⟨1, _⟩ => show win1_1.index t (1 : Fin 4) * 1 + 1 * 0 = 0; omega
    | ⟨2, _⟩ => show win1_1.index t (2 : Fin 4) * 1 + 1 * 0 = 0; omega
    | ⟨3, _⟩ => show win1_1.index t (3 : Fin 4) * 1 + 1 * 0 = 0; omega
  exact add_congr (V c main_v1) (V c main_v52) h0 h1

/-- An index of the array is in point t's block iff each coordinate is in the block's range on its axis. -/
theorem mem_blk (t : Fin cfg1.N) (i : S32x8x256x256.Idx) :
    i ∈ ((cfg1.win 2).blk t).view.set ↔ ∀ a : Fin 4, win1_2.index t a * S32x8x16x256.size a ≤ (i a).val ∧ (i a).val < win1_2.index t a * S32x8x16x256.size a + S32x8x16x256.size a := by
  show i ∈ ((View.whole main_v53).slice (win1_2.rect t)).set ↔ _
  rw [View.set_slice_whole, Rect.mem_set_unit]
  exact Iff.rfl

/-- The sixteen tiles cover the array: row h of any batch item and channel is in the block of point h / 16. -/
theorem cover (i : S32x8x256x256.Idx) : ∃ t : Fin cfg1.N, (cfg1.win 2).flush t = true ∧ i ∈ ((cfg1.win 2).blk t).view.set := by
  have h0 : (i 0).val < 32 := (i 0).isLt
  have h1 : (i 1).val < 8 := (i 1).isLt
  have h2 : (i 2).val < 256 := (i 2).isLt
  have h3 : (i 3).val < 256 := (i 3).isLt
  have hN : grid1.N = 16 := N_1
  obtain ⟨t, ht⟩ : ∃ t : Fin cfg1.N, t.val = (i 2).val / 16 :=
    ⟨⟨(i 2).val / 16, by show (i 2).val / 16 < grid1.N; rw [hN]; omega⟩, rfl⟩
  obtain ⟨-, -, -, -, -, -, -, -, o0, o1, o2, o3⟩ := idx_facts t
  refine ⟨t, flush1_2 t, ?_⟩
  rw [mem_blk]
  intro a
  match a with
  | ⟨0, _⟩ => show win1_2.index t (0 : Fin 4) * 32 ≤ (i 0).val ∧ (i 0).val < win1_2.index t (0 : Fin 4) * 32 + 32; omega
  | ⟨1, _⟩ => show win1_2.index t (1 : Fin 4) * 8 ≤ (i 1).val ∧ (i 1).val < win1_2.index t (1 : Fin 4) * 8 + 8; omega
  | ⟨2, _⟩ => show win1_2.index t (2 : Fin 4) * 16 ≤ (i 2).val ∧ (i 2).val < win1_2.index t (2 : Fin 4) * 16 + 16; omega
  | ⟨3, _⟩ => show win1_2.index t (3 : Fin 4) * 256 ≤ (i 3).val ∧ (i 3).val < win1_2.index t (3 : Fin 4) * 256 + 256; omega

/-- What region 1 leaves in its result array, as a function of the arrays it is entered with. -/
theorem value (V : (c : Dev nD) → (b : Ref sig .tc) → Buf (Elt Ideal) ((c : Thread nD τ).loc b)) (c : Dev nD) :
    (dat1 (F := Ideal) V c).arrAt 2 cfg1.N = (addB (V c main_v1) (V c main_v52) : Buf (Elt Ideal) ((c : Thread nD τ).loc main_v53)) :=
  (dat1 (F := Ideal) V c).arrAt_eq_of_cover 2 (addB (V c main_v1) (V c main_v52)) (fun t _ => flushed_eq V c t) cover

end Leap.Reg1

end
-- ==== Proof.RegSum2.lean ====
/- The pair of per-batch sums region 2 accumulates over its sixteen row tiles: each point adds, for both input arrays, the sum over channels, the tile's sixteen rows and all lanes of every batch item to a [32,2] block that is zeroed at the first point and written back after the last; so the result array holds the two whole per-batch sums. -/
import proofs.«126091_j27977416966525_1_alg».proof.Proof.Gen.KernelIdeal.Frame
import proofs.«126091_j27977416966525_1_alg».proof.Proof.Spec
import proofs.«126091_j27977416966525_1_alg».proof.Proof.Sums
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Leap.Reg2

open Cert.KernelIdeal Cert.KernelIdeal.Gen Idealize.ShloMosaic Idealize.ShloMosaic.TcCoe Idealize.SL.Sem
open Idealize.ShloMosaic.Pipeline (Dat)
open Idealize.ShloMosaic.ValueIdx Leap

variable {F : FTy → Type} [FloatOps F]

/-! ## One point of the grid -/

/-- The offsets of an access at the origin of a rank-2 buffer are all zero, -/
theorem hz2 : (![0, 0] : Fin 2 → Nat) = fun _ => 0 :=
  funext fun a => match a with
    | ⟨0, _⟩ => rfl
    | ⟨1, _⟩ => rfl
/-- and likewise at rank 4. -/
theorem hz4 : (![0, 0, 0, 0] : Fin 4 → Nat) = fun _ => 0 :=
  funext fun a => match a with
    | ⟨0, _⟩ => rfl
    | ⟨1, _⟩ => rfl
    | ⟨2, _⟩ => rfl
    | ⟨3, _⟩ => rfl

/-- Away from the first point the body leaves, in the accumulator holding `xo`, the body's arithmetic on the two
    input blocks and `xo`. -/
theorem out_B (c : Dev nD) (i : grid2.Coords) (a1 : Memref sig .tc .vmem S32x8x16x256 .f32) (h1 : a1.IsWhole)
    (a2 : Memref sig .tc .vmem S32x8x16x256 .f32) (h2 : a2.IsWhole) (a3 : Memref sig .tc .vmem S32x2 .f32) (h3 : a3.IsWhole)
    (hc : ¬cond2_0 i) (x0 x1 : Vec F S32x8x16x256 .f32) (xo : Vec F S32x2 .f32) :
    out2_B_2 c i a1 h1 a2 h2 a3 h3 hc x0 x1 xo = k2_pay2 x0 x1 xo := by
  unfold out2_B_2
  rw [View.read_writes_eq_canon _ _ _ (cover2_B_2 c i a1 h1 a2 h2 a3 h3 hc x0 x1 xo)]
  unfold kernelRun2_B
  dsimp only
  rw [View.canon_unit_zero hz2]
  simp only [View.readAt_eq_ld, h1.read_unread, h2.read_unread, h3.read_unread,
    View.ld_unit_zero (S := S32x8x16x256) hz4, View.ld_unit_zero (S := S32x2) hz2]

/-- At the first point the body zeroes the accumulator first, so it leaves the body's arithmetic on the two input
    blocks and the zero block. -/
theorem out_A (c : Dev nD) (i : grid2.Coords) (a1 : Memref sig .tc .vmem S32x8x16x256 .f32) (h1 : a1.IsWhole)
    (a2 : Memref sig .tc .vmem S32x8x16x256 .f32) (h2 : a2.IsWhole) (a3 : Memref sig .tc .vmem S32x2 .f32) (h3 : a3.IsWhole)
    (hc : cond2_0 i) (x0 x1 : Vec F S32x8x16x256 .f32) :
    out2_A_2 c i a1 h1 a2 h2 a3 h3 hc x0 x1 = k2_pay2 x0 x1 (k2_pay1 (F := F)) := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S32x2) hz2, View.readCov_unit_zero (S := S32x2) _ hz2]
  simp only [View.readAt_eq_ld, h1.read_unread, h2.read_unread,
    View.ld_unit_zero (S := S32x8x16x256) hz4]

/-- The sum of one batch item of a row tile: over its channels, its sixteen rows and its lanes. -/
def tileSum (x : Vec Ideal S32x8x16x256 .f32) (b : Fin 32) : EReal :=
  ∑ ch : Fin 8, ∑ r : Fin 16, ∑ l : Fin 256, x (ix4 b ch r l)

/-- The three reductions in a row (lanes, then rows, then channels) give that sum. -/
theorem red3 (x : Vec Ideal S32x8x16x256 .f32) (b : Fin 32) :
    multiReduction (F := Ideal) .add [1] S32
      (multiReduction (F := Ideal) .add [2] S32x8
        (multiReduction (F := Ideal) .add [3] S32x8x16 x 0x00000000#32 reduces_S32x8x16x256_S32x8x16 (.inl rfl) rfl)
        0x00000000#32 reduces_S32x8x16_S32x8 (.inl rfl) rfl)
      0x00000000#32 reduces_S32x8_S32 (.inl rfl) rfl (ix1 b) = tileSum x b := by
  refine (Ideal.multiReduction_add_single _ 0x00000000#32 reduces_S32x8_S32 (.inl rfl) rfl (ix1 b)).trans ?_
  unfold tileSum
  refine Finset.sum_congr rfl fun ch _ => ?_
  refine (Ideal.multiReduction_add_single _ 0x00000000#32 reduces_S32x8x16_S32x8 (.inl rfl) rfl _).trans ?_
  refine Finset.sum_congr rfl fun r _ => ?_
  refine (Ideal.multiReduction_add_single _ 0x00000000#32 reduces_S32x8x16x256_S32x8x16 (.inl rfl) rfl _).trans ?_
  refine Finset.sum_congr rfl fun l _ => ?_
  refine congrArg x (funext fun a => Fin.ext ?_)
  match a with
  | ⟨0, _⟩ => rfl
  | ⟨1, _⟩ => rfl
  | ⟨2, _⟩ => rfl
  | ⟨3, _⟩ => rfl

/-- A [32] vector recast as a [32,1] column keeps its entries: (b, 0) is at the same row-major position as b. -/
theorem col_apply (v : Vec Ideal S32 .f32) (b : Fin 32) :
    shapeCast S32x1 v shapeCasts_S32_S32x1 (ix2 b (0 : Fin 1)) = v (ix1 b) :=
  shapeCast_apply v _ (ix2 b (0 : Fin 1)) (ix1 b) (by
    rw [Shape.rowMajor_val_one, Shape.rowMajor_val_two]
    show b.val = b.val * 1 + 0
    omega)

/-- The body's arithmetic read at one entry of the [32,2] block: the accumulator's entry plus the tile's sum of the
    first input block (column 0) or of the second (column 1). -/
theorem pay_apply (x0 x1 : Vec Ideal S32x8x16x256 .f32) (xo : Vec Ideal S32x2 .f32) (b : Fin 32) (k : Fin 2) :
    k2_pay2 x0 x1 xo (ix2 b k) = xo (ix2 b k) + (if k.val = 0 then tileSum x0 b else tileSum x1 b) := by
  unfold k2_pay2
  have e0 : shapeCast S32x8x16x256 x0 shapeCasts_S32x8x16x256_S32x8x16x256 = x0 := shapeCast_self _ _
  have e1 : shapeCast S32x8x16x256 x1 shapeCasts_S32x8x16x256_S32x8x16x256 = x1 := shapeCast_self _ _
  have e2 : shapeCast S32x2 xo shapeCasts_S32x2_S32x2 = xo := shapeCast_self _ _
  rw [e0, e1, e2, addf_apply]
  congr 1
  match k with
  | ⟨0, _⟩ =>
    refine (concatenate_pair_apply_left _ _ _ concatenates_S32x1_S32x1_S32x2_d1 (ix2 b (0 : Fin 2)) rfl
      (ix2 b (0 : Fin 1)) (fun d => ?_)).trans ((col_apply _ b).trans (red3 x0 b))
    match d with
    | ⟨0, _⟩ => rfl
    | ⟨1, _⟩ => rfl
  | ⟨1, _⟩ =>
    refine (concatenate_pair_apply_right _ _ _ concatenates_S32x1_S32x1_S32x2_d1 (ix2 b (1 : Fin 2)) rfl rfl
      (ix2 b (0 : Fin 1)) (fun d hd => ?_) rfl).trans ((col_apply _ b).trans (red3 x1 b))
    match d with
    | ⟨0, _⟩ => rfl
    | ⟨1, _⟩ => exact absurd rfl hd

/-! ## The blocks the two input windows read -/

/-- The sum over the channels, the sixteen rows of row tile `t` and all lanes of batch item `b` of a whole array
    (there are sixteen row tiles; past them the empty sum). -/
def bandSum (a : Vec Ideal S32x8x256x256 .f32) (b : Fin 32) (t : ℕ) : EReal :=
  if h : t < 16 then ∑ ch : Fin 8, ∑ r : Fin 16, ∑ l : Fin 256, a (ix4 b ch ⟨16 * t + r.val, by omega⟩ l) else 0

section Blocks
variable (V : (c : Dev nD) → (b : Ref sig .tc) → Buf (Elt Ideal) ((c : Thread nD τ).loc b)) (c : Dev nD)

/-- The first window's block at point `t` holds rows 16 t .. 16 t + 15 of every batch item and channel of its array. -/
theorem blkA_apply (t : Fin cfg2.N) (b : Fin 32) (ch : Fin 8) (r : Fin 16) (l : Fin 256) (h : 16 * t.val + r.val < 256) :
    (iblk2 V c 0 t : Vec Ideal S32x8x16x256 .f32) (ix4 b ch r l)
      = (V c main_v0 : Vec Ideal S32x8x256x256 .f32) (ix4 b ch ⟨16 * t.val + r.val, h⟩ l) := by
  have hi : win2_0.index t 0 = 0 ∧ win2_0.index t 1 = 0 ∧ win2_0.index t 2 = t.val ∧ win2_0.index t 3 = 0 :=
    (by decide +kernel : ∀ t : Fin grid2.N,
      win2_0.index t 0 = 0 ∧ win2_0.index t 1 = 0 ∧ win2_0.index t 2 = t.val ∧ win2_0.index t 3 = 0) t
  unfold iblk2
  rw [View.read_apply]
  show (V c main_v0 : Vec Ideal S32x8x256x256 .f32) _ = V c main_v0 _
  congr 1
  funext a
  apply Fin.ext
  match a with
  | ⟨0, _⟩ => show win2_0.index t 0 * 32 + 1 * b.val = b.val; rw [hi.1]; omega
  | ⟨1, _⟩ => show win2_0.index t 1 * 8 + 1 * ch.val = ch.val; rw [hi.2.1]; omega
  | ⟨2, _⟩ => show win2_0.index t 2 * 16 + 1 * r.val = 16 * t.val + r.val; rw [hi.2.2.1]; omega
  | ⟨3, _⟩ => show win2_0.index t 3 * 256 + 1 * l.val = l.val; rw [hi.2.2.2]; omega

/-- The second window's block at point `t` holds the same rows of its array. -/
theorem blkB_apply (t : Fin cfg2.N) (b : Fin 32) (ch : Fin 8) (r : Fin 16) (l : Fin 256) (h : 16 * t.val + r.val < 256) :
    (iblk2 V c 1 t : Vec Ideal S32x8x16x256 .f32) (ix4 b ch r l)
      = (V c main_v53 : Vec Ideal S32x8x256x256 .f32) (ix4 b ch ⟨16 * t.val + r.val, h⟩ l) := by
  have hi : win2_1.index t 0 = 0 ∧ win2_1.index t 1 = 0 ∧ win2_1.index t 2 = t.val ∧ win2_1.index t 3 = 0 :=
    (by decide +kernel : ∀ t : Fin grid2.N,
      win2_1.index t 0 = 0 ∧ win2_1.index t 1 = 0 ∧ win2_1.index t 2 = t.val ∧ win2_1.index t 3 = 0) t
  unfold iblk2
  rw [View.read_apply]
  show (V c main_v53 : Vec Ideal S32x8x256x256 .f32) _ = V c main_v53 _
  congr 1
  funext a
  apply Fin.ext
  match a with
  | ⟨0, _⟩ => show win2_1.index t 0 * 32 + 1 * b.val = b.val; rw [hi.1]; omega
  | ⟨1, _⟩ => show win2_1.index t 1 * 8 + 1 * ch.val = ch.val; rw [hi.2.1]; omega
  | ⟨2, _⟩ => show win2_1.index t 2 * 16 + 1 * r.val = 16 * t.val + r.val; rw [hi.2.2.1]; omega
  | ⟨3, _⟩ => show win2_1.index t 3 * 256 + 1 * l.val = l.val; rw [hi.2.2.2]; omega

/-- So the tile sum of the first window's block at point `t` is the sum over row tile `t` of its array, -/
theorem tile_blkA (t : Fin cfg2.N) (b : Fin 32) :
    tileSum (iblk2 V c 0 t) b = bandSum (V c main_v0) b t.val := by
  have hN : t.val < 16 := lt_of_lt_of_eq t.isLt (show cfg2.N = 16 from N_2)
  unfold tileSum bandSum
  rw [dif_pos hN]
  exact Finset.sum_congr rfl fun ch _ => Finset.sum_congr rfl fun r _ => Finset.sum_congr rfl fun l _ =>
    blkA_apply V c t b ch r l _

/-- and likewise for the second window. -/
theorem tile_blkB (t : Fin cfg2.N) (b : Fin 32) :
    tileSum (iblk2 V c 1 t) b = bandSum (V c main_v53) b t.val := by
  have hN : t.val < 16 := lt_of_lt_of_eq t.isLt (show cfg2.N = 16 from N_2)
  unfold tileSum bandSum
  rw [dif_pos hN]
  exact Finset.sum_congr rfl fun ch _ => Finset.sum_congr rfl fun r _ => Finset.sum_congr rfl fun l _ =>
    blkB_apply V c t b ch r l _

/-! ## The accumulator after each point -/

/-- The zero block's entries are zero. -/
theorem zero_apply (j : S32x2.Idx) : (k2_pay1 (F := Ideal)) j = 0 := Ideal.ofBits_zero_f32

/-- After point `n` the accumulator's entry (b, k) is the sum, over the row tiles up to `n`, of the tile sums of the
    first array (k = 0) or of the second (k = 1): by induction on the point. -/
theorem outs_apply : ∀ (n : ℕ) (h : n < cfg2.N) (b : Fin 32) (k : Fin 2),
    outsAt2 V c n h (ix2 b k)
      = ∑ t ∈ Finset.range (n + 1), (if k.val = 0 then bandSum (V c main_v0) b t else bandSum (V c main_v53) b t)
  | 0, h, b, k => by
    rw [outsAt2_A V c ⟨0, h⟩ rfl, out_A, pay_apply, zero_apply, zero_add, Finset.sum_range_one, tile_blkA, tile_blkB]
  | n + 1, h, b, k => by
    have hN : cfg2.N = 16 := N_2
    have hB : ¬(⟨n + 1, h⟩ : Fin cfg2.N).val % 16 = 0 := by dsimp only; omega
    rw [outsAt2_B V c ⟨n + 1, h⟩ hB, out_B, pay_apply, Finset.sum_range_succ, tile_blkA, tile_blkB]
    congr 1
    exact outs_apply n _ b k

/-! ## All sixteen points -/

/-- The sixteen row tiles' sums of an array make up the sum of a whole batch item. -/
theorem bands_sum (a : Vec Ideal S32x8x256x256 .f32) (b : Fin 32) :
    ∑ t ∈ Finset.range 16, bandSum a b t = rowSum a b := by
  rw [Finset.sum_range]
  refine (Finset.sum_congr rfl fun t _ => (dif_pos t.isLt : bandSum a b t.val = _)).trans ?_
  rw [Finset.sum_comm]
  exact Finset.sum_congr rfl fun ch _ => sum_tiles16 (fun h => ∑ l : Fin 256, a (ix4 b ch h l))

/-- After the sixteenth point the accumulator holds the two arrays' per-batch sums. -/
theorem outs_last (n : ℕ) (h : n < cfg2.N) (hn : n = 15) :
    outsAt2 V c n h = sum2 (V c main_v0) (V c main_v53) := by
  subst hn
  funext j
  obtain ⟨b, k, rfl⟩ : ∃ b k, j = ix2 b k := ⟨j 0, j 1, eq_ix2 j⟩
  rw [outs_apply V c 15 h b k, sum2_ix]
  by_cases hk : k.val = 0
  · simp only [if_pos hk]; exact bands_sum _ b
  · simp only [if_neg hk]; exact bands_sum _ b

/-! ## The result array -/

/-- At the last point the result window's block index is zero on both axes: its rectangle starts at the array's origin. -/
theorem last_off : (fun a => win2_2.index t2_15 a * main_v54.ty.shape.size a) = fun _ => 0 :=
  funext fun a => by
    rw [(by decide +kernel : ∀ a, win2_2.index t2_15 a = 0) a, Nat.zero_mul]

end Blocks

/-- What region 2 leaves in its result array, as a function of the arrays it is entered with. -/
theorem value (V : (c : Dev nD) → (b : Ref sig .tc) → Buf (Elt Ideal) ((c : Thread nD τ).loc b)) (c : Dev nD) :
    (dat2 (F := Ideal) V c).arrAt 2 cfg2.N = (sum2 (V c main_v0) (V c main_v53) : Buf (Elt Ideal) ((c : Thread nD τ).loc main_v54)) := by
  have hN : cfg2.N = 16 := N_2
  refine (dat2 V c).arrAt_eq_of_cover 2 _ (fun t hf => ?_) fun i => ⟨t2_15, (flush2_2 t2_15).mpr rfl, ?_⟩
  · -- the one write-back is the last point's; its block is the whole array
    obtain rfl : t = t2_15 := Fin.ext (by
      have h15 := (flush2_2 t).mp hf
      have hlt := t.isLt
      show t.val = 15
      omega)
    refine Eq.trans ?_ (Memref.read_access_unit_zero (Elt Ideal) main_v54 last_off
      (fun a => by rw [congrFun last_off a, Nat.zero_add]) _).symm
    show (cfg2.win 2).cut (grid2.coords t2_15) ((dat2 V c).after 2 t2_15) = _
    rw [after2_2, outs_last V c t2_15.val t2_15.isLt rfl]
    rfl
  · show i ∈ ((View.whole main_v54).slice (win2_2.rect t2_15)).set
    rw [View.set_slice_whole]
    exact View.mem_set_unit_zero (S := S32x2) last_off _ i

end Leap.Reg2

end
-- ==== Proof.RegAdd3.lean ====
/- Region 3 adds a per-batch scalar to an array, row tile by row tile: point t writes rows 16t..16t+15 of every batch item and channel, each entry the input's plus the scalar of its batch item; the sixteen tiles cover the array. -/
import proofs.«126091_j27977416966525_1_alg».proof.Proof.Gen.KernelIdeal.Frame
import proofs.«126091_j27977416966525_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Leap.Reg3

open Cert.KernelIdeal Cert.KernelIdeal.Gen Idealize.ShloMosaic Idealize.ShloMosaic.TcCoe Idealize.SL.Sem
open Idealize.ShloMosaic.Pipeline (Dat)
open Idealize.ShloMosaic.ValueIdx Leap

/-- The four offsets of an access to a whole block are zero. -/
theorem off_zero : (![0, 0, 0, 0] : Fin 4 → Nat) = fun _ => 0 := funext fun a => by fin_cases a <;> rfl

/-- The block the body stores, entry by entry: the input block's entry plus the scalar of its batch item
    (the scalar block has one entry per batch item, repeated along the three other axes). -/
theorem out_eq (x0 : Vec Ideal S32x8x16x256 .f32) (x1 : Vec Ideal S32x1x1x1 .f32) :
    out3_2 x0 x1 = fun j => x0 j + x1 (ix4 (j 0) 0 0 0) := by
  unfold out3_2
  rw [View.canon_unit_zero off_zero]
  simp only [View.ld_unit_zero (S := S32x8x16x256) off_zero, View.ld_unit_zero (S := S32x1x1x1) off_zero]
  unfold k3_pay1
  dsimp only
  rw [shapeCast_self, shapeCast_self]
  funext j
  show x0 j + broadcastTo S32x8x16x256 x1 broadcasts_S32x1x1x1_S32x8x16x256 j = _
  refine congrArg (x0 j + ·) (broadcastTo_apply x1 _ j (ix4 (j 0) 0 0 0) fun a => ?_)
  match a with
  | ⟨0, _⟩ => rfl
  | ⟨1, _⟩ => rfl
  | ⟨2, _⟩ => rfl
  | ⟨3, _⟩ => rfl

/-- Equal indices give equal sums of an array's entry and a scalar's. -/
theorem add_congr (X : Vec Ideal S32x8x256x256 .f32) (C : Vec Ideal S32x1x1x1 .f32) {p q : S32x8x256x256.Idx} {r s : S32x1x1x1.Idx}
    (hp : p = q) (hr : r = s) : X p + C r = X q + C s := by rw [hp, hr]

/-- The block index maps over the grid: point t reads and writes the t-th tile of sixteen rows (axis 2), all of
    the other three axes; every point reads the whole array of scalars. -/
theorem idx_facts : ∀ t : Fin cfg3.N,
    win3_0.index t (0 : Fin 4) = 0 ∧ win3_0.index t (1 : Fin 4) = 0 ∧ win3_0.index t (2 : Fin 4) = t.val ∧ win3_0.index t (3 : Fin 4) = 0
    ∧ win3_1.index t (0 : Fin 4) = 0 ∧ win3_1.index t (1 : Fin 4) = 0 ∧ win3_1.index t (2 : Fin 4) = 0 ∧ win3_1.index t (3 : Fin 4) = 0
    ∧ win3_2.index t (0 : Fin 4) = 0 ∧ win3_2.index t (1 : Fin 4) = 0 ∧ win3_2.index t (2 : Fin 4) = t.val ∧ win3_2.index t (3 : Fin 4) = 0 :=
  (by decide +kernel : ∀ t : Fin grid3.N, _)

variable (V : (c : Dev nD) → (b : Ref sig .tc) → Buf (Elt Ideal) ((c : Thread nD τ).loc b))

/-- What point t writes back is its block of the whole-array function: the input block sits where the output block
    does (block index times block size plus the coordinate inside the block, axis by axis), and the scalar read
    for an entry is the one of the entry's batch item. -/
theorem flushed_eq (c : Dev nD) (t : Fin cfg3.N) :
    (dat3 (F := Ideal) V c).flushed 2 t = ((cfg3.win 2).blk t).view.read (Elt Ideal) (addB (V c main_v0) (V c main_v103)) := by
  show (cfg3.win 2).cut (grid3.coords t) ((dat3 V c).after 2 t) = _
  rw [after3_2]
  obtain ⟨a0, a1, a2, a3, s0, s1, s2, s3, o0, o1, o2, o3⟩ := idx_facts t
  funext j
  refine (congrFun (out_eq (iblk3 V c 0 t) (iblk3 V c 1 t)) j).trans ?_
  have h0 : (((cfg3.win 0).blk t).view.emb j : S32x8x256x256.Idx) = ((cfg3.win 2).blk t).view.emb j := by
    funext a; apply Fin.ext
    match a with
    | ⟨0, _⟩ => show win3_0.index t (0 : Fin 4) * 32 + 1 * (j 0).val = win3_2.index t (0 : Fin 4) * 32 + 1 * (j 0).val; omega
    | ⟨1, _⟩ => show win3_0.index t (1 : Fin 4) * 8 + 1 * (j 1).val = win3_2.index t (1 : Fin 4) * 8 + 1 * (j 1).val; omega
    | ⟨2, _⟩ => show win3_0.index t (2 : Fin 4) * 16 + 1 * (j 2).val = win3_2.index t (2 : Fin 4) * 16 + 1 * (j 2).val; omega
    | ⟨3, _⟩ => show win3_0.index t (3 : Fin 4) * 256 + 1 * (j 3).val = win3_2.index t (3 : Fin 4) * 256 + 1 * (j 3).val; omega
  have h1 : (((cfg3.win 1).blk t).view.emb (ix4 (n0 := 32) (n1 := 1) (n2 := 1) (n3 := 1) (j 0) 0 0 0) : S32x1x1x1.Idx)
      = ix4 (n0 := 32) (n1 := 1) (n2 := 1) (n3 := 1) ((((cfg3.win 2).blk t).view.emb j) 0) 0 0 0 := by
    funext a; apply Fin.ext
    match a with
    | ⟨0, _⟩ => show win3_1.index t (0 : Fin 4) * 32 + 1 * (j 0).val = win3_2.index t (0 : Fin 4) * 32 + 1 * (j 0).val; omega
    | ⟨1, _⟩ => show win3_1.index t (1 : Fin 4) * 1 + 1 * 0 = 0; omega
    | ⟨2, _⟩ => show win3_1.index t (2 : Fin 4) * 1 + 1 * 0 = 0; omega
    | ⟨3, _⟩ => show win3_1.index t (3 : Fin 4) * 1 + 1 * 0 = 0; omega
  exact add_congr (V c main_v0) (V c main_v103) h0 h1

/-- An index of the array is in point t's block iff each coordinate is in the block's range on its axis. -/
theorem mem_blk (t : Fin cfg3.N) (i : S32x8x256x256.Idx) :
    i ∈ ((cfg3.win 2).blk t).view.set ↔ ∀ a : Fin 4, win3_2.index t a * S32x8x16x256.size a ≤ (i a).val ∧ (i a).val < win3_2.index t a * S32x8x16x256.size a + S32x8x16x256.size a := by
  show i ∈ ((View.whole main_v104).slice (win3_2.rect t)).set ↔ _
  rw [View.set_slice_whole, Rect.mem_set_unit]
  exact Iff.rfl

/-- The sixteen tiles cover the array: row h of any batch item and channel is in the block of point h / 16. -/
theorem cover (i : S32x8x256x256.Idx) : ∃ t : Fin cfg3.N, (cfg3.win 2).flush t = true ∧ i ∈ ((cfg3.win 2).blk t).view.set := by
  have h0 : (i 0).val < 32 := (i 0).isLt
  have h1 : (i 1).val < 8 := (i 1).isLt
  have h2 : (i 2).val < 256 := (i 2).isLt
  have h3 : (i 3).val < 256 := (i 3).isLt
  have hN : grid3.N = 16 := N_3
  obtain ⟨t, ht⟩ : ∃ t : Fin cfg3.N, t.val = (i 2).val / 16 :=
    ⟨⟨(i 2).val / 16, by show (i 2).val / 16 < grid3.N; rw [hN]; omega⟩, rfl⟩
  obtain ⟨-, -, -, -, -, -, -, -, o0, o1, o2, o3⟩ := idx_facts t
  refine ⟨t, flush3_2 t, ?_⟩
  rw [mem_blk]
  intro a
  match a with
  | ⟨0, _⟩ => show win3_2.index t (0 : Fin 4) * 32 ≤ (i 0).val ∧ (i 0).val < win3_2.index t (0 : Fin 4) * 32 + 32; omega
  | ⟨1, _⟩ => show win3_2.index t (1 : Fin 4) * 8 ≤ (i 1).val ∧ (i 1).val < win3_2.index t (1 : Fin 4) * 8 + 8; omega
  | ⟨2, _⟩ => show win3_2.index t (2 : Fin 4) * 16 ≤ (i 2).val ∧ (i 2).val < win3_2.index t (2 : Fin 4) * 16 + 16; omega
  | ⟨3, _⟩ => show win3_2.index t (3 : Fin 4) * 256 ≤ (i 3).val ∧ (i 3).val < win3_2.index t (3 : Fin 4) * 256 + 256; omega

/-- What region 3 leaves in its result array, as a function of the arrays it is entered with. -/
theorem value (V : (c : Dev nD) → (b : Ref sig .tc) → Buf (Elt Ideal) ((c : Thread nD τ).loc b)) (c : Dev nD) :
    (dat3 (F := Ideal) V c).arrAt 2 cfg3.N = (addB (V c main_v0) (V c main_v103) : Buf (Elt Ideal) ((c : Thread nD τ).loc main_v104)) :=
  (dat3 (F := Ideal) V c).arrAt_eq_of_cover 2 (addB (V c main_v0) (V c main_v103)) (fun t _ => flushed_eq V c t) cover

end Leap.Reg3

end
-- ==== Proof.RegSum4.lean ====
/- The pair of per-batch sums region 4 accumulates over its sixteen row tiles: each point adds, for both input arrays, the sum over channels, the tile's sixteen rows and all lanes of every batch item to a [32,2] block that is zeroed at the first point and written back after the last; so the result array holds the two whole per-batch sums. -/
import proofs.«126091_j27977416966525_1_alg».proof.Proof.Gen.KernelIdeal.Frame
import proofs.«126091_j27977416966525_1_alg».proof.Proof.Spec
import proofs.«126091_j27977416966525_1_alg».proof.Proof.Sums
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Leap.Reg4

open Cert.KernelIdeal Cert.KernelIdeal.Gen Idealize.ShloMosaic Idealize.ShloMosaic.TcCoe Idealize.SL.Sem
open Idealize.ShloMosaic.Pipeline (Dat)
open Idealize.ShloMosaic.ValueIdx Leap

variable {F : FTy → Type} [FloatOps F]

/-! ## One point of the grid -/

/-- The offsets of an access at the origin of a rank-2 buffer are all zero, -/
theorem hz2 : (![0, 0] : Fin 2 → Nat) = fun _ => 0 :=
  funext fun a => match a with
    | ⟨0, _⟩ => rfl
    | ⟨1, _⟩ => rfl
/-- and likewise at rank 4. -/
theorem hz4 : (![0, 0, 0, 0] : Fin 4 → Nat) = fun _ => 0 :=
  funext fun a => match a with
    | ⟨0, _⟩ => rfl
    | ⟨1, _⟩ => rfl
    | ⟨2, _⟩ => rfl
    | ⟨3, _⟩ => rfl

/-- Away from the first point the body leaves, in the accumulator holding `xo`, the body's arithmetic on the two
    input blocks and `xo`. -/
theorem out_B (c : Dev nD) (i : grid4.Coords) (a1 : Memref sig .tc .vmem S32x8x16x256 .f32) (h1 : a1.IsWhole)
    (a2 : Memref sig .tc .vmem S32x8x16x256 .f32) (h2 : a2.IsWhole) (a3 : Memref sig .tc .vmem S32x2 .f32) (h3 : a3.IsWhole)
    (hc : ¬cond4_0 i) (x0 x1 : Vec F S32x8x16x256 .f32) (xo : Vec F S32x2 .f32) :
    out4_B_2 c i a1 h1 a2 h2 a3 h3 hc x0 x1 xo = k4_pay2 x0 x1 xo := by
  unfold out4_B_2
  rw [View.read_writes_eq_canon _ _ _ (cover4_B_2 c i a1 h1 a2 h2 a3 h3 hc x0 x1 xo)]
  unfold kernelRun4_B
  dsimp only
  rw [View.canon_unit_zero hz2]
  simp only [View.readAt_eq_ld, h1.read_unread, h2.read_unread, h3.read_unread,
    View.ld_unit_zero (S := S32x8x16x256) hz4, View.ld_unit_zero (S := S32x2) hz2]

/-- At the first point the body zeroes the accumulator first, so it leaves the body's arithmetic on the two input
    blocks and the zero block. -/
theorem out_A (c : Dev nD) (i : grid4.Coords) (a1 : Memref sig .tc .vmem S32x8x16x256 .f32) (h1 : a1.IsWhole)
    (a2 : Memref sig .tc .vmem S32x8x16x256 .f32) (h2 : a2.IsWhole) (a3 : Memref sig .tc .vmem S32x2 .f32) (h3 : a3.IsWhole)
    (hc : cond4_0 i) (x0 x1 : Vec F S32x8x16x256 .f32) :
    out4_A_2 c i a1 h1 a2 h2 a3 h3 hc x0 x1 = k4_pay2 x0 x1 (k4_pay1 (F := F)) := by
  unfold out4_A_2
  rw [View.read_writes_eq_canon _ _ _ (cover4_A_2 c i a1 h1 a2 h2 a3 h3 hc x0 x1)]
  unfold kernelRun4_A
  dsimp only
  sl_unfold_words
  rw [View.canon_cons_unit_zero (S := S32x2) hz2, View.readCov_unit_zero (S := S32x2) _ hz2]
  simp only [View.readAt_eq_ld, h1.read_unread, h2.read_unread,
    View.ld_unit_zero (S := S32x8x16x256) hz4]

/-- The sum of one batch item of a row tile: over its channels, its sixteen rows and its lanes. -/
def tileSum (x : Vec Ideal S32x8x16x256 .f32) (b : Fin 32) : EReal :=
  ∑ ch : Fin 8, ∑ r : Fin 16, ∑ l : Fin 256, x (ix4 b ch r l)

/-- The three reductions in a row (lanes, then rows, then channels) give that sum. -/
theorem red3 (x : Vec Ideal S32x8x16x256 .f32) (b : Fin 32) :
    multiReduction (F := Ideal) .add [1] S32
      (multiReduction (F := Ideal) .add [2] S32x8
        (multiReduction (F := Ideal) .add [3] S32x8x16 x 0x00000000#32 reduces_S32x8x16x256_S32x8x16 (.inl rfl) rfl)
        0x00000000#32 reduces_S32x8x16_S32x8 (.inl rfl) rfl)
      0x00000000#32 reduces_S32x8_S32 (.inl rfl) rfl (ix1 b) = tileSum x b := by
  refine (Ideal.multiReduction_add_single _ 0x00000000#32 reduces_S32x8_S32 (.inl rfl) rfl (ix1 b)).trans ?_
  unfold tileSum
  refine Finset.sum_congr rfl fun ch _ => ?_
  refine (Ideal.multiReduction_add_single _ 0x00000000#32 reduces_S32x8x16_S32x8 (.inl rfl) rfl _).trans ?_
  refine Finset.sum_congr rfl fun r _ => ?_
  refine (Ideal.multiReduction_add_single _ 0x00000000#32 reduces_S32x8x16x256_S32x8x16 (.inl rfl) rfl _).trans ?_
  refine Finset.sum_congr rfl fun l _ => ?_
  refine congrArg x (funext fun a => Fin.ext ?_)
  match a with
  | ⟨0, _⟩ => rfl
  | ⟨1, _⟩ => rfl
  | ⟨2, _⟩ => rfl
  | ⟨3, _⟩ => rfl

/-- A [32] vector recast as a [32,1] column keeps its entries: (b, 0) is at the same row-major position as b. -/
theorem col_apply (v : Vec Ideal S32 .f32) (b : Fin 32) :
    shapeCast S32x1 v shapeCasts_S32_S32x1 (ix2 b (0 : Fin 1)) = v (ix1 b) :=
  shapeCast_apply v _ (ix2 b (0 : Fin 1)) (ix1 b) (by
    rw [Shape.rowMajor_val_one, Shape.rowMajor_val_two]
    show b.val = b.val * 1 + 0
    omega)

/-- The body's arithmetic read at one entry of the [32,2] block: the accumulator's entry plus the tile's sum of the
    first input block (column 0) or of the second (column 1). -/
theorem pay_apply (x0 x1 : Vec Ideal S32x8x16x256 .f32) (xo : Vec Ideal S32x2 .f32) (b : Fin 32) (k : Fin 2) :
    k4_pay2 x0 x1 xo (ix2 b k) = xo (ix2 b k) + (if k.val = 0 then tileSum x0 b else tileSum x1 b) := by
  unfold k4_pay2
  have e0 : shapeCast S32x8x16x256 x0 shapeCasts_S32x8x16x256_S32x8x16x256 = x0 := shapeCast_self _ _
  have e1 : shapeCast S32x8x16x256 x1 shapeCasts_S32x8x16x256_S32x8x16x256 = x1 := shapeCast_self _ _
  have e2 : shapeCast S32x2 xo shapeCasts_S32x2_S32x2 = xo := shapeCast_self _ _
  rw [e0, e1, e2, addf_apply]
  congr 1
  match k with
  | ⟨0, _⟩ =>
    refine (concatenate_pair_apply_left _ _ _ concatenates_S32x1_S32x1_S32x2_d1 (ix2 b (0 : Fin 2)) rfl
      (ix2 b (0 : Fin 1)) (fun d => ?_)).trans ((col_apply _ b).trans (red3 x0 b))
    match d with
    | ⟨0, _⟩ => rfl
    | ⟨1, _⟩ => rfl
  | ⟨1, _⟩ =>
    refine (concatenate_pair_apply_right _ _ _ concatenates_S32x1_S32x1_S32x2_d1 (ix2 b (1 : Fin 2)) rfl rfl
      (ix2 b (0 : Fin 1)) (fun d hd => ?_) rfl).trans ((col_apply _ b).trans (red3 x1 b))
    match d with
    | ⟨0, _⟩ => rfl
    | ⟨1, _⟩ => exact absurd rfl hd

/-! ## The blocks the two input windows read -/

/-- The sum over the channels, the sixteen rows of row tile `t` and all lanes of batch item `b` of a whole array
    (there are sixteen row tiles; past them the empty sum). -/
def bandSum (a : Vec Ideal S32x8x256x256 .f32) (b : Fin 32) (t : ℕ) : EReal :=
  if h : t < 16 then ∑ ch : Fin 8, ∑ r : Fin 16, ∑ l : Fin 256, a (ix4 b ch ⟨16 * t + r.val, by omega⟩ l) else 0

section Blocks
variable (V : (c : Dev nD) → (b : Ref sig .tc) → Buf (Elt Ideal) ((c : Thread nD τ).loc b)) (c : Dev nD)

/-- The first window's block at point `t` holds rows 16 t .. 16 t + 15 of every batch item and channel of its array. -/
theorem blkA_apply (t : Fin cfg4.N) (b : Fin 32) (ch : Fin 8) (r : Fin 16) (l : Fin 256) (h : 16 * t.val + r.val < 256) :
    (iblk4 V c 0 t : Vec Ideal S32x8x16x256 .f32) (ix4 b ch r l)
      = (V c main_v104 : Vec Ideal S32x8x256x256 .f32) (ix4 b ch ⟨16 * t.val + r.val, h⟩ l) := by
  have hi : win4_0.index t 0 = 0 ∧ win4_0.index t 1 = 0 ∧ win4_0.index t 2 = t.val ∧ win4_0.index t 3 = 0 :=
    (by decide +kernel : ∀ t : Fin grid4.N,
      win4_0.index t 0 = 0 ∧ win4_0.index t 1 = 0 ∧ win4_0.index t 2 = t.val ∧ win4_0.index t 3 = 0) t
  unfold iblk4
  rw [View.read_apply]
  show (V c main_v104 : Vec Ideal S32x8x256x256 .f32) _ = V c main_v104 _
  congr 1
  funext a
  apply Fin.ext
  match a with
  | ⟨0, _⟩ => show win4_0.index t 0 * 32 + 1 * b.val = b.val; rw [hi.1]; omega
  | ⟨1, _⟩ => show win4_0.index t 1 * 8 + 1 * ch.val = ch.val; rw [hi.2.1]; omega
  | ⟨2, _⟩ => show win4_0.index t 2 * 16 + 1 * r.val = 16 * t.val + r.val; rw [hi.2.2.1]; omega
  | ⟨3, _⟩ => show win4_0.index t 3 * 256 + 1 * l.val = l.val; rw [hi.2.2.2]; omega

/-- The second window's block at point `t` holds the same rows of its array. -/
theorem blkB_apply (t : Fin cfg4.N) (b : Fin 32) (ch : Fin 8) (r : Fin 16) (l : Fin 256) (h : 16 * t.val + r.val < 256) :
    (iblk4 V c 1 t : Vec Ideal S32x8x16x256 .f32) (ix4 b ch r l)
      = (V c main_v53 : Vec Ideal S32x8x256x256 .f32) (ix4 b ch ⟨16 * t.val + r.val, h⟩ l) := by
  have hi : win4_1.index t 0 = 0 ∧ win4_1.index t 1 = 0 ∧ win4_1.index t 2 = t.val ∧ win4_1.index t 3 = 0 :=
    (by decide +kernel : ∀ t : Fin grid4.N,
      win4_1.index t 0 = 0 ∧ win4_1.index t 1 = 0 ∧ win4_1.index t 2 = t.val ∧ win4_1.index t 3 = 0) t
  unfold iblk4
  rw [View.read_apply]
  show (V c main_v53 : Vec Ideal S32x8x256x256 .f32) _ = V c main_v53 _
  congr 1
  funext a
  apply Fin.ext
  match a with
  | ⟨0, _⟩ => show win4_1.index t 0 * 32 + 1 * b.val = b.val; rw [hi.1]; omega
  | ⟨1, _⟩ => show win4_1.index t 1 * 8 + 1 * ch.val = ch.val; rw [hi.2.1]; omega
  | ⟨2, _⟩ => show win4_1.index t 2 * 16 + 1 * r.val = 16 * t.val + r.val; rw [hi.2.2.1]; omega
  | ⟨3, _⟩ => show win4_1.index t 3 * 256 + 1 * l.val = l.val; rw [hi.2.2.2]; omega

/-- So the tile sum of the first window's block at point `t` is the sum over row tile `t` of its array, -/
theorem tile_blkA (t : Fin cfg4.N) (b : Fin 32) :
    tileSum (iblk4 V c 0 t) b = bandSum (V c main_v104) b t.val := by
  have hN : t.val < 16 := lt_of_lt_of_eq t.isLt (show cfg4.N = 16 from N_4)
  unfold tileSum bandSum
  rw [dif_pos hN]
  exact Finset.sum_congr rfl fun ch _ => Finset.sum_congr rfl fun r _ => Finset.sum_congr rfl fun l _ =>
    blkA_apply V c t b ch r l _

/-- and likewise for the second window. -/
theorem tile_blkB (t : Fin cfg4.N) (b : Fin 32) :
    tileSum (iblk4 V c 1 t) b = bandSum (V c main_v53) b t.val := by
  have hN : t.val < 16 := lt_of_lt_of_eq t.isLt (show cfg4.N = 16 from N_4)
  unfold tileSum bandSum
  rw [dif_pos hN]
  exact Finset.sum_congr rfl fun ch _ => Finset.sum_congr rfl fun r _ => Finset.sum_congr rfl fun l _ =>
    blkB_apply V c t b ch r l _

/-! ## The accumulator after each point -/

/-- The zero block's entries are zero. -/
theorem zero_apply (j : S32x2.Idx) : (k4_pay1 (F := Ideal)) j = 0 := Ideal.ofBits_zero_f32

/-- After point `n` the accumulator's entry (b, k) is the sum, over the row tiles up to `n`, of the tile sums of the
    first array (k = 0) or of the second (k = 1): by induction on the point. -/
theorem outs_apply : ∀ (n : ℕ) (h : n < cfg4.N) (b : Fin 32) (k : Fin 2),
    outsAt4 V c n h (ix2 b k)
      = ∑ t ∈ Finset.range (n + 1), (if k.val = 0 then bandSum (V c main_v104) b t else bandSum (V c main_v53) b t)
  | 0, h, b, k => by
    rw [outsAt4_A V c ⟨0, h⟩ rfl, out_A, pay_apply, zero_apply, zero_add, Finset.sum_range_one, tile_blkA, tile_blkB]
  | n + 1, h, b, k => by
    have hN : cfg4.N = 16 := N_4
    have hB : ¬(⟨n + 1, h⟩ : Fin cfg4.N).val % 16 = 0 := by dsimp only; omega
    rw [outsAt4_B V c ⟨n + 1, h⟩ hB, out_B, pay_apply, Finset.sum_range_succ, tile_blkA, tile_blkB]
    congr 1
    exact outs_apply n _ b k

/-! ## All sixteen points -/

/-- The sixteen row tiles' sums of an array make up the sum of a whole batch item. -/
theorem bands_sum (a : Vec Ideal S32x8x256x256 .f32) (b : Fin 32) :
    ∑ t ∈ Finset.range 16, bandSum a b t = rowSum a b := by
  rw [Finset.sum_range]
  refine (Finset.sum_congr rfl fun t _ => (dif_pos t.isLt : bandSum a b t.val = _)).trans ?_
  rw [Finset.sum_comm]
  exact Finset.sum_congr rfl fun ch _ => sum_tiles16 (fun h => ∑ l : Fin 256, a (ix4 b ch h l))

/-- After the sixteenth point the accumulator holds the two arrays' per-batch sums. -/
theorem outs_last (n : ℕ) (h : n < cfg4.N) (hn : n = 15) :
    outsAt4 V c n h = sum2 (V c main_v104) (V c main_v53) := by
  subst hn
  funext j
  obtain ⟨b, k, rfl⟩ : ∃ b k, j = ix2 b k := ⟨j 0, j 1, eq_ix2 j⟩
  rw [outs_apply V c 15 h b k, sum2_ix]
  by_cases hk : k.val = 0
  · simp only [if_pos hk]; exact bands_sum _ b
  · simp only [if_neg hk]; exact bands_sum _ b

/-! ## The result array -/

/-- At the last point the result window's block index is zero on both axes: its rectangle starts at the array's origin. -/
theorem last_off : (fun a => win4_2.index t4_15 a * main_v105.ty.shape.size a) = fun _ => 0 :=
  funext fun a => by
    rw [(by decide +kernel : ∀ a, win4_2.index t4_15 a = 0) a, Nat.zero_mul]

end Blocks

/-- What region 4 leaves in its result array, as a function of the arrays it is entered with. -/
theorem value (V : (c : Dev nD) → (b : Ref sig .tc) → Buf (Elt Ideal) ((c : Thread nD τ).loc b)) (c : Dev nD) :
    (dat4 (F := Ideal) V c).arrAt 2 cfg4.N = (sum2 (V c main_v104) (V c main_v53) : Buf (Elt Ideal) ((c : Thread nD τ).loc main_v105)) := by
  have hN : cfg4.N = 16 := N_4
  refine (dat4 V c).arrAt_eq_of_cover 2 _ (fun t hf => ?_) fun i => ⟨t4_15, (flush4_2 t4_15).mpr rfl, ?_⟩
  · -- the one write-back is the last point's; its block is the whole array
    obtain rfl : t = t4_15 := Fin.ext (by
      have h15 := (flush4_2 t).mp hf
      have hlt := t.isLt
      show t.val = 15
      omega)
    refine Eq.trans ?_ (Memref.read_access_unit_zero (Elt Ideal) main_v105 last_off
      (fun a => by rw [congrFun last_off a, Nat.zero_add]) _).symm
    show (cfg4.win 2).cut (grid4.coords t4_15) ((dat4 V c).after 2 t4_15) = _
    rw [after4_2, outs_last V c t4_15.val t4_15.isLt rfl]
    rfl
  · show i ∈ ((View.whole main_v105).slice (win4_2.rect t4_15)).set
    rw [View.set_slice_whole]
    exact View.mem_set_unit_zero (S := S32x2) last_off _ i

end Leap.Reg4

end
-- ==== Proof.KChainA.lean ====
/-
  The first half of the run's reading: the buffer contents at region 4's exit (the boundary after the third pair of sums).
  From the launch memory the fold of buffer contents passes the slicing stretch, region 0 (the first sums), the stretch that
  forms the first means and the first step of p, region 1 (the half-moved p), region 2 (the second sums), the stretch with
  the step of q, region 3 (the moved q) and region 4 (the third sums). A region replaces its result array and leaves every
  other buffer; a stretch replaces the buffers it writes. So at that boundary the arguments are as launched, and the four
  arrays the second half reads hold the first means, the half-moved p, the moved q and the third pair of sums.
-/
import proofs.«126091_j27977416966525_1_alg».proof.Proof.Gen.KernelIdeal.Frame
import proofs.«126091_j27977416966525_1_alg».proof.Proof.Spec
import proofs.«126091_j27977416966525_1_alg».proof.Proof.KVals
import proofs.«126091_j27977416966525_1_alg».proof.Proof.KHost
import proofs.«126091_j27977416966525_1_alg».proof.Proof.RegSum0
import proofs.«126091_j27977416966525_1_alg».proof.Proof.RegAdd1
import proofs.«126091_j27977416966525_1_alg».proof.Proof.RegSum2
import proofs.«126091_j27977416966525_1_alg».proof.Proof.RegAdd3
import proofs.«126091_j27977416966525_1_alg».proof.Proof.RegSum4
import Idealize.ShloMosaic.Lib.Pipeline.Value

set_option maxRecDepth 16384

noncomputable section

open scoped BigOperators

namespace Leap.KChain

open Cert.KernelIdeal Cert.KernelIdeal.Gen Idealize.ShloMosaic Idealize.ShloMosaic.TcCoe Idealize.SL.Sem
open Idealize.ShloMosaic.Pipeline (Dat)
open Leap Leap.KVals

variable (m : (ℓ : Loc nD τ sig) → Buf (Elt Ideal) ℓ) (ρ : Dev nD → PrngReg) (c : Dev nD)

/-- The arguments other than the state (the step size and the fourteen weight arrays). -/
abbrev argRefs : List (Ref sig .tc) := [main_arg1, main_arg2, main_arg3, main_arg4, main_arg5, main_arg6, main_arg7, main_arg8, main_arg9, main_arg10, main_arg11, main_arg12, main_arg13, main_arg14, main_arg15]

/-! ## Boundary 1: after the slicing stretch

The stretch writes only the two halves q and p of the state; every argument keeps its launch contents. -/

theorem w1_q : W1 m ρ c (Proc.devRef .tc main_v0) = vQ m c :=
  KHost.h0_q (W0 m ρ c)

theorem w1_p : W1 m ρ c (Proc.devRef .tc main_v1) = vP m c :=
  KHost.h0_p (W0 m ρ c)

theorem w1_args : ∀ b ∈ argRefs, W1 m ρ c (Proc.devRef .tc b) = m ((c : Thread nD τ).loc b) := fun b hb =>
  KHost.keep0 (W0 m ρ c) b ((by decide : ∀ b ∈ argRefs, b ∉ KHost.written0) b hb)

/-! ## Boundary 2: region 0's exit

Region 0 reads q and p through input windows (an input's array is never written back) and leaves in its result
array the pair of per-batch sums of q and p. -/

theorem w2_q : W2 m ρ c (Proc.devRef .tc main_v0) = vQ m c :=
  (W2_arr m ρ c 0).trans (((dat0 (V1 m ρ) c).arrAt_in 0 rfl _).trans (w1_q m ρ c))

theorem w2_p : W2 m ρ c (Proc.devRef .tc main_v1) = vP m c :=
  (W2_arr m ρ c 1).trans (((dat0 (V1 m ρ) c).arrAt_in 1 rfl _).trans (w1_p m ρ c))

theorem w2_s1 : W2 m ρ c (Proc.devRef .tc main_v2) = sum2 (vQ m c) (vP m c) := by
  refine (W2_arr m ρ c 2).trans ((Reg0.value (V1 m ρ) c).trans ?_)
  rw [show V1 m ρ c main_v0 = vQ m c from w1_q m ρ c, show V1 m ρ c main_v1 = vP m c from w1_p m ρ c]

theorem w2_args : ∀ b ∈ argRefs, W2 m ρ c (Proc.devRef .tc b) = m ((c : Thread nD τ).loc b) := fun b hb =>
  (W2_of_ne m ρ c b ((by decide : ∀ b ∈ argRefs, ∀ w, Pipeline.arrRef spec0 w ≠ b) b hb)).trans (w1_args m ρ c b hb)

/-! ## Boundary 3: after the stretch of the first means and the first step of p

The stretch reads the first sums and the weights; it writes the first means and the per-batch step of p (and its own
intermediate buffers), none of which is q, p or an argument. -/

theorem w3_q : W3 m ρ c (Proc.devRef .tc main_v0) = vQ m c :=
  (KHost.keep1 (W2 m ρ c) main_v0 (by decide)).trans (w2_q m ρ c)

theorem w3_p : W3 m ρ c (Proc.devRef .tc main_v1) = vP m c :=
  (KHost.keep1 (W2 m ρ c) main_v1 (by decide)).trans (w2_p m ρ c)

theorem w3_m1 : W3 m ρ c (Proc.devRef .tc main_v4) = vM1 m c := by
  refine (KHost.h1_means (W2 m ρ c)).trans ?_
  rw [w2_s1 m ρ c]; rfl

/-- The per-batch step of p: minus half the step size times the gradient at the first means. -/
theorem w3_c1 : W3 m ρ c (Proc.devRef .tc main_v52)
    = stepP (m ((c : Thread nD τ).loc main_arg1)) (vG m c (vM1 m c)) := by
  refine (KHost.h1_step (W2 m ρ c)).trans ?_
  rw [w2_s1 m ρ c, w2_args m ρ c main_arg1 (by decide), w2_args m ρ c main_arg2 (by decide),
    w2_args m ρ c main_arg3 (by decide), w2_args m ρ c main_arg4 (by decide), w2_args m ρ c main_arg5 (by decide),
    w2_args m ρ c main_arg6 (by decide), w2_args m ρ c main_arg7 (by decide), w2_args m ρ c main_arg8 (by decide)]
  rfl

theorem w3_args : ∀ b ∈ argRefs, W3 m ρ c (Proc.devRef .tc b) = m ((c : Thread nD τ).loc b) := fun b hb =>
  (KHost.keep1 (W2 m ρ c) b ((by decide : ∀ b ∈ argRefs, b ∉ KHost.written1) b hb)).trans (w2_args m ρ c b hb)

/-! ## Boundary 4: region 1's exit

Region 1 adds the per-batch step to p: its result array holds the half-moved p. It does not touch q or the means. -/

theorem w4_q : W4 m ρ c (Proc.devRef .tc main_v0) = vQ m c :=
  (W4_of_ne m ρ c main_v0 (by decide)).trans (w3_q m ρ c)

theorem w4_m1 : W4 m ρ c (Proc.devRef .tc main_v4) = vM1 m c :=
  (W4_of_ne m ρ c main_v4 (by decide)).trans (w3_m1 m ρ c)

theorem w4_ph : W4 m ρ c (Proc.devRef .tc main_v53) = vPh m c := by
  refine (W4_arr m ρ c 2).trans ((Reg1.value (V3 m ρ) c).trans ?_)
  rw [show V3 m ρ c main_v1 = vP m c from w3_p m ρ c,
    show V3 m ρ c main_v52 = stepP (m ((c : Thread nD τ).loc main_arg1)) (vG m c (vM1 m c)) from w3_c1 m ρ c]
  rfl

theorem w4_args : ∀ b ∈ argRefs, W4 m ρ c (Proc.devRef .tc b) = m ((c : Thread nD τ).loc b) := fun b hb =>
  (W4_of_ne m ρ c b ((by decide : ∀ b ∈ argRefs, ∀ w, Pipeline.arrRef spec1 w ≠ b) b hb)).trans (w3_args m ρ c b hb)

/-! ## Boundary 5: region 2's exit

Region 2 reads q and the half-moved p through input windows and leaves the second pair of sums. -/

theorem w5_q : W5 m ρ c (Proc.devRef .tc main_v0) = vQ m c :=
  (W5_arr m ρ c 0).trans (((dat2 (V4 m ρ) c).arrAt_in 0 rfl _).trans (w4_q m ρ c))

theorem w5_ph : W5 m ρ c (Proc.devRef .tc main_v53) = vPh m c :=
  (W5_arr m ρ c 1).trans (((dat2 (V4 m ρ) c).arrAt_in 1 rfl _).trans (w4_ph m ρ c))

theorem w5_m1 : W5 m ρ c (Proc.devRef .tc main_v4) = vM1 m c :=
  (W5_of_ne m ρ c main_v4 (by decide)).trans (w4_m1 m ρ c)

theorem w5_s2 : W5 m ρ c (Proc.devRef .tc main_v54) = sum2 (vQ m c) (vPh m c) := by
  refine (W5_arr m ρ c 2).trans ((Reg2.value (V4 m ρ) c).trans ?_)
  rw [show V4 m ρ c main_v0 = vQ m c from w4_q m ρ c, show V4 m ρ c main_v53 = vPh m c from w4_ph m ρ c]

theorem w5_args : ∀ b ∈ argRefs, W5 m ρ c (Proc.devRef .tc b) = m ((c : Thread nD τ).loc b) := fun b hb =>
  (W5_of_ne m ρ c b ((by decide : ∀ b ∈ argRefs, ∀ w, Pipeline.arrRef spec2 w ≠ b) b hb)).trans (w4_args m ρ c b hb)

/-! ## Boundary 6: after the stretch with the step of q

The stretch reads the second sums and the weights; it writes the per-batch step of q (and its own intermediate
buffers), none of which is q, the half-moved p, the first means or an argument. -/

theorem w6_q : W6 m ρ c (Proc.devRef .tc main_v0) = vQ m c :=
  (KHost.keep3 (W5 m ρ c) main_v0 (by decide)).trans (w5_q m ρ c)

theorem w6_ph : W6 m ρ c (Proc.devRef .tc main_v53) = vPh m c :=
  (KHost.keep3 (W5 m ρ c) main_v53 (by decide)).trans (w5_ph m ρ c)

theorem w6_m1 : W6 m ρ c (Proc.devRef .tc main_v4) = vM1 m c :=
  (KHost.keep3 (W5 m ρ c) main_v4 (by decide)).trans (w5_m1 m ρ c)

/-- The per-batch step of q: the step size times the gradient at the second means. -/
theorem w6_c2 : W6 m ρ c (Proc.devRef .tc main_v103)
    = stepQ (m ((c : Thread nD τ).loc main_arg1)) (vG m c (vM2 m c)) := by
  refine (KHost.h3_step (W5 m ρ c)).trans ?_
  rw [w5_s2 m ρ c, w5_args m ρ c main_arg1 (by decide), w5_args m ρ c main_arg2 (by decide),
    w5_args m ρ c main_arg3 (by decide), w5_args m ρ c main_arg4 (by decide), w5_args m ρ c main_arg5 (by decide),
    w5_args m ρ c main_arg6 (by decide), w5_args m ρ c main_arg7 (by decide), w5_args m ρ c main_arg8 (by decide)]
  rfl

theorem w6_args : ∀ b ∈ argRefs, W6 m ρ c (Proc.devRef .tc b) = m ((c : Thread nD τ).loc b) := fun b hb =>
  (KHost.keep3 (W5 m ρ c) b ((by decide : ∀ b ∈ argRefs, b ∉ KHost.written3) b hb)).trans (w5_args m ρ c b hb)

/-! ## Boundary 7: region 3's exit

Region 3 adds the per-batch step to q: its result array holds the moved q. It does not touch the half-moved p or the
means. -/

theorem w7_ph : W7 m ρ c (Proc.devRef .tc main_v53) = vPh m c :=
  (W7_of_ne m ρ c main_v53 (by decide)).trans (w6_ph m ρ c)

theorem w7_m1 : W7 m ρ c (Proc.devRef .tc main_v4) = vM1 m c :=
  (W7_of_ne m ρ c main_v4 (by decide)).trans (w6_m1 m ρ c)

theorem w7_qn : W7 m ρ c (Proc.devRef .tc main_v104) = vQn m c := by
  refine (W7_arr m ρ c 2).trans ((Reg3.value (V6 m ρ) c).trans ?_)
  rw [show V6 m ρ c main_v0 = vQ m c from w6_q m ρ c,
    show V6 m ρ c main_v103 = stepQ (m ((c : Thread nD τ).loc main_arg1)) (vG m c (vM2 m c)) from w6_c2 m ρ c]
  rfl

theorem w7_args : ∀ b ∈ argRefs, W7 m ρ c (Proc.devRef .tc b) = m ((c : Thread nD τ).loc b) := fun b hb =>
  (W7_of_ne m ρ c b ((by decide : ∀ b ∈ argRefs, ∀ w, Pipeline.arrRef spec3 w ≠ b) b hb)).trans (w6_args m ρ c b hb)

/-! ## Boundary 8: region 4's exit

Region 4 reads the moved q and the half-moved p through input windows and leaves the third pair of sums. -/

/-- At region 4's exit every such argument is as launched. -/
theorem w8_args : ∀ b ∈ argRefs, W8 m ρ c (Proc.devRef .tc b) = m ((c : Thread nD τ).loc b) := fun b hb =>
  (W8_of_ne m ρ c b ((by decide : ∀ b ∈ argRefs, ∀ w, Pipeline.arrRef spec4 w ≠ b) b hb)).trans (w7_args m ρ c b hb)

/-- At region 4's exit the first means are still in their buffer. -/
theorem w8_m1 : W8 m ρ c (Proc.devRef .tc main_v4) = vM1 m c :=
  (W8_of_ne m ρ c main_v4 (by decide)).trans (w7_m1 m ρ c)

/-- At region 4's exit the half-moved p. -/
theorem w8_ph : W8 m ρ c (Proc.devRef .tc main_v53) = vPh m c :=
  (W8_arr m ρ c 1).trans (((dat4 (V7 m ρ) c).arrAt_in 1 rfl _).trans (w7_ph m ρ c))

/-- At region 4's exit the moved q. -/
theorem w8_qn : W8 m ρ c (Proc.devRef .tc main_v104) = vQn m c :=
  (W8_arr m ρ c 0).trans (((dat4 (V7 m ρ) c).arrAt_in 0 rfl _).trans (w7_qn m ρ c))

/-- At region 4's exit the third pair of sums. -/
theorem w8_s3 : W8 m ρ c (Proc.devRef .tc main_v105) = sum2 (vQn m c) (vPh m c) := by
  refine (W8_arr m ρ c 2).trans ((Reg4.value (V7 m ρ) c).trans ?_)
  rw [show V7 m ρ c main_v104 = vQn m c from w7_qn m ρ c, show V7 m ρ c main_v53 = vPh m c from w7_ph m ρ c]

end Leap.KChain

end
-- ==== Proof.RegAdd5.lean ====
/- Region 5 adds a per-batch scalar to an array, row tile by row tile: point t writes rows 16t..16t+15 of every batch item and channel, each entry the input's plus the scalar of its batch item; the sixteen tiles cover the array. -/
import proofs.«126091_j27977416966525_1_alg».proof.Proof.Gen.KernelIdeal.Frame
import proofs.«126091_j27977416966525_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Leap.Reg5

open Cert.KernelIdeal Cert.KernelIdeal.Gen Idealize.ShloMosaic Idealize.ShloMosaic.TcCoe Idealize.SL.Sem
open Idealize.ShloMosaic.Pipeline (Dat)
open Idealize.ShloMosaic.ValueIdx Leap

/-- The four offsets of an access to a whole block are zero. -/
theorem off_zero : (![0, 0, 0, 0] : Fin 4 → Nat) = fun _ => 0 := funext fun a => by fin_cases a <;> rfl

/-- The block the body stores, entry by entry: the input block's entry plus the scalar of its batch item
    (the scalar block has one entry per batch item, repeated along the three other axes). -/
theorem out_eq (x0 : Vec Ideal S32x8x16x256 .f32) (x1 : Vec Ideal S32x1x1x1 .f32) :
    out5_2 x0 x1 = fun j => x0 j + x1 (ix4 (j 0) 0 0 0) := by
  unfold out5_2
  rw [View.canon_unit_zero off_zero]
  simp only [View.ld_unit_zero (S := S32x8x16x256) off_zero, View.ld_unit_zero (S := S32x1x1x1) off_zero]
  unfold k5_pay1
  dsimp only
  rw [shapeCast_self, shapeCast_self]
  funext j
  show x0 j + broadcastTo S32x8x16x256 x1 broadcasts_S32x1x1x1_S32x8x16x256 j = _
  refine congrArg (x0 j + ·) (broadcastTo_apply x1 _ j (ix4 (j 0) 0 0 0) fun a => ?_)
  match a with
  | ⟨0, _⟩ => rfl
  | ⟨1, _⟩ => rfl
  | ⟨2, _⟩ => rfl
  | ⟨3, _⟩ => rfl

/-- Equal indices give equal sums of an array's entry and a scalar's. -/
theorem add_congr (X : Vec Ideal S32x8x256x256 .f32) (C : Vec Ideal S32x1x1x1 .f32) {p q : S32x8x256x256.Idx} {r s : S32x1x1x1.Idx}
    (hp : p = q) (hr : r = s) : X p + C r = X q + C s := by rw [hp, hr]

/-- The block index maps over the grid: point t reads and writes the t-th tile of sixteen rows (axis 2), all of
    the other three axes; every point reads the whole array of scalars. -/
theorem idx_facts : ∀ t : Fin cfg5.N,
    win5_0.index t (0 : Fin 4) = 0 ∧ win5_0.index t (1 : Fin 4) = 0 ∧ win5_0.index t (2 : Fin 4) = t.val ∧ win5_0.index t (3 : Fin 4) = 0
    ∧ win5_1.index t (0 : Fin 4) = 0 ∧ win5_1.index t (1 : Fin 4) = 0 ∧ win5_1.index t (2 : Fin 4) = 0 ∧ win5_1.index t (3 : Fin 4) = 0
    ∧ win5_2.index t (0 : Fin 4) = 0 ∧ win5_2.index t (1 : Fin 4) = 0 ∧ win5_2.index t (2 : Fin 4) = t.val ∧ win5_2.index t (3 : Fin 4) = 0 :=
  (by decide +kernel : ∀ t : Fin grid5.N, _)

variable (V : (c : Dev nD) → (b : Ref sig .tc) → Buf (Elt Ideal) ((c : Thread nD τ).loc b))

/-- What point t writes back is its block of the whole-array function: the input block sits where the output block
    does (block index times block size plus the coordinate inside the block, axis by axis), and the scalar read
    for an entry is the one of the entry's batch item. -/
theorem flushed_eq (c : Dev nD) (t : Fin cfg5.N) :
    (dat5 (F := Ideal) V c).flushed 2 t = ((cfg5.win 2).blk t).view.read (Elt Ideal) (addB (V c main_v53) (V c main_v155)) := by
  show (cfg5.win 2).cut (grid5.coords t) ((dat5 V c).after 2 t) = _
  rw [after5_2]
  obtain ⟨a0, a1, a2, a3, s0, s1, s2, s3, o0, o1, o2, o3⟩ := idx_facts t
  funext j
  refine (congrFun (out_eq (iblk5 V c 0 t) (iblk5 V c 1 t)) j).trans ?_
  have h0 : (((cfg5.win 0).blk t).view.emb j : S32x8x256x256.Idx) = ((cfg5.win 2).blk t).view.emb j := by
    funext a; apply Fin.ext
    match a with
    | ⟨0, _⟩ => show win5_0.index t (0 : Fin 4) * 32 + 1 * (j 0).val = win5_2.index t (0 : Fin 4) * 32 + 1 * (j 0).val; omega
    | ⟨1, _⟩ => show win5_0.index t (1 : Fin 4) * 8 + 1 * (j 1).val = win5_2.index t (1 : Fin 4) * 8 + 1 * (j 1).val; omega
    | ⟨2, _⟩ => show win5_0.index t (2 : Fin 4) * 16 + 1 * (j 2).val = win5_2.index t (2 : Fin 4) * 16 + 1 * (j 2).val; omega
    | ⟨3, _⟩ => show win5_0.index t (3 : Fin 4) * 256 + 1 * (j 3).val = win5_2.index t (3 : Fin 4) * 256 + 1 * (j 3).val; omega
  have h1 : (((cfg5.win 1).blk t).view.emb (ix4 (n0 := 32) (n1 := 1) (n2 := 1) (n3 := 1) (j 0) 0 0 0) : S32x1x1x1.Idx)
      = ix4 (n0 := 32) (n1 := 1) (n2 := 1) (n3 := 1) ((((cfg5.win 2).blk t).view.emb j) 0) 0 0 0 := by
    funext a; apply Fin.ext
    match a with
    | ⟨0, _⟩ => show win5_1.index t (0 : Fin 4) * 32 + 1 * (j 0).val = win5_2.index t (0 : Fin 4) * 32 + 1 * (j 0).val; omega
    | ⟨1, _⟩ => show win5_1.index t (1 : Fin 4) * 1 + 1 * 0 = 0; omega
    | ⟨2, _⟩ => show win5_1.index t (2 : Fin 4) * 1 + 1 * 0 = 0; omega
    | ⟨3, _⟩ => show win5_1.index t (3 : Fin 4) * 1 + 1 * 0 = 0; omega
  exact add_congr (V c main_v53) (V c main_v155) h0 h1

/-- An index of the array is in point t's block iff each coordinate is in the block's range on its axis. -/
theorem mem_blk (t : Fin cfg5.N) (i : S32x8x256x256.Idx) :
    i ∈ ((cfg5.win 2).blk t).view.set ↔ ∀ a : Fin 4, win5_2.index t a * S32x8x16x256.size a ≤ (i a).val ∧ (i a).val < win5_2.index t a * S32x8x16x256.size a + S32x8x16x256.size a := by
  show i ∈ ((View.whole main_v156).slice (win5_2.rect t)).set ↔ _
  rw [View.set_slice_whole, Rect.mem_set_unit]
  exact Iff.rfl

/-- The sixteen tiles cover the array: row h of any batch item and channel is in the block of point h / 16. -/
theorem cover (i : S32x8x256x256.Idx) : ∃ t : Fin cfg5.N, (cfg5.win 2).flush t = true ∧ i ∈ ((cfg5.win 2).blk t).view.set := by
  have h0 : (i 0).val < 32 := (i 0).isLt
  have h1 : (i 1).val < 8 := (i 1).isLt
  have h2 : (i 2).val < 256 := (i 2).isLt
  have h3 : (i 3).val < 256 := (i 3).isLt
  have hN : grid5.N = 16 := N_5
  obtain ⟨t, ht⟩ : ∃ t : Fin cfg5.N, t.val = (i 2).val / 16 :=
    ⟨⟨(i 2).val / 16, by show (i 2).val / 16 < grid5.N; rw [hN]; omega⟩, rfl⟩
  obtain ⟨-, -, -, -, -, -, -, -, o0, o1, o2, o3⟩ := idx_facts t
  refine ⟨t, flush5_2 t, ?_⟩
  rw [mem_blk]
  intro a
  match a with
  | ⟨0, _⟩ => show win5_2.index t (0 : Fin 4) * 32 ≤ (i 0).val ∧ (i 0).val < win5_2.index t (0 : Fin 4) * 32 + 32; omega
  | ⟨1, _⟩ => show win5_2.index t (1 : Fin 4) * 8 ≤ (i 1).val ∧ (i 1).val < win5_2.index t (1 : Fin 4) * 8 + 8; omega
  | ⟨2, _⟩ => show win5_2.index t (2 : Fin 4) * 16 ≤ (i 2).val ∧ (i 2).val < win5_2.index t (2 : Fin 4) * 16 + 16; omega
  | ⟨3, _⟩ => show win5_2.index t (3 : Fin 4) * 256 ≤ (i 3).val ∧ (i 3).val < win5_2.index t (3 : Fin 4) * 256 + 256; omega

/-- What region 5 leaves in its result array, as a function of the arrays it is entered with. -/
theorem value (V : (c : Dev nD) → (b : Ref sig .tc) → Buf (Elt Ideal) ((c : Thread nD τ).loc b)) (c : Dev nD) :
    (dat5 (F := Ideal) V c).arrAt 2 cfg5.N = (addB (V c main_v53) (V c main_v155) : Buf (Elt Ideal) ((c : Thread nD τ).loc main_v156)) :=
  (dat5 (F := Ideal) V c).arrAt_eq_of_cover 2 (addB (V c main_v53) (V c main_v155)) (fun t _ => flushed_eq V c t) cover

end Leap.Reg5

end
-- ==== Proof.RegSum6.lean ====
/- The pair of per-batch sums region 6 accumulates over its sixteen row tiles: each point adds, for both input arrays, the sum over channels, the tile's sixteen rows and all lanes of every batch item to a [32,2] block that is zeroed at the first point and written back after the last; so the result array holds the two whole per-batch sums. -/
import proofs.«126091_j27977416966525_1_alg».proof.Proof.Gen.KernelIdeal.Frame
import proofs.«126091_j27977416966525_1_alg».proof.Proof.Spec
import proofs.«126091_j27977416966525_1_alg».proof.Proof.Sums
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Leap.Reg6

open Cert.KernelIdeal Cert.KernelIdeal.Gen Idealize.ShloMosaic Idealize.ShloMosaic.TcCoe Idealize.SL.Sem
open Idealize.ShloMosaic.Pipeline (Dat)
open Idealize.ShloMosaic.ValueIdx Leap

variable {F : FTy → Type} [FloatOps F]

/-! ## One point of the grid -/

/-- The offsets of an access at the origin of a rank-2 buffer are all zero, -/
theorem hz2 : (![0, 0] : Fin 2 → Nat) = fun _ => 0 :=
  funext fun a => match a with
    | ⟨0, _⟩ => rfl
    | ⟨1, _⟩ => rfl
/-- and likewise at rank 4. -/
theorem hz4 : (![0, 0, 0, 0] : Fin 4 → Nat) = fun _ => 0 :=
  funext fun a => match a with
    | ⟨0, _⟩ => rfl
    | ⟨1, _⟩ => rfl
    | ⟨2, _⟩ => rfl
    | ⟨3, _⟩ => rfl

/-- Away from the first point the body leaves, in the accumulator holding `xo`, the body's arithmetic on the two
    input blocks and `xo`. -/
theorem out_B (c : Dev nD) (i : grid6.Coords) (a1 : Memref sig .tc .vmem S32x8x16x256 .f32) (h1 : a1.IsWhole)
    (a2 : Memref sig .tc .vmem S32x8x16x256 .f32) (h2 : a2.IsWhole) (a3 : Memref sig .tc .vmem S32x2 .f32) (h3 : a3.IsWhole)
    (hc : ¬cond6_0 i) (x0 x1 : Vec F S32x8x16x256 .f32) (xo : Vec F S32x2 .f32) :
    out6_B_2 c i a1 h1 a2 h2 a3 h3 hc x0 x1 xo = k6_pay2 x0 x1 xo := by
  unfold out6_B_2
  rw [View.read_writes_eq_canon _ _ _ (cover6_B_2 c i a1 h1 a2 h2 a3 h3 hc x0 x1 xo)]
  unfold kernelRun6_B
  dsimp only
  rw [View.canon_unit_zero hz2]
  simp only [View.readAt_eq_ld, h1.read_unread, h2.read_unread, h3.read_unread,
    View.ld_unit_zero (S := S32x8x16x256) hz4, View.ld_unit_zero (S := S32x2) hz2]

/-- At the first point the body zeroes the accumulator first, so it leaves the body's arithmetic on the two input
    blocks and the zero block. -/
theorem out_A (c : Dev nD) (i : grid6.Coords) (a1 : Memref sig .tc .vmem S32x8x16x256 .f32) (h1 : a1.IsWhole)
    (a2 : Memref sig .tc .vmem S32x8x16x256 .f32) (h2 : a2.IsWhole) (a3 : Memref sig .tc .vmem S32x2 .f32) (h3 : a3.IsWhole)
    (hc : cond6_0 i) (x0 x1 : Vec F S32x8x16x256 .f32) :
    out6_A_2 c i a1 h1 a2 h2 a3 h3 hc x0 x1 = k6_pay2 x0 x1 (k6_pay1 (F := F)) := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S32x2) hz2, View.readCov_unit_zero (S := S32x2) _ hz2]
  simp only [View.readAt_eq_ld, h1.read_unread, h2.read_unread,
    View.ld_unit_zero (S := S32x8x16x256) hz4]

/-- The sum of one batch item of a row tile: over its channels, its sixteen rows and its lanes. -/
def tileSum (x : Vec Ideal S32x8x16x256 .f32) (b : Fin 32) : EReal :=
  ∑ ch : Fin 8, ∑ r : Fin 16, ∑ l : Fin 256, x (ix4 b ch r l)

/-- The three reductions in a row (lanes, then rows, then channels) give that sum. -/
theorem red3 (x : Vec Ideal S32x8x16x256 .f32) (b : Fin 32) :
    multiReduction (F := Ideal) .add [1] S32
      (multiReduction (F := Ideal) .add [2] S32x8
        (multiReduction (F := Ideal) .add [3] S32x8x16 x 0x00000000#32 reduces_S32x8x16x256_S32x8x16 (.inl rfl) rfl)
        0x00000000#32 reduces_S32x8x16_S32x8 (.inl rfl) rfl)
      0x00000000#32 reduces_S32x8_S32 (.inl rfl) rfl (ix1 b) = tileSum x b := by
  refine (Ideal.multiReduction_add_single _ 0x00000000#32 reduces_S32x8_S32 (.inl rfl) rfl (ix1 b)).trans ?_
  unfold tileSum
  refine Finset.sum_congr rfl fun ch _ => ?_
  refine (Ideal.multiReduction_add_single _ 0x00000000#32 reduces_S32x8x16_S32x8 (.inl rfl) rfl _).trans ?_
  refine Finset.sum_congr rfl fun r _ => ?_
  refine (Ideal.multiReduction_add_single _ 0x00000000#32 reduces_S32x8x16x256_S32x8x16 (.inl rfl) rfl _).trans ?_
  refine Finset.sum_congr rfl fun l _ => ?_
  refine congrArg x (funext fun a => Fin.ext ?_)
  match a with
  | ⟨0, _⟩ => rfl
  | ⟨1, _⟩ => rfl
  | ⟨2, _⟩ => rfl
  | ⟨3, _⟩ => rfl

/-- A [32] vector recast as a [32,1] column keeps its entries: (b, 0) is at the same row-major position as b. -/
theorem col_apply (v : Vec Ideal S32 .f32) (b : Fin 32) :
    shapeCast S32x1 v shapeCasts_S32_S32x1 (ix2 b (0 : Fin 1)) = v (ix1 b) :=
  shapeCast_apply v _ (ix2 b (0 : Fin 1)) (ix1 b) (by
    rw [Shape.rowMajor_val_one, Shape.rowMajor_val_two]
    show b.val = b.val * 1 + 0
    omega)

/-- The body's arithmetic read at one entry of the [32,2] block: the accumulator's entry plus the tile's sum of the
    first input block (column 0) or of the second (column 1). -/
theorem pay_apply (x0 x1 : Vec Ideal S32x8x16x256 .f32) (xo : Vec Ideal S32x2 .f32) (b : Fin 32) (k : Fin 2) :
    k6_pay2 x0 x1 xo (ix2 b k) = xo (ix2 b k) + (if k.val = 0 then tileSum x0 b else tileSum x1 b) := by
  unfold k6_pay2
  have e0 : shapeCast S32x8x16x256 x0 shapeCasts_S32x8x16x256_S32x8x16x256 = x0 := shapeCast_self _ _
  have e1 : shapeCast S32x8x16x256 x1 shapeCasts_S32x8x16x256_S32x8x16x256 = x1 := shapeCast_self _ _
  have e2 : shapeCast S32x2 xo shapeCasts_S32x2_S32x2 = xo := shapeCast_self _ _
  rw [e0, e1, e2, addf_apply]
  congr 1
  match k with
  | ⟨0, _⟩ =>
    refine (concatenate_pair_apply_left _ _ _ concatenates_S32x1_S32x1_S32x2_d1 (ix2 b (0 : Fin 2)) rfl
      (ix2 b (0 : Fin 1)) (fun d => ?_)).trans ((col_apply _ b).trans (red3 x0 b))
    match d with
    | ⟨0, _⟩ => rfl
    | ⟨1, _⟩ => rfl
  | ⟨1, _⟩ =>
    refine (concatenate_pair_apply_right _ _ _ concatenates_S32x1_S32x1_S32x2_d1 (ix2 b (1 : Fin 2)) rfl rfl
      (ix2 b (0 : Fin 1)) (fun d hd => ?_) rfl).trans ((col_apply _ b).trans (red3 x1 b))
    match d with
    | ⟨0, _⟩ => rfl
    | ⟨1, _⟩ => exact absurd rfl hd

/-! ## The blocks the two input windows read -/

/-- The sum over the channels, the sixteen rows of row tile `t` and all lanes of batch item `b` of a whole array
    (there are sixteen row tiles; past them the empty sum). -/
def bandSum (a : Vec Ideal S32x8x256x256 .f32) (b : Fin 32) (t : ℕ) : EReal :=
  if h : t < 16 then ∑ ch : Fin 8, ∑ r : Fin 16, ∑ l : Fin 256, a (ix4 b ch ⟨16 * t + r.val, by omega⟩ l) else 0

section Blocks
variable (V : (c : Dev nD) → (b : Ref sig .tc) → Buf (Elt Ideal) ((c : Thread nD τ).loc b)) (c : Dev nD)

/-- The first window's block at point `t` holds rows 16 t .. 16 t + 15 of every batch item and channel of its array. -/
theorem blkA_apply (t : Fin cfg6.N) (b : Fin 32) (ch : Fin 8) (r : Fin 16) (l : Fin 256) (h : 16 * t.val + r.val < 256) :
    (iblk6 V c 0 t : Vec Ideal S32x8x16x256 .f32) (ix4 b ch r l)
      = (V c main_v104 : Vec Ideal S32x8x256x256 .f32) (ix4 b ch ⟨16 * t.val + r.val, h⟩ l) := by
  have hi : win6_0.index t 0 = 0 ∧ win6_0.index t 1 = 0 ∧ win6_0.index t 2 = t.val ∧ win6_0.index t 3 = 0 :=
    (by decide +kernel : ∀ t : Fin grid6.N,
      win6_0.index t 0 = 0 ∧ win6_0.index t 1 = 0 ∧ win6_0.index t 2 = t.val ∧ win6_0.index t 3 = 0) t
  unfold iblk6
  rw [View.read_apply]
  show (V c main_v104 : Vec Ideal S32x8x256x256 .f32) _ = V c main_v104 _
  congr 1
  funext a
  apply Fin.ext
  match a with
  | ⟨0, _⟩ => show win6_0.index t 0 * 32 + 1 * b.val = b.val; rw [hi.1]; omega
  | ⟨1, _⟩ => show win6_0.index t 1 * 8 + 1 * ch.val = ch.val; rw [hi.2.1]; omega
  | ⟨2, _⟩ => show win6_0.index t 2 * 16 + 1 * r.val = 16 * t.val + r.val; rw [hi.2.2.1]; omega
  | ⟨3, _⟩ => show win6_0.index t 3 * 256 + 1 * l.val = l.val; rw [hi.2.2.2]; omega

/-- The second window's block at point `t` holds the same rows of its array. -/
theorem blkB_apply (t : Fin cfg6.N) (b : Fin 32) (ch : Fin 8) (r : Fin 16) (l : Fin 256) (h : 16 * t.val + r.val < 256) :
    (iblk6 V c 1 t : Vec Ideal S32x8x16x256 .f32) (ix4 b ch r l)
      = (V c main_v156 : Vec Ideal S32x8x256x256 .f32) (ix4 b ch ⟨16 * t.val + r.val, h⟩ l) := by
  have hi : win6_1.index t 0 = 0 ∧ win6_1.index t 1 = 0 ∧ win6_1.index t 2 = t.val ∧ win6_1.index t 3 = 0 :=
    (by decide +kernel : ∀ t : Fin grid6.N,
      win6_1.index t 0 = 0 ∧ win6_1.index t 1 = 0 ∧ win6_1.index t 2 = t.val ∧ win6_1.index t 3 = 0) t
  unfold iblk6
  rw [View.read_apply]
  show (V c main_v156 : Vec Ideal S32x8x256x256 .f32) _ = V c main_v156 _
  congr 1
  funext a
  apply Fin.ext
  match a with
  | ⟨0, _⟩ => show win6_1.index t 0 * 32 + 1 * b.val = b.val; rw [hi.1]; omega
  | ⟨1, _⟩ => show win6_1.index t 1 * 8 + 1 * ch.val = ch.val; rw [hi.2.1]; omega
  | ⟨2, _⟩ => show win6_1.index t 2 * 16 + 1 * r.val = 16 * t.val + r.val; rw [hi.2.2.1]; omega
  | ⟨3, _⟩ => show win6_1.index t 3 * 256 + 1 * l.val = l.val; rw [hi.2.2.2]; omega

/-- So the tile sum of the first window's block at point `t` is the sum over row tile `t` of its array, -/
theorem tile_blkA (t : Fin cfg6.N) (b : Fin 32) :
    tileSum (iblk6 V c 0 t) b = bandSum (V c main_v104) b t.val := by
  have hN : t.val < 16 := lt_of_lt_of_eq t.isLt (show cfg6.N = 16 from N_6)
  unfold tileSum bandSum
  rw [dif_pos hN]
  exact Finset.sum_congr rfl fun ch _ => Finset.sum_congr rfl fun r _ => Finset.sum_congr rfl fun l _ =>
    blkA_apply V c t b ch r l _

/-- and likewise for the second window. -/
theorem tile_blkB (t : Fin cfg6.N) (b : Fin 32) :
    tileSum (iblk6 V c 1 t) b = bandSum (V c main_v156) b t.val := by
  have hN : t.val < 16 := lt_of_lt_of_eq t.isLt (show cfg6.N = 16 from N_6)
  unfold tileSum bandSum
  rw [dif_pos hN]
  exact Finset.sum_congr rfl fun ch _ => Finset.sum_congr rfl fun r _ => Finset.sum_congr rfl fun l _ =>
    blkB_apply V c t b ch r l _

/-! ## The accumulator after each point -/

/-- The zero block's entries are zero. -/
theorem zero_apply (j : S32x2.Idx) : (k6_pay1 (F := Ideal)) j = 0 := Ideal.ofBits_zero_f32

/-- After point `n` the accumulator's entry (b, k) is the sum, over the row tiles up to `n`, of the tile sums of the
    first array (k = 0) or of the second (k = 1): by induction on the point. -/
theorem outs_apply : ∀ (n : ℕ) (h : n < cfg6.N) (b : Fin 32) (k : Fin 2),
    outsAt6 V c n h (ix2 b k)
      = ∑ t ∈ Finset.range (n + 1), (if k.val = 0 then bandSum (V c main_v104) b t else bandSum (V c main_v156) b t)
  | 0, h, b, k => by
    rw [outsAt6_A V c ⟨0, h⟩ rfl, out_A, pay_apply, zero_apply, zero_add, Finset.sum_range_one, tile_blkA, tile_blkB]
  | n + 1, h, b, k => by
    have hN : cfg6.N = 16 := N_6
    have hB : ¬(⟨n + 1, h⟩ : Fin cfg6.N).val % 16 = 0 := by dsimp only; omega
    rw [outsAt6_B V c ⟨n + 1, h⟩ hB, out_B, pay_apply, Finset.sum_range_succ, tile_blkA, tile_blkB]
    congr 1
    exact outs_apply n _ b k

/-! ## All sixteen points -/

/-- The sixteen row tiles' sums of an array make up the sum of a whole batch item. -/
theorem bands_sum (a : Vec Ideal S32x8x256x256 .f32) (b : Fin 32) :
    ∑ t ∈ Finset.range 16, bandSum a b t = rowSum a b := by
  rw [Finset.sum_range]
  refine (Finset.sum_congr rfl fun t _ => (dif_pos t.isLt : bandSum a b t.val = _)).trans ?_
  rw [Finset.sum_comm]
  exact Finset.sum_congr rfl fun ch _ => sum_tiles16 (fun h => ∑ l : Fin 256, a (ix4 b ch h l))

/-- After the sixteenth point the accumulator holds the two arrays' per-batch sums. -/
theorem outs_last (n : ℕ) (h : n < cfg6.N) (hn : n = 15) :
    outsAt6 V c n h = sum2 (V c main_v104) (V c main_v156) := by
  subst hn
  funext j
  obtain ⟨b, k, rfl⟩ : ∃ b k, j = ix2 b k := ⟨j 0, j 1, eq_ix2 j⟩
  rw [outs_apply V c 15 h b k, sum2_ix]
  by_cases hk : k.val = 0
  · simp only [if_pos hk]; exact bands_sum _ b
  · simp only [if_neg hk]; exact bands_sum _ b

/-! ## The result array -/

/-- At the last point the result window's block index is zero on both axes: its rectangle starts at the array's origin. -/
theorem last_off : (fun a => win6_2.index t6_15 a * main_v157.ty.shape.size a) = fun _ => 0 :=
  funext fun a => by
    rw [(by decide +kernel : ∀ a, win6_2.index t6_15 a = 0) a, Nat.zero_mul]

end Blocks

/-- What region 6 leaves in its result array, as a function of the arrays it is entered with. -/
theorem value (V : (c : Dev nD) → (b : Ref sig .tc) → Buf (Elt Ideal) ((c : Thread nD τ).loc b)) (c : Dev nD) :
    (dat6 (F := Ideal) V c).arrAt 2 cfg6.N = (sum2 (V c main_v104) (V c main_v156) : Buf (Elt Ideal) ((c : Thread nD τ).loc main_v157)) := by
  have hN : cfg6.N = 16 := N_6
  refine (dat6 V c).arrAt_eq_of_cover 2 _ (fun t hf => ?_) fun i => ⟨t6_15, (flush6_2 t6_15).mpr rfl, ?_⟩
  · -- the one write-back is the last point's; its block is the whole array
    obtain rfl : t = t6_15 := Fin.ext (by
      have h15 := (flush6_2 t).mp hf
      have hlt := t.isLt
      show t.val = 15
      omega)
    refine Eq.trans ?_ (Memref.read_access_unit_zero (Elt Ideal) main_v157 last_off
      (fun a => by rw [congrFun last_off a, Nat.zero_add]) _).symm
    show (cfg6.win 2).cut (grid6.coords t6_15) ((dat6 V c).after 2 t6_15) = _
    rw [after6_2, outs_last V c t6_15.val t6_15.isLt rfl]
    rfl
  · show i ∈ ((View.whole main_v157).slice (win6_2.rect t6_15)).set
    rw [View.set_slice_whole]
    exact View.mem_set_unit_zero (S := S32x2) last_off _ i

end Leap.Reg6

end
-- ==== Proof.RegSq7.lean ====
/- Region 7 accumulates the sum of squares of an array over its sixteen row tiles into a [1,1] block zeroed at the first point and written back after the last: the result is the sum of the squares of all entries. -/
import proofs.«126091_j27977416966525_1_alg».proof.Proof.Gen.KernelIdeal.Frame
import proofs.«126091_j27977416966525_1_alg».proof.Proof.Spec
import proofs.«126091_j27977416966525_1_alg».proof.Proof.Sums
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Leap.Reg7

open Cert.KernelIdeal Cert.KernelIdeal.Gen Idealize.ShloMosaic Idealize.ShloMosaic.TcCoe Idealize.SL.Sem
open Idealize.ShloMosaic.Pipeline (Dat)
open Idealize.ShloMosaic.ValueIdx Leap

/-! ## What one point leaves in the accumulator (any float instance) -/

variable {F : FTy → Type} [FloatOps F]

/-- The zero offsets of a rank-2 and of a rank-4 access, as constant functions. -/
theorem hz2 : (![0, 0] : Fin 2 → Nat) = fun _ => 0 := funext fun a => by fin_cases a <;> rfl
theorem hz4 : (![0, 0, 0, 0] : Fin 4 → Nat) = fun _ => 0 := funext fun a => by fin_cases a <;> rfl

/-- At a later point the body leaves, in the accumulator's buffer holding `xo`, its one covering store's payload: the
    accumulator plus the tile's reduction, both loads of the tile reading the whole input buffer. -/
theorem out_B (c : Dev nD) (i : grid7.Coords) (a1 : Memref sig .tc .vmem S32x8x16x256 .f32) (h1 : a1.IsWhole)
    (a2 : Memref sig .tc .vmem S1x1 .f32) (h2 : a2.IsWhole) (hc : ¬cond7_0 i) (x : Vec F S32x8x16x256 .f32) (xo : Vec F S1x1 .f32) :
    out7_B_1 c i a1 h1 a2 h2 hc x xo = k7_pay2 x x xo := by
  unfold out7_B_1
  rw [View.read_writes_eq_canon _ _ _ (cover7_B_1 c i a1 h1 a2 h2 hc x xo)]
  unfold kernelRun7_B
  dsimp only
  rw [View.canon_unit_zero hz2]
  simp only [View.readAt_eq_ld, h1.read_unread, h2.read_unread, View.ld_unit_zero (S := S32x8x16x256) hz4,
    View.ld_unit_zero (S := S1x1) hz2]

/-- At the first point the body stores the zero block, reads it back, and leaves the zero block plus the tile's
    reduction. -/
theorem out_A (c : Dev nD) (i : grid7.Coords) (a1 : Memref sig .tc .vmem S32x8x16x256 .f32) (h1 : a1.IsWhole)
    (a2 : Memref sig .tc .vmem S1x1 .f32) (h2 : a2.IsWhole) (hc : cond7_0 i) (x : Vec F S32x8x16x256 .f32) :
    out7_A_1 c i a1 h1 a2 h2 hc x = k7_pay2 x x (k7_pay1 (F := F)) := by
  unfold out7_A_1
  rw [View.read_writes_eq_canon _ _ _ (cover7_A_1 c i a1 h1 a2 h2 hc x)]
  unfold kernelRun7_A
  dsimp only
  sl_unfold_words
  rw [View.canon_cons_unit_zero (S := S1x1) hz2, View.readCov_unit_zero (S := S1x1) _ hz2]
  simp only [View.readAt_eq_ld, h1.read_unread, View.ld_unit_zero (S := S32x8x16x256) hz4]

/-! ## The payload over the extended reals: the accumulator plus the tile's sum of squares -/

/-- The sum of the squares of one [32,8,16,256] tile, coordinate by coordinate. -/
def tileSq (x : Vec Ideal S32x8x16x256 .f32) : EReal :=
  ∑ b : Fin 32, ∑ ch : Fin 8, ∑ r : Fin 16, ∑ l : Fin 256, x (ix4 b ch r l) * x (ix4 b ch r l)

/-- A sum over the last axis of a [32,8,16,256] vector, read at (b, ch, r): the sum over the lanes. -/
theorem red_lane (v : FVec Ideal S32x8x16x256 .f32) (acc : BitVec 32) (h : S32x8x16x256.Reduces [3] S32x8x16)
    (hφ : FKind.Formats .f32) (hacc : acc = FKind.add.neutral .f32 hφ) (j : S32x8x16.Idx) :
    multiReduction .add [3] S32x8x16 v acc h hφ hacc j = ∑ l : Fin 256, v (ix4 (j 0) (j 1) (j 2) l) :=
  (Ideal.multiReduction_add_single v acc h hφ hacc j).trans (Finset.sum_congr rfl fun k _ => congrArg v
    (funext fun a => match a with | ⟨0, _⟩ => rfl | ⟨1, _⟩ => rfl | ⟨2, _⟩ => rfl | ⟨3, _⟩ => rfl))

/-- A sum over the last axis of a [32,8,16] vector, read at (b, ch): the sum over the rows. -/
theorem red_row (v : FVec Ideal S32x8x16 .f32) (acc : BitVec 32) (h : S32x8x16.Reduces [2] S32x8)
    (hφ : FKind.Formats .f32) (hacc : acc = FKind.add.neutral .f32 hφ) (j : S32x8.Idx) :
    multiReduction .add [2] S32x8 v acc h hφ hacc j = ∑ r : Fin 16, v (ix3 (j 0) (j 1) r) :=
  (Ideal.multiReduction_add_single v acc h hφ hacc j).trans (Finset.sum_congr rfl fun k _ => congrArg v
    (funext fun a => match a with | ⟨0, _⟩ => rfl | ⟨1, _⟩ => rfl | ⟨2, _⟩ => rfl))

/-- A sum over the last axis of a [32,8] vector, read at b: the sum over the channels. -/
theorem red_ch (v : FVec Ideal S32x8 .f32) (acc : BitVec 32) (h : S32x8.Reduces [1] S32)
    (hφ : FKind.Formats .f32) (hacc : acc = FKind.add.neutral .f32 hφ) (j : S32.Idx) :
    multiReduction .add [1] S32 v acc h hφ hacc j = ∑ ch : Fin 8, v (ix2 (j 0) ch) :=
  (Ideal.multiReduction_add_single v acc h hφ hacc j).trans (Finset.sum_congr rfl fun k _ => congrArg v
    (funext fun a => match a with | ⟨0, _⟩ => rfl | ⟨1, _⟩ => rfl))

/-- A sum over the last axis of a [1,32] vector: the sum over the batch. -/
theorem red_batch (v : FVec Ideal S1x32 .f32) (acc : BitVec 32) (h : S1x32.Reduces [1] S1)
    (hφ : FKind.Formats .f32) (hacc : acc = FKind.add.neutral .f32 hφ) (j : S1.Idx) :
    multiReduction .add [1] S1 v acc h hφ hacc j = ∑ b : Fin 32, v (ix2 (j 0) b) :=
  (Ideal.multiReduction_add_single v acc h hφ hacc j).trans (Finset.sum_congr rfl fun k _ => congrArg v
    (funext fun a => match a with | ⟨0, _⟩ => rfl | ⟨1, _⟩ => rfl))

/-- The store's payload over the extended reals: the accumulator plus the tile's sum of squares. The four reductions, one
    axis each, nest into the quadruple sum; the two shape casts only add a unit axis. -/
theorem pay_eq (x : Vec Ideal S32x8x16x256 .f32) (xo : Vec Ideal S1x1 .f32) (i : S1x1.Idx) :
    k7_pay2 x x xo i = xo i + tileSq x := by
  unfold k7_pay2
  simp only [shapeCast_self]
  rw [addf_apply, broadcast_apply]
  unfold extractAt
  congr 1
  rw [shapeCast_addUnit_apply ![1]]
  refine (red_batch _ _ _ _ _ _).trans (Finset.sum_congr rfl fun b _ => ?_)
  rw [shapeCast_addUnit_apply ![32]]
  refine (red_ch _ _ _ _ _ _).trans (Finset.sum_congr rfl fun ch _ => ?_)
  refine (red_row _ _ _ _ _ _).trans (Finset.sum_congr rfl fun r _ => ?_)
  refine (red_lane _ _ _ _ _ _).trans (Finset.sum_congr rfl fun l _ => ?_)
  rw [mulf_apply]
  rfl

/-! ## A tile's entries are the array's -/

section Blocks
variable (V : (c : Dev nD) → (b : Ref sig .tc) → Buf (Elt Ideal) ((c : Thread nD τ).loc b))

/-- The array the region reads, as the region finds it. -/
abbrev inArr (c : Dev nD) : Vec Ideal S32x8x256x256 .f32 := V c main_v104

/-- The input window's block index at point `t` is (0, 0, t, 0). -/
theorem idx_facts : ∀ t : Fin cfg7.N, win7_0.index t (0 : Fin 4) = 0 ∧ win7_0.index t (1 : Fin 4) = 0
      ∧ win7_0.index t (2 : Fin 4) = t.val ∧ win7_0.index t (3 : Fin 4) = 0 :=
  (by decide +kernel : ∀ t : Fin grid7.N, win7_0.index t (0 : Fin 4) = 0 ∧ win7_0.index t (1 : Fin 4) = 0
      ∧ win7_0.index t (2 : Fin 4) = t.val ∧ win7_0.index t (3 : Fin 4) = 0)

/-- Tile `t` at (b, ch, r, l) is the array at (b, ch, 16 t + r, l). -/
theorem iblk_apply (c : Dev nD) (t : Fin cfg7.N) (b : Fin 32) (ch : Fin 8) (r : Fin 16) (l : Fin 256) :
    (iblk7 V c 0 t : Vec Ideal S32x8x16x256 .f32) (ix4 b ch r l)
      = inArr V c (ix4 b ch ⟨16 * t.val + r.val, by have := lt_of_lt_of_eq t.isLt N_7; omega⟩ l) := by
  obtain ⟨e0, e1, e2, e3⟩ := idx_facts t
  unfold iblk7
  rw [View.read_apply]
  show V c main_v104 _ = V c main_v104 _
  congr 1
  funext a
  apply Fin.ext
  match a with
  | ⟨0, _⟩ => show win7_0.index t (0 : Fin 4) * 32 + 1 * b.val = b.val; rw [e0]; omega
  | ⟨1, _⟩ => show win7_0.index t (1 : Fin 4) * 8 + 1 * ch.val = ch.val; rw [e1]; omega
  | ⟨2, _⟩ => show win7_0.index t (2 : Fin 4) * 16 + 1 * r.val = 16 * t.val + r.val; rw [e2]; omega
  | ⟨3, _⟩ => show win7_0.index t (3 : Fin 4) * 256 + 1 * l.val = l.val; rw [e3]; omega

end Blocks

/-! ## The running sum across the grid -/

section Fold
variable (V : (c : Dev nD) → (b : Ref sig .tc) → Buf (Elt Ideal) ((c : Thread nD τ).loc b))

/-- The sum of the squares of tiles 0 to `n`. -/
def psum (c : Dev nD) : (n : ℕ) → n < cfg7.N → EReal
  | 0, h => tileSq (iblk7 V c 0 ⟨0, h⟩)
  | n + 1, h => psum c n (Nat.lt_of_succ_lt h) + tileSq (iblk7 V c 0 ⟨n + 1, h⟩)

/-- After point `n` the accumulator holds the sum of the squares of tiles 0 to `n`: the first point leaves zero plus
    its tile, every later point adds its own. -/
theorem outsAt_eq (c : Dev nD) : ∀ (n : ℕ) (h : n < cfg7.N), outsAt7 V c n h = fun _ => psum V c n h
  | 0, h => by
    refine ((outsAt7_A V c ⟨0, h⟩ rfl).trans (out_A ..)).trans (funext fun i => ?_)
    rw [pay_eq]
    show Ideal.ofBits .f32 0x00000000#32 + _ = _
    rw [Ideal.ofBits_zero_f32, zero_add]
    rfl
  | n + 1, h => by
    have hN : n + 1 < 16 := lt_of_lt_of_eq h N_7
    have hB : ¬(⟨n + 1, h⟩ : Fin cfg7.N).val % 16 = 0 := by dsimp only; omega
    refine ((outsAt7_B V c ⟨n + 1, h⟩ hB).trans (out_B ..)).trans (funext fun i => ?_)
    rw [pay_eq]
    show outsAt7 V c n _ i + _ = _
    rw [outsAt_eq c n]
    rfl

/-- The running sum is the sum over the tiles so far. -/
theorem psum_eq (c : Dev nD) : ∀ (n : ℕ) (h : n < cfg7.N),
    psum V c n h = ∑ k : Fin (n + 1), tileSq (iblk7 V c 0 ⟨k.val, lt_of_lt_of_le k.isLt (Nat.succ_le_of_lt h)⟩)
  | 0, h => by rw [Fin.sum_univ_one]; rfl
  | n + 1, h => by
    rw [Fin.sum_univ_castSucc]
    show psum V c n _ + _ = _
    rw [psum_eq c n (Nat.lt_of_succ_lt h)]
    rfl

end Fold

/-! ## The sixteen tiles together, and the array after the run -/

section Whole
variable (V : (c : Dev nD) → (b : Ref sig .tc) → Buf (Elt Ideal) ((c : Thread nD τ).loc b))

/-- A tile's sum of squares, over the array's entries: rows 16 t to 16 t + 15. -/
theorem tile_eq (c : Dev nD) (t : Fin cfg7.N) :
    tileSq (iblk7 V c 0 t) = ∑ b : Fin 32, ∑ ch : Fin 8, ∑ r : Fin 16, ∑ l : Fin 256,
      inArr V c (ix4 b ch ⟨16 * t.val + r.val, by have := lt_of_lt_of_eq t.isLt N_7; omega⟩ l)
        * inArr V c (ix4 b ch ⟨16 * t.val + r.val, by have := lt_of_lt_of_eq t.isLt N_7; omega⟩ l) := by
  unfold tileSq
  simp only [iblk_apply]

/-- The sixteen row tiles partition the rows: summing every tile's entries sums every entry once. -/
theorem sum_tiles (x : Vec Ideal S32x8x256x256 .f32) :
    ∑ t : Fin 16, ∑ b : Fin 32, ∑ ch : Fin 8, ∑ r : Fin 16, ∑ l : Fin 256,
        x (ix4 b ch ⟨16 * t.val + r.val, by omega⟩ l) * x (ix4 b ch ⟨16 * t.val + r.val, by omega⟩ l)
      = ∑ i : S32x8x256x256.Idx, x i * x i := by
  rw [sum_idx4 (fun i => x i * x i), Finset.sum_comm]
  refine Finset.sum_congr rfl fun b _ => ?_
  rw [Finset.sum_comm]
  refine Finset.sum_congr rfl fun ch _ => ?_
  exact sum_tiles16 (fun h => ∑ l : Fin 256, x (ix4 b ch h l) * x (ix4 b ch h l))

/-- After the last point the running sum is the sum of the squares of all entries. -/
theorem total_eq (c : Dev nD) (h : 15 < cfg7.N) :
    psum V c 15 h = ∑ i : S32x8x256x256.Idx, inArr V c i * inArr V c i := by
  rw [psum_eq]
  simp only [tile_eq]
  exact sum_tiles (inArr V c)

/-- The accumulator is written back once, after the last point, and its one block is the whole [1,1] result array: the
    array ends holding the last running sum. -/
theorem final (c : Dev nD) (h : 15 < cfg7.N) :
    (dat7 V c).arrAt 1 cfg7.N = (fun _ => psum V c 15 h : Buf (Elt Ideal) ((c : Thread nD τ).loc main_v191)) := by
  refine (dat7 V c).arrAt_eq_of_cover 1 _ (fun t hf => ?_) (fun i => ⟨t7_15, (flush7_1 t7_15).mpr rfl, ?_⟩)
  · have hN : t.val < 16 := lt_of_lt_of_eq t.isLt N_7
    have h15 : t.val = 15 := by have := (flush7_1 t).mp hf; omega
    obtain rfl : t = t7_15 := Fin.ext h15
    show (cfg7.win 1).cut (grid7.coords t7_15) ((dat7 V c).after 1 t7_15) = _
    rw [after7_1, outsAt_eq]
    rfl
  · show i ∈ ((View.whole main_v191).slice (win7_1.rect t7_15)).set
    rw [View.set_slice_whole]
    exact View.mem_set_unit_zero (S := S1x1) (funext fun a => by fin_cases a <;> decide +kernel) _ i

end Whole

/-- What region 7 leaves in its result array, as a function of the arrays it is entered with. -/
theorem value (V : (c : Dev nD) → (b : Ref sig .tc) → Buf (Elt Ideal) ((c : Thread nD τ).loc b)) (c : Dev nD) :
    (dat7 (F := Ideal) V c).arrAt 1 cfg7.N = (sumSq (V c main_v104) : Buf (Elt Ideal) ((c : Thread nD τ).loc main_v191)) := by
  have h : 15 < cfg7.N := by rw [show cfg7.N = 16 from N_7]; decide
  exact (final V c h).trans (funext fun _ => total_eq V c h)

end Leap.Reg7

end
-- ==== Proof.RegSq8.lean ====
/- Region 8 accumulates the sum of squares of an array over its sixteen row tiles into a [1,1] block zeroed at the first point and written back after the last: the result is the sum of the squares of all entries. -/
import proofs.«126091_j27977416966525_1_alg».proof.Proof.Gen.KernelIdeal.Frame
import proofs.«126091_j27977416966525_1_alg».proof.Proof.Spec
import proofs.«126091_j27977416966525_1_alg».proof.Proof.Sums
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Leap.Reg8

open Cert.KernelIdeal Cert.KernelIdeal.Gen Idealize.ShloMosaic Idealize.ShloMosaic.TcCoe Idealize.SL.Sem
open Idealize.ShloMosaic.Pipeline (Dat)
open Idealize.ShloMosaic.ValueIdx Leap

/-! ## What one point leaves in the accumulator (any float instance) -/

variable {F : FTy → Type} [FloatOps F]

/-- The zero offsets of a rank-2 and of a rank-4 access, as constant functions. -/
theorem hz2 : (![0, 0] : Fin 2 → Nat) = fun _ => 0 := funext fun a => by fin_cases a <;> rfl
theorem hz4 : (![0, 0, 0, 0] : Fin 4 → Nat) = fun _ => 0 := funext fun a => by fin_cases a <;> rfl

/-- At a later point the body leaves, in the accumulator's buffer holding `xo`, its one covering store's payload: the
    accumulator plus the tile's reduction, both loads of the tile reading the whole input buffer. -/
theorem out_B (c : Dev nD) (i : grid8.Coords) (a1 : Memref sig .tc .vmem S32x8x16x256 .f32) (h1 : a1.IsWhole)
    (a2 : Memref sig .tc .vmem S1x1 .f32) (h2 : a2.IsWhole) (hc : ¬cond8_0 i) (x : Vec F S32x8x16x256 .f32) (xo : Vec F S1x1 .f32) :
    out8_B_1 c i a1 h1 a2 h2 hc x xo = k8_pay2 x x xo := by
  unfold out8_B_1
  rw [View.read_writes_eq_canon _ _ _ (cover8_B_1 c i a1 h1 a2 h2 hc x xo)]
  unfold kernelRun8_B
  dsimp only
  rw [View.canon_unit_zero hz2]
  simp only [View.readAt_eq_ld, h1.read_unread, h2.read_unread, View.ld_unit_zero (S := S32x8x16x256) hz4,
    View.ld_unit_zero (S := S1x1) hz2]

/-- At the first point the body stores the zero block, reads it back, and leaves the zero block plus the tile's
    reduction. -/
theorem out_A (c : Dev nD) (i : grid8.Coords) (a1 : Memref sig .tc .vmem S32x8x16x256 .f32) (h1 : a1.IsWhole)
    (a2 : Memref sig .tc .vmem S1x1 .f32) (h2 : a2.IsWhole) (hc : cond8_0 i) (x : Vec F S32x8x16x256 .f32) :
    out8_A_1 c i a1 h1 a2 h2 hc x = k8_pay2 x x (k8_pay1 (F := F)) := by
  unfold out8_A_1
  rw [View.read_writes_eq_canon _ _ _ (cover8_A_1 c i a1 h1 a2 h2 hc x)]
  unfold kernelRun8_A
  dsimp only
  sl_unfold_words
  rw [View.canon_cons_unit_zero (S := S1x1) hz2, View.readCov_unit_zero (S := S1x1) _ hz2]
  simp only [View.readAt_eq_ld, h1.read_unread, View.ld_unit_zero (S := S32x8x16x256) hz4]

/-! ## The payload over the extended reals: the accumulator plus the tile's sum of squares -/

/-- The sum of the squares of one [32,8,16,256] tile, coordinate by coordinate. -/
def tileSq (x : Vec Ideal S32x8x16x256 .f32) : EReal :=
  ∑ b : Fin 32, ∑ ch : Fin 8, ∑ r : Fin 16, ∑ l : Fin 256, x (ix4 b ch r l) * x (ix4 b ch r l)

/-- A sum over the last axis of a [32,8,16,256] vector, read at (b, ch, r): the sum over the lanes. -/
theorem red_lane (v : FVec Ideal S32x8x16x256 .f32) (acc : BitVec 32) (h : S32x8x16x256.Reduces [3] S32x8x16)
    (hφ : FKind.Formats .f32) (hacc : acc = FKind.add.neutral .f32 hφ) (j : S32x8x16.Idx) :
    multiReduction .add [3] S32x8x16 v acc h hφ hacc j = ∑ l : Fin 256, v (ix4 (j 0) (j 1) (j 2) l) :=
  (Ideal.multiReduction_add_single v acc h hφ hacc j).trans (Finset.sum_congr rfl fun k _ => congrArg v
    (funext fun a => match a with | ⟨0, _⟩ => rfl | ⟨1, _⟩ => rfl | ⟨2, _⟩ => rfl | ⟨3, _⟩ => rfl))

/-- A sum over the last axis of a [32,8,16] vector, read at (b, ch): the sum over the rows. -/
theorem red_row (v : FVec Ideal S32x8x16 .f32) (acc : BitVec 32) (h : S32x8x16.Reduces [2] S32x8)
    (hφ : FKind.Formats .f32) (hacc : acc = FKind.add.neutral .f32 hφ) (j : S32x8.Idx) :
    multiReduction .add [2] S32x8 v acc h hφ hacc j = ∑ r : Fin 16, v (ix3 (j 0) (j 1) r) :=
  (Ideal.multiReduction_add_single v acc h hφ hacc j).trans (Finset.sum_congr rfl fun k _ => congrArg v
    (funext fun a => match a with | ⟨0, _⟩ => rfl | ⟨1, _⟩ => rfl | ⟨2, _⟩ => rfl))

/-- A sum over the last axis of a [32,8] vector, read at b: the sum over the channels. -/
theorem red_ch (v : FVec Ideal S32x8 .f32) (acc : BitVec 32) (h : S32x8.Reduces [1] S32)
    (hφ : FKind.Formats .f32) (hacc : acc = FKind.add.neutral .f32 hφ) (j : S32.Idx) :
    multiReduction .add [1] S32 v acc h hφ hacc j = ∑ ch : Fin 8, v (ix2 (j 0) ch) :=
  (Ideal.multiReduction_add_single v acc h hφ hacc j).trans (Finset.sum_congr rfl fun k _ => congrArg v
    (funext fun a => match a with | ⟨0, _⟩ => rfl | ⟨1, _⟩ => rfl))

/-- A sum over the last axis of a [1,32] vector: the sum over the batch. -/
theorem red_batch (v : FVec Ideal S1x32 .f32) (acc : BitVec 32) (h : S1x32.Reduces [1] S1)
    (hφ : FKind.Formats .f32) (hacc : acc = FKind.add.neutral .f32 hφ) (j : S1.Idx) :
    multiReduction .add [1] S1 v acc h hφ hacc j = ∑ b : Fin 32, v (ix2 (j 0) b) :=
  (Ideal.multiReduction_add_single v acc h hφ hacc j).trans (Finset.sum_congr rfl fun k _ => congrArg v
    (funext fun a => match a with | ⟨0, _⟩ => rfl | ⟨1, _⟩ => rfl))

/-- The store's payload over the extended reals: the accumulator plus the tile's sum of squares. The four reductions, one
    axis each, nest into the quadruple sum; the two shape casts only add a unit axis. -/
theorem pay_eq (x : Vec Ideal S32x8x16x256 .f32) (xo : Vec Ideal S1x1 .f32) (i : S1x1.Idx) :
    k8_pay2 x x xo i = xo i + tileSq x := by
  unfold k8_pay2
  simp only [shapeCast_self]
  rw [addf_apply, broadcast_apply]
  unfold extractAt
  congr 1
  rw [shapeCast_addUnit_apply ![1]]
  refine (red_batch _ _ _ _ _ _).trans (Finset.sum_congr rfl fun b _ => ?_)
  rw [shapeCast_addUnit_apply ![32]]
  refine (red_ch _ _ _ _ _ _).trans (Finset.sum_congr rfl fun ch _ => ?_)
  refine (red_row _ _ _ _ _ _).trans (Finset.sum_congr rfl fun r _ => ?_)
  refine (red_lane _ _ _ _ _ _).trans (Finset.sum_congr rfl fun l _ => ?_)
  rw [mulf_apply]
  rfl

/-! ## A tile's entries are the array's -/

section Blocks
variable (V : (c : Dev nD) → (b : Ref sig .tc) → Buf (Elt Ideal) ((c : Thread nD τ).loc b))

/-- The array the region reads, as the region finds it. -/
abbrev inArr (c : Dev nD) : Vec Ideal S32x8x256x256 .f32 := V c main_v156

/-- The input window's block index at point `t` is (0, 0, t, 0). -/
theorem idx_facts : ∀ t : Fin cfg8.N, win8_0.index t (0 : Fin 4) = 0 ∧ win8_0.index t (1 : Fin 4) = 0
      ∧ win8_0.index t (2 : Fin 4) = t.val ∧ win8_0.index t (3 : Fin 4) = 0 :=
  (by decide +kernel : ∀ t : Fin grid8.N, win8_0.index t (0 : Fin 4) = 0 ∧ win8_0.index t (1 : Fin 4) = 0
      ∧ win8_0.index t (2 : Fin 4) = t.val ∧ win8_0.index t (3 : Fin 4) = 0)

/-- Tile `t` at (b, ch, r, l) is the array at (b, ch, 16 t + r, l). -/
theorem iblk_apply (c : Dev nD) (t : Fin cfg8.N) (b : Fin 32) (ch : Fin 8) (r : Fin 16) (l : Fin 256) :
    (iblk8 V c 0 t : Vec Ideal S32x8x16x256 .f32) (ix4 b ch r l)
      = inArr V c (ix4 b ch ⟨16 * t.val + r.val, by have := lt_of_lt_of_eq t.isLt N_8; omega⟩ l) := by
  obtain ⟨e0, e1, e2, e3⟩ := idx_facts t
  unfold iblk8
  rw [View.read_apply]
  show V c main_v156 _ = V c main_v156 _
  congr 1
  funext a
  apply Fin.ext
  match a with
  | ⟨0, _⟩ => show win8_0.index t (0 : Fin 4) * 32 + 1 * b.val = b.val; rw [e0]; omega
  | ⟨1, _⟩ => show win8_0.index t (1 : Fin 4) * 8 + 1 * ch.val = ch.val; rw [e1]; omega
  | ⟨2, _⟩ => show win8_0.index t (2 : Fin 4) * 16 + 1 * r.val = 16 * t.val + r.val; rw [e2]; omega
  | ⟨3, _⟩ => show win8_0.index t (3 : Fin 4) * 256 + 1 * l.val = l.val; rw [e3]; omega

end Blocks

/-! ## The running sum across the grid -/

section Fold
variable (V : (c : Dev nD) → (b : Ref sig .tc) → Buf (Elt Ideal) ((c : Thread nD τ).loc b))

/-- The sum of the squares of tiles 0 to `n`. -/
def psum (c : Dev nD) : (n : ℕ) → n < cfg8.N → EReal
  | 0, h => tileSq (iblk8 V c 0 ⟨0, h⟩)
  | n + 1, h => psum c n (Nat.lt_of_succ_lt h) + tileSq (iblk8 V c 0 ⟨n + 1, h⟩)

/-- After point `n` the accumulator holds the sum of the squares of tiles 0 to `n`: the first point leaves zero plus
    its tile, every later point adds its own. -/
theorem outsAt_eq (c : Dev nD) : ∀ (n : ℕ) (h : n < cfg8.N), outsAt8 V c n h = fun _ => psum V c n h
  | 0, h => by
    refine ((outsAt8_A V c ⟨0, h⟩ rfl).trans (out_A ..)).trans (funext fun i => ?_)
    rw [pay_eq]
    show Ideal.ofBits .f32 0x00000000#32 + _ = _
    rw [Ideal.ofBits_zero_f32, zero_add]
    rfl
  | n + 1, h => by
    have hN : n + 1 < 16 := lt_of_lt_of_eq h N_8
    have hB : ¬(⟨n + 1, h⟩ : Fin cfg8.N).val % 16 = 0 := by dsimp only; omega
    refine ((outsAt8_B V c ⟨n + 1, h⟩ hB).trans (out_B ..)).trans (funext fun i => ?_)
    rw [pay_eq]
    show outsAt8 V c n _ i + _ = _
    rw [outsAt_eq c n]
    rfl

/-- The running sum is the sum over the tiles so far. -/
theorem psum_eq (c : Dev nD) : ∀ (n : ℕ) (h : n < cfg8.N),
    psum V c n h = ∑ k : Fin (n + 1), tileSq (iblk8 V c 0 ⟨k.val, lt_of_lt_of_le k.isLt (Nat.succ_le_of_lt h)⟩)
  | 0, h => by rw [Fin.sum_univ_one]; rfl
  | n + 1, h => by
    rw [Fin.sum_univ_castSucc]
    show psum V c n _ + _ = _
    rw [psum_eq c n (Nat.lt_of_succ_lt h)]
    rfl

end Fold

/-! ## The sixteen tiles together, and the array after the run -/

section Whole
variable (V : (c : Dev nD) → (b : Ref sig .tc) → Buf (Elt Ideal) ((c : Thread nD τ).loc b))

/-- A tile's sum of squares, over the array's entries: rows 16 t to 16 t + 15. -/
theorem tile_eq (c : Dev nD) (t : Fin cfg8.N) :
    tileSq (iblk8 V c 0 t) = ∑ b : Fin 32, ∑ ch : Fin 8, ∑ r : Fin 16, ∑ l : Fin 256,
      inArr V c (ix4 b ch ⟨16 * t.val + r.val, by have := lt_of_lt_of_eq t.isLt N_8; omega⟩ l)
        * inArr V c (ix4 b ch ⟨16 * t.val + r.val, by have := lt_of_lt_of_eq t.isLt N_8; omega⟩ l) := by
  unfold tileSq
  simp only [iblk_apply]

/-- The sixteen row tiles partition the rows: summing every tile's entries sums every entry once. -/
theorem sum_tiles (x : Vec Ideal S32x8x256x256 .f32) :
    ∑ t : Fin 16, ∑ b : Fin 32, ∑ ch : Fin 8, ∑ r : Fin 16, ∑ l : Fin 256,
        x (ix4 b ch ⟨16 * t.val + r.val, by omega⟩ l) * x (ix4 b ch ⟨16 * t.val + r.val, by omega⟩ l)
      = ∑ i : S32x8x256x256.Idx, x i * x i := by
  rw [sum_idx4 (fun i => x i * x i), Finset.sum_comm]
  refine Finset.sum_congr rfl fun b _ => ?_
  rw [Finset.sum_comm]
  refine Finset.sum_congr rfl fun ch _ => ?_
  exact sum_tiles16 (fun h => ∑ l : Fin 256, x (ix4 b ch h l) * x (ix4 b ch h l))

/-- After the last point the running sum is the sum of the squares of all entries. -/
theorem total_eq (c : Dev nD) (h : 15 < cfg8.N) :
    psum V c 15 h = ∑ i : S32x8x256x256.Idx, inArr V c i * inArr V c i := by
  rw [psum_eq]
  simp only [tile_eq]
  exact sum_tiles (inArr V c)

/-- The accumulator is written back once, after the last point, and its one block is the whole [1,1] result array: the
    array ends holding the last running sum. -/
theorem final (c : Dev nD) (h : 15 < cfg8.N) :
    (dat8 V c).arrAt 1 cfg8.N = (fun _ => psum V c 15 h : Buf (Elt Ideal) ((c : Thread nD τ).loc main_v192)) := by
  refine (dat8 V c).arrAt_eq_of_cover 1 _ (fun t hf => ?_) (fun i => ⟨t8_15, (flush8_1 t8_15).mpr rfl, ?_⟩)
  · have hN : t.val < 16 := lt_of_lt_of_eq t.isLt N_8
    have h15 : t.val = 15 := by have := (flush8_1 t).mp hf; omega
    obtain rfl : t = t8_15 := Fin.ext h15
    show (cfg8.win 1).cut (grid8.coords t8_15) ((dat8 V c).after 1 t8_15) = _
    rw [after8_1, outsAt_eq]
    rfl
  · show i ∈ ((View.whole main_v192).slice (win8_1.rect t8_15)).set
    rw [View.set_slice_whole]
    exact View.mem_set_unit_zero (S := S1x1) (funext fun a => by fin_cases a <;> decide +kernel) _ i

end Whole

/-- What region 8 leaves in its result array, as a function of the arrays it is entered with. -/
theorem value (V : (c : Dev nD) → (b : Ref sig .tc) → Buf (Elt Ideal) ((c : Thread nD τ).loc b)) (c : Dev nD) :
    (dat8 (F := Ideal) V c).arrAt 1 cfg8.N = (sumSq (V c main_v156) : Buf (Elt Ideal) ((c : Thread nD τ).loc main_v192)) := by
  have h : 15 < cfg8.N := by rw [show cfg8.N = 16 from N_8]; decide
  exact (final V c h).trans (funext fun _ => total_eq V c h)

end Leap.Reg8

end
-- ==== Proof.RegFin9.lean ====
/- Region 9 scales q and p by one scalar and stores them as channels 0..7 and 8..15 of the output's row tile: two stores per point that tile the [32,16,16,256] block; the sixteen tiles cover the output. -/
import proofs.«126091_j27977416966525_1_alg».proof.Proof.Gen.KernelIdeal.Frame
import proofs.«126091_j27977416966525_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Leap.Reg9

open Cert.KernelIdeal Cert.KernelIdeal.Gen Idealize.ShloMosaic Idealize.ShloMosaic.TcCoe Idealize.SL.Sem
open Idealize.ShloMosaic.Pipeline (Dat)
open Idealize.ShloMosaic.ValueIdx Leap

/-! ## The two halves of the result, read at an index -/

/-- In channels 0..7 the result is q times the scalar. -/
theorem finOut_lo (q p : Vec Ideal S32x8x256x256 .f32) (s : Vec Ideal S1x1 .f32) (i : S32x16x256x256.Idx) (h : (i 1).val < 8) :
    finOut q p s i = q (ix4 (i 0) ⟨(i 1).val, h⟩ (i 2) (i 3)) * s (ix2 0 0) := by
  unfold finOut
  exact dif_pos h

/-- In channels 8..15 the result is p, eight channels down, times the scalar. -/
theorem finOut_hi (q p : Vec Ideal S32x8x256x256 .f32) (s : Vec Ideal S1x1 .f32) (i : S32x16x256x256.Idx) (h : 8 ≤ (i 1).val) :
    finOut q p s i = p (ix4 (i 0) ⟨(i 1).val - 8, by have h16 : (i 1).val < 16 := (i 1).isLt; omega⟩ (i 2) (i 3)) * s (ix2 0 0) := by
  unfold finOut
  exact dif_neg (Nat.not_lt.mpr h)

/-! ## One row tile: what the two stores leave in the block -/

/-- The block [32,16,16,256] a point leaves, from its two input tiles and the scalar: channels 0..7 the first tile times
    the scalar, channels 8..15 the second tile times the scalar. -/
def tileOut (x0 x1 : Vec Ideal S32x8x16x256 .f32) (x2 : Vec Ideal S1x1 .f32) : Vec Ideal S32x16x16x256 .f32 :=
  fun i =>
    if h : (i 1).val < 8 then x0 (ix4 (i 0) ⟨(i 1).val, h⟩ (i 2) (i 3)) * x2 (ix2 0 0)
    else x1 (ix4 (i 0) ⟨(i 1).val - 8, by have h16 : (i 1).val < 16 := (i 1).isLt; omega⟩ (i 2) (i 3)) * x2 (ix2 0 0)

theorem tileOut_lo (x0 x1 : Vec Ideal S32x8x16x256 .f32) (x2 : Vec Ideal S1x1 .f32) (i : S32x16x16x256.Idx) (h : (i 1).val < 8) :
    tileOut x0 x1 x2 i = x0 (ix4 (i 0) ⟨(i 1).val, h⟩ (i 2) (i 3)) * x2 (ix2 0 0) := by
  unfold tileOut
  exact dif_pos h

theorem tileOut_hi (x0 x1 : Vec Ideal S32x8x16x256 .f32) (x2 : Vec Ideal S1x1 .f32) (i : S32x16x16x256.Idx) (h : 8 ≤ (i 1).val) :
    tileOut x0 x1 x2 i = x1 (ix4 (i 0) ⟨(i 1).val - 8, by have h16 : (i 1).val < 16 := (i 1).isLt; omega⟩ (i 2) (i 3)) * x2 (ix2 0 0) := by
  unfold tileOut
  exact dif_neg (Nat.not_lt.mpr h)

theorem zero2 : (![0, 0] : Fin 2 → Nat) = fun _ => 0 :=
  funext fun a => match a with | ⟨0, _⟩ => rfl | ⟨1, _⟩ => rfl

theorem zero4 : (![0, 0, 0, 0] : Fin 4 → Nat) = fun _ => 0 :=
  funext fun a => match a with | ⟨0, _⟩ => rfl | ⟨1, _⟩ => rfl | ⟨2, _⟩ => rfl | ⟨3, _⟩ => rfl

/-- The [1,1] scalar, cast to [1,1,1,1] and broadcast over the tile, reads the scalar's one entry at every index. -/
theorem scalar_bcast_apply (v0 : Vec Ideal S1x1 .f32) (x : S32x8x16x256.Idx) :
    broadcastTo S32x8x16x256 (shapeCast S1x1x1x1 (k9_pay1 v0) shapeCasts_S1x1_S1x1x1x1) broadcasts_S1x1x1x1_S32x8x16x256 x
      = v0 (ix2 0 0) := by
  refine (broadcastTo_apply _ _ x (ix4 0 0 0 0)
    (fun a => match a with | ⟨0, _⟩ => rfl | ⟨1, _⟩ => rfl | ⟨2, _⟩ => rfl | ⟨3, _⟩ => rfl)).trans ?_
  refine (shapeCast_apply _ _ (ix4 0 0 0 0) (ix2 0 0)
    (by rw [Shape.rowMajor_val_two, Shape.rowMajor_val_four]; rfl)).trans ?_
  unfold k9_pay1
  exact congrFun (shapeCast_self v0 _) (ix2 0 0)

/-- The first store's payload at an index: the first tile's entry times the scalar. -/
theorem pay2_apply (v0 : Vec Ideal S1x1 .f32) (v2 : Vec Ideal S32x8x16x256 .f32) (x : S32x8x16x256.Idx) :
    k9_pay2 v0 v2 x = v2 x * v0 (ix2 0 0) := by
  unfold k9_pay2
  show shapeCast S32x8x16x256 v2 shapeCasts_S32x8x16x256_S32x8x16x256 x
      * broadcastTo S32x8x16x256 (shapeCast S1x1x1x1 (k9_pay1 v0) shapeCasts_S1x1_S1x1x1x1) broadcasts_S1x1x1x1_S32x8x16x256 x = _
  rw [scalar_bcast_apply v0 x]
  exact congrArg (· * v0 (ix2 0 0)) (congrFun (shapeCast_self v2 _) x)

/-- The second store's payload at an index: the second tile's entry times the scalar. -/
theorem pay3_apply (v0 : Vec Ideal S1x1 .f32) (v8 : Vec Ideal S32x8x16x256 .f32) (x : S32x8x16x256.Idx) :
    k9_pay3 v0 v8 x = v8 x * v0 (ix2 0 0) := by
  unfold k9_pay3
  show shapeCast S32x8x16x256 v8 shapeCasts_S32x8x16x256_S32x8x16x256 x
      * broadcastTo S32x8x16x256 (shapeCast S1x1x1x1 (k9_pay1 v0) shapeCasts_S1x1_S1x1x1x1) broadcasts_S1x1x1x1_S32x8x16x256 x = _
  rw [scalar_bcast_apply v0 x]
  exact congrArg (· * v0 (ix2 0 0)) (congrFun (shapeCast_self v8 _) x)

/-- What the two stores leave in the block: the first half of the channels from the first store, the second half from the
    second; each store's payload is the tile function under its rectangle, and the two rectangles tile the block. -/
theorem out_apply (x0 x1 : Vec Ideal S32x8x16x256 .f32) (x2 : Vec Ideal S1x1 .f32) (y : S32x16x16x256.Idx) :
    out9_3 (F := Ideal) x0 x1 x2 y = tileOut x0 x1 x2 y := by
  unfold out9_3
  have e0 : View.ld x0 r9_1 = x0 := View.ld_unit_zero (S := S32x8x16x256) zero4 _ x0
  have e1 : View.ld x1 r9_1 = x1 := View.ld_unit_zero (S := S32x8x16x256) zero4 _ x1
  have e2 : View.ld x2 r9_0 = x2 := View.ld_unit_zero (S := S1x1) zero2 _ x2
  rw [e0, e1, e2]
  refine View.canon_apply_of_pieces (tileOut x0 x1 x2) _ ?_ y (cover9_3 _ _ y)
  intro pc hpc x
  rcases List.mem_cons.mp hpc with rfl | hpc
  · -- the second store: channels 8..15
    have hx1 : (x 1).val < 8 := (x 1).isLt
    show k9_pay3 x2 x1 x = tileOut x0 x1 x2 (r9_3.emb x)
    have hge : 8 ≤ ((r9_3.emb x) 1).val := by show 8 ≤ 8 + 1 * (x 1).val; omega
    rw [pay3_apply x2 x1 x, tileOut_hi x0 x1 x2 (r9_3.emb x) hge]
    refine congrArg (· * x2 (ix2 0 0)) (congrArg x1 ?_)
    funext a; apply Fin.ext
    match a with
    | ⟨0, _⟩ => show (x 0).val = 0 + 1 * (x 0).val; omega
    | ⟨1, _⟩ => show (x 1).val = 8 + 1 * (x 1).val - 8; omega
    | ⟨2, _⟩ => show (x 2).val = 0 + 1 * (x 2).val; omega
    | ⟨3, _⟩ => show (x 3).val = 0 + 1 * (x 3).val; omega
  rcases List.mem_cons.mp hpc with rfl | hpc
  · -- the first store: channels 0..7
    have hx1 : (x 1).val < 8 := (x 1).isLt
    show k9_pay2 x2 x0 x = tileOut x0 x1 x2 (r9_2.emb x)
    have hlt : ((r9_2.emb x) 1).val < 8 := by show 0 + 1 * (x 1).val < 8; omega
    rw [pay2_apply x2 x0 x, tileOut_lo x0 x1 x2 (r9_2.emb x) hlt]
    refine congrArg (· * x2 (ix2 0 0)) (congrArg x0 ?_)
    funext a; apply Fin.ext
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
    | ⟨3, _⟩ => show (x 3).val = 0 + 1 * (x 3).val; omega
  nomatch hpc

/-! ## From row tiles to the array -/

/-- The block index of every window at point `t`: zero on each axis, but on the row axis of the three [32,·,16,256]
    windows, where it is the point's number `t`. -/
theorem idx_facts : ∀ t : Fin cfg9.N,
    win9_0.index t (0 : Fin 4) = 0 ∧ win9_0.index t (1 : Fin 4) = 0 ∧ win9_0.index t (2 : Fin 4) = t.val ∧ win9_0.index t (3 : Fin 4) = 0
    ∧ win9_1.index t (0 : Fin 4) = 0 ∧ win9_1.index t (1 : Fin 4) = 0 ∧ win9_1.index t (2 : Fin 4) = t.val ∧ win9_1.index t (3 : Fin 4) = 0
    ∧ win9_2.index t (0 : Fin 2) = 0 ∧ win9_2.index t (1 : Fin 2) = 0
    ∧ win9_3.index t (0 : Fin 4) = 0 ∧ win9_3.index t (1 : Fin 4) = 0 ∧ win9_3.index t (2 : Fin 4) = t.val ∧ win9_3.index t (3 : Fin 4) = 0 :=
  (by decide +kernel : ∀ t : Fin grid9.N, _)

/-- Row tile `n` of the result array is the tile function of row tile `n` of q, row tile `n` of p and the scalar:
    row `r` of the tile is row `16 n + r` of the array, and the channel split is the same in the tile and in the array. -/
theorem tile_read (q p : Vec Ideal S32x8x256x256 .f32) (s : Vec Ideal S1x1 .f32)
    (x0 x1 : Vec Ideal S32x8x16x256 .f32) (x2 : Vec Ideal S1x1 .f32) (n : Nat)
    (h0 : ∀ (y : S32x8x16x256.Idx) (i : S32x8x256x256.Idx), (i 0).val = (y 0).val → (i 1).val = (y 1).val →
      (i 2).val = n * 16 + (y 2).val → (i 3).val = (y 3).val → x0 y = q i)
    (h1 : ∀ (y : S32x8x16x256.Idx) (i : S32x8x256x256.Idx), (i 0).val = (y 0).val → (i 1).val = (y 1).val →
      (i 2).val = n * 16 + (y 2).val → (i 3).val = (y 3).val → x1 y = p i)
    (h2 : x2 (ix2 0 0) = s (ix2 0 0))
    (j : S32x16x16x256.Idx) (i : S32x16x256x256.Idx)
    (e0 : (i 0).val = (j 0).val) (e1 : (i 1).val = (j 1).val) (e2 : (i 2).val = n * 16 + (j 2).val) (e3 : (i 3).val = (j 3).val) :
    tileOut x0 x1 x2 j = finOut q p s i := by
  by_cases hc : (j 1).val < 8
  · have hc' : (i 1).val < 8 := by omega
    rw [tileOut_lo x0 x1 x2 j hc, finOut_lo q p s i hc', h2]
    exact congrArg (· * s (ix2 0 0)) (h0 _ _ e0 e1 e2 e3)
  · have hg : 8 ≤ (j 1).val := Nat.le_of_not_lt hc
    have hg' : 8 ≤ (i 1).val := by omega
    rw [tileOut_hi x0 x1 x2 j hg, finOut_hi q p s i hg', h2]
    exact congrArg (· * s (ix2 0 0)) (h1 _ _ e0 (by show (i 1).val - 8 = (j 1).val - 8; omega) e2 e3)

/-- What point `t` writes back is row tile `t` of the result function of the arrays the region is entered with. -/
theorem flushed_eq (V : (c : Dev nD) → (b : Ref sig .tc) → Buf (Elt Ideal) ((c : Thread nD τ).loc b)) (c : Dev nD) (t : Fin cfg9.N) :
    (dat9 (F := Ideal) V c).flushed 3 t
      = ((cfg9.win 3).blk t).view.read (Elt Ideal) (finOut (V c main_v104) (V c main_v156) (V c main_v201)) := by
  show (cfg9.win 3).cut (grid9.coords t) ((dat9 (F := Ideal) V c).after 3 t) = _
  rw [after9_3]
  obtain ⟨a0, a1, a2, a3, b0, b1, b2, b3, s0, s1, o0, o1, o2, o3⟩ := idx_facts t
  funext j
  show out9_3 (F := Ideal) (iblk9 V c 0 t) (iblk9 V c 1 t) (iblk9 V c 2 t) j
    = finOut (V c main_v104) (V c main_v156) (V c main_v201) (((cfg9.win 3).blk t).view.emb j)
  refine (out_apply (iblk9 V c 0 t) (iblk9 V c 1 t) (iblk9 V c 2 t) j).trans ?_
  refine tile_read (V c main_v104) (V c main_v156) (V c main_v201) (iblk9 V c 0 t) (iblk9 V c 1 t) (iblk9 V c 2 t) t.val
    ?_ ?_ ?_ j (((cfg9.win 3).blk t).view.emb j) ?_ ?_ ?_ ?_
  · intro y i i0 i1 i2 i3
    show V c main_v104 (((cfg9.win 0).blk t).view.emb y) = V c main_v104 i
    refine congrArg (V c main_v104) ?_
    funext a; apply Fin.ext
    match a with
    | ⟨0, _⟩ => show win9_0.index t (0 : Fin 4) * 32 + 1 * (y 0).val = (i 0).val; omega
    | ⟨1, _⟩ => show win9_0.index t (1 : Fin 4) * 8 + 1 * (y 1).val = (i 1).val; omega
    | ⟨2, _⟩ => show win9_0.index t (2 : Fin 4) * 16 + 1 * (y 2).val = (i 2).val; omega
    | ⟨3, _⟩ => show win9_0.index t (3 : Fin 4) * 256 + 1 * (y 3).val = (i 3).val; omega
  · intro y i i0 i1 i2 i3
    show V c main_v156 (((cfg9.win 1).blk t).view.emb y) = V c main_v156 i
    refine congrArg (V c main_v156) ?_
    funext a; apply Fin.ext
    match a with
    | ⟨0, _⟩ => show win9_1.index t (0 : Fin 4) * 32 + 1 * (y 0).val = (i 0).val; omega
    | ⟨1, _⟩ => show win9_1.index t (1 : Fin 4) * 8 + 1 * (y 1).val = (i 1).val; omega
    | ⟨2, _⟩ => show win9_1.index t (2 : Fin 4) * 16 + 1 * (y 2).val = (i 2).val; omega
    | ⟨3, _⟩ => show win9_1.index t (3 : Fin 4) * 256 + 1 * (y 3).val = (i 3).val; omega
  · show V c main_v201 (((cfg9.win 2).blk t).view.emb (ix2 0 0)) = V c main_v201 (ix2 0 0)
    refine congrArg (V c main_v201) ?_
    funext a; apply Fin.ext
    match a with
    | ⟨0, _⟩ => show win9_2.index t (0 : Fin 2) * 1 + 1 * 0 = 0; omega
    | ⟨1, _⟩ => show win9_2.index t (1 : Fin 2) * 1 + 1 * 0 = 0; omega
  · show win9_3.index t (0 : Fin 4) * 32 + 1 * (j 0).val = (j 0).val; omega
  · show win9_3.index t (1 : Fin 4) * 16 + 1 * (j 1).val = (j 1).val; omega
  · show win9_3.index t (2 : Fin 4) * 16 + 1 * (j 2).val = t.val * 16 + (j 2).val; omega
  · show win9_3.index t (3 : Fin 4) * 256 + 1 * (j 3).val = (j 3).val; omega

/-- An index of the result array is in point `t`'s block iff each coordinate is in the block's range on its axis. -/
theorem mem_blk (t : Fin cfg9.N) (i : S32x16x256x256.Idx) :
    i ∈ ((cfg9.win 3).blk t).view.set
      ↔ ∀ a : Fin 4, win9_3.index t a * S32x16x16x256.size a ≤ (i a).val ∧ (i a).val < win9_3.index t a * S32x16x16x256.size a + S32x16x16x256.size a := by
  show i ∈ ((View.whole main_v202).slice (win9_3.rect t)).set ↔ _
  rw [View.set_slice_whole, Rect.mem_set_unit]
  exact Iff.rfl

/-- Row `h` of the result array lies in the block of point `h / 16`, and every point writes its block back. -/
theorem cover (i : S32x16x256x256.Idx) :
    ∃ t : Fin cfg9.N, (cfg9.win 3).flush t = true ∧ i ∈ ((cfg9.win 3).blk t).view.set := by
  have hi0 : (i 0).val < 32 := (i 0).isLt
  have hi1 : (i 1).val < 16 := (i 1).isLt
  have hi2 : (i 2).val < 256 := (i 2).isLt
  have hi3 : (i 3).val < 256 := (i 3).isLt
  have hN : (i 2).val / 16 < grid9.N := by rw [N_9]; omega
  refine ⟨⟨(i 2).val / 16, hN⟩, flush9_3 _, ?_⟩
  obtain ⟨a0, a1, a2, a3, b0, b1, b2, b3, s0, s1, o0, o1, o2, o3⟩ := idx_facts ⟨(i 2).val / 16, hN⟩
  have o2' : win9_3.index ⟨(i 2).val / 16, hN⟩ (2 : Fin 4) = (i 2).val / 16 := o2
  rw [mem_blk]
  intro a
  match a with
  | ⟨0, _⟩ => show win9_3.index ⟨(i 2).val / 16, hN⟩ (0 : Fin 4) * 32 ≤ (i 0).val ∧ (i 0).val < win9_3.index ⟨(i 2).val / 16, hN⟩ (0 : Fin 4) * 32 + 32; omega
  | ⟨1, _⟩ => show win9_3.index ⟨(i 2).val / 16, hN⟩ (1 : Fin 4) * 16 ≤ (i 1).val ∧ (i 1).val < win9_3.index ⟨(i 2).val / 16, hN⟩ (1 : Fin 4) * 16 + 16; omega
  | ⟨2, _⟩ => show win9_3.index ⟨(i 2).val / 16, hN⟩ (2 : Fin 4) * 16 ≤ (i 2).val ∧ (i 2).val < win9_3.index ⟨(i 2).val / 16, hN⟩ (2 : Fin 4) * 16 + 16; omega
  | ⟨3, _⟩ => show win9_3.index ⟨(i 2).val / 16, hN⟩ (3 : Fin 4) * 256 ≤ (i 3).val ∧ (i 3).val < win9_3.index ⟨(i 2).val / 16, hN⟩ (3 : Fin 4) * 256 + 256; omega

/-- What region 9 leaves in its result array, as a function of the arrays it is entered with. -/
theorem value (V : (c : Dev nD) → (b : Ref sig .tc) → Buf (Elt Ideal) ((c : Thread nD τ).loc b)) (c : Dev nD) :
    (dat9 (F := Ideal) V c).arrAt 3 cfg9.N = (finOut (V c main_v104) (V c main_v156) (V c main_v201) : Buf (Elt Ideal) ((c : Thread nD τ).loc main_v202)) :=
  (dat9 (F := Ideal) V c).arrAt_eq_of_cover 3 (finOut (V c main_v104) (V c main_v156) (V c main_v201))
    (fun t _ => flushed_eq V c t) cover

end Leap.Reg9

end
-- ==== Proof.KChainB.lean ====
/-
  The second half of the run's reading: from region 4's exit to the result. The stretch with the second step of p, region 5
  (the moved p), region 6 (the fourth sums), the stretch with the two Casimir evaluations and their mean error, regions 7
  and 8 (the sums of squares of the moved q and p), the stretch with the scale, and region 9, which scales both and lays
  them side by side. So the result buffer ends at the kernel's function of the sixteen arguments.
-/
import proofs.«126091_j27977416966525_1_alg».proof.Proof.Gen.KernelIdeal.Frame
import proofs.«126091_j27977416966525_1_alg».proof.Proof.Spec
import proofs.«126091_j27977416966525_1_alg».proof.Proof.KVals
import proofs.«126091_j27977416966525_1_alg».proof.Proof.KHost
import proofs.«126091_j27977416966525_1_alg».proof.Proof.KChainA
import proofs.«126091_j27977416966525_1_alg».proof.Proof.RegAdd5
import proofs.«126091_j27977416966525_1_alg».proof.Proof.RegSum6
import proofs.«126091_j27977416966525_1_alg».proof.Proof.RegSq7
import proofs.«126091_j27977416966525_1_alg».proof.Proof.RegSq8
import proofs.«126091_j27977416966525_1_alg».proof.Proof.RegFin9
import Idealize.ShloMosaic.Lib.Pipeline.Value

set_option maxRecDepth 16384

noncomputable section

open scoped BigOperators

namespace Leap.KChain

open Cert.KernelIdeal Cert.KernelIdeal.Gen Idealize.ShloMosaic Idealize.ShloMosaic.TcCoe Idealize.SL.Sem
open Idealize.ShloMosaic.Pipeline (Dat)
open Leap Leap.KVals

variable (m : (ℓ : Loc nD τ sig) → Buf (Elt Ideal) ℓ) (ρ : Dev nD → PrngReg) (c : Dev nD)

/-! ## The arguments, up to region 6's exit

No stretch and no region of the second half writes an argument, so each is as launched wherever it is read: by the
stretch with the second step of p (arguments 1 to 8) and by the stretch with the Casimir values (arguments 10 to 15). -/

/-- The stretch with the second step of p writes no argument. -/
theorem args_not_written5 : ∀ b ∈ argRefs, b ∉ KHost.written5 := by decide

/-- Region 5 has no argument among its arrays. -/
theorem args_not_arr5 : ∀ b ∈ argRefs, ∀ w, Pipeline.arrRef spec5 w ≠ b := by decide

/-- Region 6 has no argument among its arrays. -/
theorem args_not_arr6 : ∀ b ∈ argRefs, ∀ w, Pipeline.arrRef spec6 w ≠ b := by decide

/-- At region 6's exit every argument other than the state is as launched. -/
theorem w11_args : ∀ b ∈ argRefs, W11 m ρ c (Proc.devRef .tc b) = m ((c : Thread nD τ).loc b) := fun b hb =>
  calc W11 m ρ c (Proc.devRef .tc b)
    _ = W10 m ρ c (Proc.devRef .tc b) := W11_of_ne m ρ c b (args_not_arr6 b hb)
    _ = W9 m ρ c (Proc.devRef .tc b) := W10_of_ne m ρ c b (args_not_arr5 b hb)
    _ = W8 m ρ c (Proc.devRef .tc b) := KHost.keep5 (W8 m ρ c) b (args_not_written5 b hb)
    _ = m ((c : Thread nD τ).loc b) := w8_args m ρ c b hb

/-! ## Region 5's entry: after the stretch with the second step of p -/

/-- The stretch leaves the half-moved p where it was. -/
theorem w9_ph : W9 m ρ c (Proc.devRef .tc main_v53) = vPh m c :=
  (KHost.keep5 (W8 m ρ c) main_v53 (by decide)).trans (w8_ph m ρ c)

/-- The stretch leaves the moved q where it was. -/
theorem w9_qn : W9 m ρ c (Proc.devRef .tc main_v104) = vQn m c :=
  (KHost.keep5 (W8 m ρ c) main_v104 (by decide)).trans (w8_qn m ρ c)

/-- The stretch leaves the first means where they were. -/
theorem w9_m1 : W9 m ρ c (Proc.devRef .tc main_v4) = vM1 m c :=
  (KHost.keep5 (W8 m ρ c) main_v4 (by decide)).trans (w8_m1 m ρ c)

/-- The stretch's result: the second step of p, from the gradient at the third means (the means of the third pair of
    sums, of the moved q and the half-moved p). -/
theorem w9_c3 : W9 m ρ c (Proc.devRef .tc main_v155)
    = stepP (m ((c : Thread nD τ).loc main_arg1)) (vG m c (vM3 m c)) := by
  refine (KHost.h5_step (W8 m ρ c)).trans ?_
  rw [w8_args m ρ c main_arg1 (by decide), w8_args m ρ c main_arg2 (by decide), w8_args m ρ c main_arg3 (by decide),
    w8_args m ρ c main_arg4 (by decide), w8_args m ρ c main_arg5 (by decide), w8_args m ρ c main_arg6 (by decide),
    w8_args m ρ c main_arg7 (by decide), w8_args m ρ c main_arg8 (by decide), w8_s3 m ρ c]
  rfl

/-! ## Region 5's exit: the moved p -/

/-- Region 5 adds the second step to the half-moved p: its result array holds the moved p. -/
theorem w10_pn : W10 m ρ c (Proc.devRef .tc main_v156) = vPn m c := by
  refine (W10_arr m ρ c 2).trans ((Reg5.value (V9 m ρ) c).trans ?_)
  show addB (W9 m ρ c (Proc.devRef .tc main_v53)) (W9 m ρ c (Proc.devRef .tc main_v155)) = vPn m c
  rw [w9_ph m ρ c, w9_c3 m ρ c]
  rfl

/-- Region 5 does not touch the moved q. -/
theorem w10_qn : W10 m ρ c (Proc.devRef .tc main_v104) = vQn m c :=
  (W10_of_ne m ρ c main_v104 (by decide)).trans (w9_qn m ρ c)

/-- Region 5 does not touch the first means. -/
theorem w10_m1 : W10 m ρ c (Proc.devRef .tc main_v4) = vM1 m c :=
  (W10_of_ne m ρ c main_v4 (by decide)).trans (w9_m1 m ρ c)

/-! ## Region 6's exit: the fourth pair of sums -/

/-- Region 6 only reads the moved q (its first input array). -/
theorem w11_qn : W11 m ρ c (Proc.devRef .tc main_v104) = vQn m c :=
  (W11_arr m ρ c 0).trans (((dat6 (V10 m ρ) c).arrAt_in 0 rfl _).trans ((A_eq6 (V10 m ρ) c 0).trans (w10_qn m ρ c)))

/-- Region 6 only reads the moved p (its second input array). -/
theorem w11_pn : W11 m ρ c (Proc.devRef .tc main_v156) = vPn m c :=
  (W11_arr m ρ c 1).trans (((dat6 (V10 m ρ) c).arrAt_in 1 rfl _).trans ((A_eq6 (V10 m ρ) c 1).trans (w10_pn m ρ c)))

/-- Region 6 does not touch the first means. -/
theorem w11_m1 : W11 m ρ c (Proc.devRef .tc main_v4) = vM1 m c :=
  (W11_of_ne m ρ c main_v4 (by decide)).trans (w10_m1 m ρ c)

/-- Region 6's result array: the per-batch sums of the moved q and the moved p. -/
theorem w11_s4 : W11 m ρ c (Proc.devRef .tc main_v157) = sum2 (vQn m c) (vPn m c) := by
  refine (W11_arr m ρ c 2).trans ((Reg6.value (V10 m ρ) c).trans ?_)
  show sum2 (W10 m ρ c (Proc.devRef .tc main_v104)) (W10 m ρ c (Proc.devRef .tc main_v156)) = _
  rw [w10_qn m ρ c, w10_pn m ρ c]

/-! ## Region 7's entry: after the stretch with the two Casimir evaluations -/

/-- The stretch's result: the mean error of the Casimir values at the fourth means against those at the first. -/
theorem w12_err : W12 m ρ c (Proc.devRef .tc main_v190) = vErr m c := by
  refine (KHost.h7_err (W11 m ρ c)).trans ?_
  rw [w11_args m ρ c main_arg10 (by decide), w11_args m ρ c main_arg11 (by decide), w11_args m ρ c main_arg12 (by decide),
    w11_args m ρ c main_arg13 (by decide), w11_args m ρ c main_arg14 (by decide), w11_args m ρ c main_arg15 (by decide),
    w11_s4 m ρ c, w11_m1 m ρ c]
  rfl

/-- The stretch leaves the moved q where it was. -/
theorem w12_qn : W12 m ρ c (Proc.devRef .tc main_v104) = vQn m c :=
  (KHost.keep7 (W11 m ρ c) main_v104 (by decide)).trans (w11_qn m ρ c)

/-- The stretch leaves the moved p where it was. -/
theorem w12_pn : W12 m ρ c (Proc.devRef .tc main_v156) = vPn m c :=
  (KHost.keep7 (W11 m ρ c) main_v156 (by decide)).trans (w11_pn m ρ c)

/-! ## Region 7's exit: the sum of squares of the moved q -/

/-- Region 7's result array. -/
theorem w13_sq : W13 m ρ c (Proc.devRef .tc main_v191) = sumSq (vQn m c) := by
  refine (W13_arr m ρ c 1).trans ((Reg7.value (V12 m ρ) c).trans ?_)
  show sumSq (W12 m ρ c (Proc.devRef .tc main_v104)) = _
  rw [w12_qn m ρ c]

/-- Region 7 only reads the moved q. -/
theorem w13_qn : W13 m ρ c (Proc.devRef .tc main_v104) = vQn m c :=
  (W13_arr m ρ c 0).trans (((dat7 (V12 m ρ) c).arrAt_in 0 rfl _).trans ((A_eq7 (V12 m ρ) c 0).trans (w12_qn m ρ c)))

/-- Region 7 does not touch the moved p. -/
theorem w13_pn : W13 m ρ c (Proc.devRef .tc main_v156) = vPn m c :=
  (W13_of_ne m ρ c main_v156 (by decide)).trans (w12_pn m ρ c)

/-- Region 7 does not touch the error. -/
theorem w13_err : W13 m ρ c (Proc.devRef .tc main_v190) = vErr m c :=
  (W13_of_ne m ρ c main_v190 (by decide)).trans (w12_err m ρ c)

/-! ## Region 8's exit: the sum of squares of the moved p -/

/-- Region 8's result array. -/
theorem w14_sp : W14 m ρ c (Proc.devRef .tc main_v192) = sumSq (vPn m c) := by
  refine (W14_arr m ρ c 1).trans ((Reg8.value (V13 m ρ) c).trans ?_)
  show sumSq (W13 m ρ c (Proc.devRef .tc main_v156)) = _
  rw [w13_pn m ρ c]

/-- Region 8 only reads the moved p. -/
theorem w14_pn : W14 m ρ c (Proc.devRef .tc main_v156) = vPn m c :=
  (W14_arr m ρ c 0).trans (((dat8 (V13 m ρ) c).arrAt_in 0 rfl _).trans ((A_eq8 (V13 m ρ) c 0).trans (w13_pn m ρ c)))

/-- Region 8 does not touch the moved q. -/
theorem w14_qn : W14 m ρ c (Proc.devRef .tc main_v104) = vQn m c :=
  (W14_of_ne m ρ c main_v104 (by decide)).trans (w13_qn m ρ c)

/-- Region 8 does not touch the error. -/
theorem w14_err : W14 m ρ c (Proc.devRef .tc main_v190) = vErr m c :=
  (W14_of_ne m ρ c main_v190 (by decide)).trans (w13_err m ρ c)

/-- Region 8 does not touch the sum of squares of the moved q. -/
theorem w14_sq : W14 m ρ c (Proc.devRef .tc main_v191) = sumSq (vQn m c) :=
  (W14_of_ne m ρ c main_v191 (by decide)).trans (w13_sq m ρ c)

/-! ## Region 9's entry: after the stretch with the scale -/

/-- The stretch's result: the scale, from the error and the two sums of squares. -/
theorem w15_scale : W15 m ρ c (Proc.devRef .tc main_v201) = vScale m c := by
  refine (KHost.h9_scale (W14 m ρ c)).trans ?_
  rw [w14_err m ρ c, w14_sq m ρ c, w14_sp m ρ c]
  rfl

/-- The stretch leaves the moved q where it was. -/
theorem w15_qn : W15 m ρ c (Proc.devRef .tc main_v104) = vQn m c :=
  (KHost.keep9 (W14 m ρ c) main_v104 (by decide)).trans (w14_qn m ρ c)

/-- The stretch leaves the moved p where it was. -/
theorem w15_pn : W15 m ρ c (Proc.devRef .tc main_v156) = vPn m c :=
  (KHost.keep9 (W14 m ρ c) main_v156 (by decide)).trans (w14_pn m ρ c)

/-! ## Region 9's exit: the result -/

/-- Region 9's result array: the moved q and the moved p, scaled, side by side. -/
theorem w16_out : W16 m ρ c (Proc.devRef .tc main_v202) = finOut (vQn m c) (vPn m c) (vScale m c) := by
  refine (W16_arr m ρ c 3).trans ((Reg9.value (V15 m ρ) c).trans ?_)
  show finOut (W15 m ρ c (Proc.devRef .tc main_v104)) (W15 m ρ c (Proc.devRef .tc main_v156)) (W15 m ρ c (Proc.devRef .tc main_v201)) = _
  rw [w15_qn m ρ c, w15_pn m ρ c, w15_scale m ρ c]

/-- The result buffer at the last boundary is the kernel's function of the arguments' launch contents. -/
theorem kernel_value : W16 m ρ c (Proc.devRef .tc main_v202)
    = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (w16_out m ρ c).trans (kOut_eq m c)

end Leap.KChain

end
-- ==== Proof.RefSpec.lean ====
/-
  The reference's side of the same step, as functions of arrays.

  The reference forms the two per-batch means directly (one sum over channels, rows and lanes of each array, divided by
  2^19, the two columns laid side by side), moves p by SUBTRACTING (1/2 dt) (g[:,0] / 2^19) broadcast over a batch item
  and q by ADDING dt (g[:,1] / 2^19), joins the new q and p along the channel axis, and corrects the joined state s by
  s - ((0.1 err) s) / (sqrt (sum of s^2) + 1e-10). The network's gradient and the Casimir network are the very functions
  of the kernel's side (their dimension records are equal constants of the two programs), so they are cited, not restated.
-/
import proofs.«126091_j27977416966525_1_alg».proof.Proof.Gen.ReferenceIdeal
import proofs.«126091_j27977416966525_1_alg».proof.Proof.Spec

noncomputable section

namespace LeapRef

open Cert.ReferenceIdeal Cert.ReferenceIdeal.Gen Idealize.ShloMosaic

variable {F : FTy → Type} [FloatOps F]

/-- One per-batch mean: the sum over channels, rows and lanes, divided by 2^19, as a [32,1] column. -/
def meanCol (a : Vec F S32x8x256x256 .f32) : Vec F S32x1 .f32 :=
  broadcastInDim S32x1 ![0] bcast_S32_S32x1_0
    (Host.divf (Host.reduceAdd a (constant S_ .f32 0x00000000#32) reducesTo_S32x8x256x256_S32_d1_2_3 h_S_)
      (broadcastInDim S32 ![] bcast_S_S32 (constant S_ .f32 0x49000000#32)))

/-- The [32,2] means of a pair of arrays: the two columns side by side. -/
def meansR (a b : Vec F S32x8x256x256 .f32) : Vec F S32x2 .f32 :=
  concatenate S32x2 1 [⟨S32x1, meanCol a⟩, ⟨S32x1, meanCol b⟩] concatenates_S32x1_S32x1_S32x2_d1

/-- The per-batch quotient g[:,k] / 2^19 as a [32,1,1,1] array (k = 0). -/
def quot0 (g : Vec F S32x2 .f32) : Vec F S32x1x1x1 .f32 :=
  broadcastInDim S32x1x1x1 ![0] bcast_S32_S32x1x1x1_0
    (Host.divf (shapeCast S32 (extractStridedSlice S32x1 ![0, 0] g slices_S32x2_S32x1_0_0) shapeCasts_S32x1_S32)
      (broadcastInDim S32 ![] bcast_S_S32 (constant S_ .f32 0x49000000#32)))

/-- The per-batch quotient g[:,k] / 2^19 as a [32,1,1,1] array (k = 1). -/
def quot1 (g : Vec F S32x2 .f32) : Vec F S32x1x1x1 .f32 :=
  broadcastInDim S32x1x1x1 ![0] bcast_S32_S32x1x1x1_0
    (Host.divf (shapeCast S32 (extractStridedSlice S32x1 ![0, 1] g slices_S32x2_S32x1_0_1) shapeCasts_S32x1_S32)
      (broadcastInDim S32 ![] bcast_S_S32 (constant S_ .f32 0x49000000#32)))

/-- The move of p: p - (1/2 dt) (g[:,0] / 2^19), the scalar broadcast over each batch item. -/
def subStepP (p : Vec F S32x8x256x256 .f32) (dt : Vec F S_ .f32) (g : Vec F S32x2 .f32) : Vec F S32x8x256x256 .f32 :=
  subf p (broadcastInDim S32x8x256x256 ![0, 1, 2, 3] bcast_S32x1x1x1_S32x8x256x256_0_1_2_3
    (mulf (broadcastInDim S32x1x1x1 ![] bcast_S_S32x1x1x1 (mulf (constant S_ .f32 0x3F000000#32) dt)) (quot0 g)))

/-- The move of q: q + dt (g[:,1] / 2^19), the scalar broadcast over each batch item. -/
def addStepQ (q : Vec F S32x8x256x256 .f32) (dt : Vec F S_ .f32) (g : Vec F S32x2 .f32) : Vec F S32x8x256x256 .f32 :=
  addf q (broadcastInDim S32x8x256x256 ![0, 1, 2, 3] bcast_S32x1x1x1_S32x8x256x256_0_1_2_3
    (mulf (broadcastInDim S32x1x1x1 ![] bcast_S_S32x1x1x1 dt) (quot1 g)))

/-- q and p joined along the channel axis. -/
def joinQP (q p : Vec F S32x8x256x256 .f32) : Vec F S32x16x256x256 .f32 :=
  concatenate S32x16x256x256 1 [⟨S32x8x256x256, q⟩, ⟨S32x8x256x256, p⟩]
    concatenates_S32x8x256x256_S32x8x256x256_S32x16x256x256_d1

/-- The mean error, with the reference's own reduction record (the same function as the kernel side's `Leap.errOf`). -/
def errR (cn co : Vec F S32x4 .f32) : Vec F S_ .f32 :=
  Host.divf (Host.reduceAdd (subf cn co) (constant S_ .f32 0x00000000#32) reducesTo_S32x4_S_d0_1 h_S_)
    (constant S_ .f32 0x43000000#32)

/-- The correction of the joined state: s - ((0.1 err) s) / (sqrt (sum s^2) + 1e-10). -/
def finR (s : Vec F S32x16x256x256 .f32) (err : Vec F S_ .f32) : Vec F S32x16x256x256 .f32 :=
  subf s (Host.divf
    (mulf (broadcastInDim S32x16x256x256 ![] bcast_S_S32x16x256x256 (mulf (constant S_ .f32 0x3DCCCCCD#32) err)) s)
    (broadcastInDim S32x16x256x256 ![] bcast_S_S32x16x256x256
      (addf (Host.sqrt (Host.reduceAdd (mulf s s) (constant S_ .f32 0x00000000#32) reducesTo_S32x16x256x256_S_d0_1_2_3 h_S_))
        (constant S_ .f32 0x2EDBE6FF#32))))

/-- The reference's result as a function of its arguments. -/
def rOut (st : Vec F S32x16x256x256 .f32) (dt : Vec F S_ .f32)
    (W1 : Vec F S2x128 .f32) (b1 : Vec F S128 .f32) (W2 : Vec F S128x128 .f32) (b2 : Vec F S128 .f32)
    (W3 : Vec F S128x64 .f32) (b3 : Vec F S64 .f32) (W4 : Vec F S64x1 .f32) (b4 : Vec F S1 .f32)
    (cW1 : Vec F S2x64 .f32) (cb1 : Vec F S64 .f32) (cW2 : Vec F S64x32 .f32) (cb2 : Vec F S32 .f32)
    (cW3 : Vec F S32x4 .f32) (cb3 : Vec F S4 .f32) : Vec F S32x16x256x256 .f32 :=
  let q := Leap.qOf st
  let p := Leap.pOf st
  let ph := subStepP p dt (Leap.gradH W1 b1 W2 b2 W3 b3 W4 (meansR q p))
  let qn := addStepQ q dt (Leap.gradH W1 b1 W2 b2 W3 b3 W4 (meansR q ph))
  let pn := subStepP ph dt (Leap.gradH W1 b1 W2 b2 W3 b3 W4 (meansR qn ph))
  let err := errR (Leap.casF cW1 cb1 cW2 cb2 cW3 cb3 (meansR qn pn)) (Leap.casF cW1 cb1 cW2 cb2 cW3 cb3 (meansR q p))
  finR (joinQP qn pn) err

end LeapRef

end
-- ==== Proof.RefValue.lean ====
/-
  The reference's run, read back as a function of its arguments. The generated run states the result buffer at the
  composed term of the 283 host operations, over named intermediate terms; those intermediates are, one by one, the
  functions of the two specification modules: the two halves of the state; the hidden layers and backward products of the
  network at the means of a pair of arrays; the three moves; the joined state; the two Casimir evaluations, their mean
  error and the final correction. The dimension records the two programs print for one contraction are equal constants,
  so the kernel side's network functions apply to the reference's operands as they stand.
-/
import proofs.«126091_j27977416966525_1_alg».proof.Proof.Gen.ReferenceIdeal.Run
import proofs.«126091_j27977416966525_1_alg».proof.Proof.Spec
import proofs.«126091_j27977416966525_1_alg».proof.Proof.RefSpec

set_option maxRecDepth 16384

noncomputable section

open scoped BigOperators

namespace LeapRef

open Cert.ReferenceIdeal Cert.ReferenceIdeal.Gen Idealize.ShloMosaic Idealize.ShloMosaic.TcCoe Idealize.SL.Sem

variable {F : FTy → Type} [FloatOps F]

/-! ## Two laws of assembly -/

/-- The gradient is the first-layer backward product of the chain of its six named layers. -/
theorem gradH_of {W1 : Vec F S2x128 .f32} {b1 : Vec F S128 .f32} {W2 : Vec F S128x128 .f32} {b2 : Vec F S128 .f32}
    {W3 : Vec F S128x64 .f32} {b3 : Vec F S64 .f32} {W4 : Vec F S64x1 .f32} {s : Vec F S32x2 .f32}
    {h1 h2 d1 d2 : Vec F S32x128 .f32} {h3 d3 : Vec F S32x64 .f32}
    (e1 : h1 = Leap.hid1 W1 b1 s) (e2 : h2 = Leap.hid2 W2 b2 h1) (e3 : h3 = Leap.hid3 W3 b3 h2)
    (e4 : d3 = Leap.back3 W4 h3) (e5 : d2 = Leap.back2 W3 d3 h3 h2) (e6 : d1 = Leap.back1 W2 d2 h2 h1) :
    Leap.back0 W1 d1 h1 = Leap.gradH W1 b1 W2 b2 W3 b3 W4 s := by
  subst e1; subst e2; subst e3; subst e4; subst e5; subst e6; rfl

/-- The result is the correction of the joined new q and p, once the five arrays q, p, the half-moved p, the new q and
    the new p are each named by its move. -/
theorem rOut_of {st : Vec F S32x16x256x256 .f32} {dt : Vec F S_ .f32}
    {W1 : Vec F S2x128 .f32} {b1 : Vec F S128 .f32} {W2 : Vec F S128x128 .f32} {b2 : Vec F S128 .f32}
    {W3 : Vec F S128x64 .f32} {b3 : Vec F S64 .f32} {W4 : Vec F S64x1 .f32} {b4 : Vec F S1 .f32}
    {cW1 : Vec F S2x64 .f32} {cb1 : Vec F S64 .f32} {cW2 : Vec F S64x32 .f32} {cb2 : Vec F S32 .f32}
    {cW3 : Vec F S32x4 .f32} {cb3 : Vec F S4 .f32} {q p ph qn pn : Vec F S32x8x256x256 .f32}
    (hq : q = Leap.qOf st) (hp : p = Leap.pOf st)
    (hph : ph = subStepP p dt (Leap.gradH W1 b1 W2 b2 W3 b3 W4 (meansR q p)))
    (hqn : qn = addStepQ q dt (Leap.gradH W1 b1 W2 b2 W3 b3 W4 (meansR q ph)))
    (hpn : pn = subStepP ph dt (Leap.gradH W1 b1 W2 b2 W3 b3 W4 (meansR qn ph))) :
    finR (joinQP qn pn) (errR (Leap.casF cW1 cb1 cW2 cb2 cW3 cb3 (meansR qn pn)) (Leap.casF cW1 cb1 cW2 cb2 cW3 cb3 (meansR q p)))
      = rOut st dt W1 b1 W2 b2 W3 b3 W4 b4 cW1 cb1 cW2 cb2 cW3 cb3 := by
  subst hq; subst hp; subst hph; subst hqn; subst hpn; rfl

/-! ## The sixteen arguments, each at its array type -/

/-- The contents of argument 0: the state. -/
abbrev aSt (V0 : Valuation τ sig (Elt F)) : Vec F S32x16x256x256 .f32 := V0 (Proc.devRef .tc main_arg0)

/-- The contents of argument 1: the time step. -/
abbrev aDt (V0 : Valuation τ sig (Elt F)) : Vec F S_ .f32 := V0 (Proc.devRef .tc main_arg1)

/-- The contents of argument 2: the first layer's weights. -/
abbrev aW1 (V0 : Valuation τ sig (Elt F)) : Vec F S2x128 .f32 := V0 (Proc.devRef .tc main_arg2)

/-- The contents of argument 3: the first layer's bias. -/
abbrev aB1 (V0 : Valuation τ sig (Elt F)) : Vec F S128 .f32 := V0 (Proc.devRef .tc main_arg3)

/-- The contents of argument 4: the second layer's weights. -/
abbrev aW2 (V0 : Valuation τ sig (Elt F)) : Vec F S128x128 .f32 := V0 (Proc.devRef .tc main_arg4)

/-- The contents of argument 5: the second layer's bias. -/
abbrev aB2 (V0 : Valuation τ sig (Elt F)) : Vec F S128 .f32 := V0 (Proc.devRef .tc main_arg5)

/-- The contents of argument 6: the third layer's weights. -/
abbrev aW3 (V0 : Valuation τ sig (Elt F)) : Vec F S128x64 .f32 := V0 (Proc.devRef .tc main_arg6)

/-- The contents of argument 7: the third layer's bias. -/
abbrev aB3 (V0 : Valuation τ sig (Elt F)) : Vec F S64 .f32 := V0 (Proc.devRef .tc main_arg7)

/-- The contents of argument 8: the output layer's weights. -/
abbrev aW4 (V0 : Valuation τ sig (Elt F)) : Vec F S64x1 .f32 := V0 (Proc.devRef .tc main_arg8)

/-- The contents of argument 9: the output layer's bias. -/
abbrev aB4 (V0 : Valuation τ sig (Elt F)) : Vec F S1 .f32 := V0 (Proc.devRef .tc main_arg9)

/-- The contents of argument 10: the Casimir network's first weights. -/
abbrev aCW1 (V0 : Valuation τ sig (Elt F)) : Vec F S2x64 .f32 := V0 (Proc.devRef .tc main_arg10)

/-- The contents of argument 11: the Casimir network's first bias. -/
abbrev aCB1 (V0 : Valuation τ sig (Elt F)) : Vec F S64 .f32 := V0 (Proc.devRef .tc main_arg11)

/-- The contents of argument 12: the Casimir network's second weights. -/
abbrev aCW2 (V0 : Valuation τ sig (Elt F)) : Vec F S64x32 .f32 := V0 (Proc.devRef .tc main_arg12)

/-- The contents of argument 13: the Casimir network's second bias. -/
abbrev aCB2 (V0 : Valuation τ sig (Elt F)) : Vec F S32 .f32 := V0 (Proc.devRef .tc main_arg13)

/-- The contents of argument 14: the Casimir network's third weights. -/
abbrev aCW3 (V0 : Valuation τ sig (Elt F)) : Vec F S32x4 .f32 := V0 (Proc.devRef .tc main_arg14)

/-- The contents of argument 15: the Casimir network's third bias. -/
abbrev aCB3 (V0 : Valuation τ sig (Elt F)) : Vec F S4 .f32 := V0 (Proc.devRef .tc main_arg15)

/-! ## The named intermediates, one layer at a time -/

section layers

variable (V0 : Valuation τ sig (Elt F))

/-- The first eight channels of the state are q. -/
theorem v0_eq : Value.res_main_v0 V0 = Leap.qOf (aSt V0) := rfl

/-- The last eight channels of the state are p. -/
theorem v1_eq : Value.res_main_v1 V0 = Leap.pOf (aSt V0) := rfl

/-! ### The network at the means of q and p -/

theorem v15_eq : Value.res_main_v15 V0 = Leap.hid1 (aW1 V0) (aB1 V0) (meansR (Value.res_main_v0 V0) (Value.res_main_v1 V0)) := rfl

theorem v22_eq : Value.res_main_v22 V0 = Leap.hid2 (aW2 V0) (aB2 V0) (Value.res_main_v15 V0) := rfl

theorem v29_eq : Value.res_main_v29 V0 = Leap.hid3 (aW3 V0) (aB3 V0) (Value.res_main_v22 V0) := rfl

theorem v39_eq : Value.res_main_v39 V0 = Leap.back3 (aW4 V0) (Value.res_main_v29 V0) := rfl

theorem v43_eq : Value.res_main_v43 V0 = Leap.back2 (aW3 V0) (Value.res_main_v39 V0) (Value.res_main_v29 V0) (Value.res_main_v22 V0) := rfl

theorem v47_eq : Value.res_main_v47 V0 = Leap.back1 (aW2 V0) (Value.res_main_v43 V0) (Value.res_main_v22 V0) (Value.res_main_v15 V0) := rfl

/-- The last backward product over these six layers is the gradient at the means of the pair. -/
theorem grad1_eq : Leap.back0 (aW1 V0) (Value.res_main_v47 V0) (Value.res_main_v15 V0) = Leap.gradH (aW1 V0) (aB1 V0) (aW2 V0) (aB2 V0) (aW3 V0) (aB3 V0) (aW4 V0) (meansR (Value.res_main_v0 V0) (Value.res_main_v1 V0)) :=
  gradH_of (v15_eq V0) (v22_eq V0) (v29_eq V0) (v39_eq V0) (v43_eq V0) (v47_eq V0)

/-- The half-moved p: p less (1/2 dt) times the first gradient component over 2^19. -/
theorem v60_eq : Value.res_main_v60 V0 = subStepP (Value.res_main_v1 V0) (aDt V0) (Leap.gradH (aW1 V0) (aB1 V0) (aW2 V0) (aB2 V0) (aW3 V0) (aB3 V0) (aW4 V0) (meansR (Value.res_main_v0 V0) (Value.res_main_v1 V0))) :=
  (rfl : Value.res_main_v60 V0 = subStepP (Value.res_main_v1 V0) (aDt V0) (Leap.back0 (aW1 V0) (Value.res_main_v47 V0) (Value.res_main_v15 V0))).trans
    (congrArg (subStepP (Value.res_main_v1 V0) (aDt V0)) (grad1_eq V0))

/-! ### The network at the means of q and the half-moved p -/

theorem v74_eq : Value.res_main_v74 V0 = Leap.hid1 (aW1 V0) (aB1 V0) (meansR (Value.res_main_v0 V0) (Value.res_main_v60 V0)) := rfl

theorem v81_eq : Value.res_main_v81 V0 = Leap.hid2 (aW2 V0) (aB2 V0) (Value.res_main_v74 V0) := rfl

theorem v88_eq : Value.res_main_v88 V0 = Leap.hid3 (aW3 V0) (aB3 V0) (Value.res_main_v81 V0) := rfl

theorem v98_eq : Value.res_main_v98 V0 = Leap.back3 (aW4 V0) (Value.res_main_v88 V0) := rfl

theorem v102_eq : Value.res_main_v102 V0 = Leap.back2 (aW3 V0) (Value.res_main_v98 V0) (Value.res_main_v88 V0) (Value.res_main_v81 V0) := rfl

theorem v106_eq : Value.res_main_v106 V0 = Leap.back1 (aW2 V0) (Value.res_main_v102 V0) (Value.res_main_v81 V0) (Value.res_main_v74 V0) := rfl

/-- The last backward product over these six layers is the gradient at the means of the pair. -/
theorem grad2_eq : Leap.back0 (aW1 V0) (Value.res_main_v106 V0) (Value.res_main_v74 V0) = Leap.gradH (aW1 V0) (aB1 V0) (aW2 V0) (aB2 V0) (aW3 V0) (aB3 V0) (aW4 V0) (meansR (Value.res_main_v0 V0) (Value.res_main_v60 V0)) :=
  gradH_of (v74_eq V0) (v81_eq V0) (v88_eq V0) (v98_eq V0) (v102_eq V0) (v106_eq V0)

/-- The new q: q plus dt times the second gradient component over 2^19. -/
theorem v118_eq : Value.res_main_v118 V0 = addStepQ (Value.res_main_v0 V0) (aDt V0) (Leap.gradH (aW1 V0) (aB1 V0) (aW2 V0) (aB2 V0) (aW3 V0) (aB3 V0) (aW4 V0) (meansR (Value.res_main_v0 V0) (Value.res_main_v60 V0))) :=
  (rfl : Value.res_main_v118 V0 = addStepQ (Value.res_main_v0 V0) (aDt V0) (Leap.back0 (aW1 V0) (Value.res_main_v106 V0) (Value.res_main_v74 V0))).trans
    (congrArg (addStepQ (Value.res_main_v0 V0) (aDt V0)) (grad2_eq V0))

/-! ### The network at the means of the new q and the half-moved p -/

theorem v132_eq : Value.res_main_v132 V0 = Leap.hid1 (aW1 V0) (aB1 V0) (meansR (Value.res_main_v118 V0) (Value.res_main_v60 V0)) := rfl

theorem v139_eq : Value.res_main_v139 V0 = Leap.hid2 (aW2 V0) (aB2 V0) (Value.res_main_v132 V0) := rfl

theorem v146_eq : Value.res_main_v146 V0 = Leap.hid3 (aW3 V0) (aB3 V0) (Value.res_main_v139 V0) := rfl

theorem v156_eq : Value.res_main_v156 V0 = Leap.back3 (aW4 V0) (Value.res_main_v146 V0) := rfl

theorem v160_eq : Value.res_main_v160 V0 = Leap.back2 (aW3 V0) (Value.res_main_v156 V0) (Value.res_main_v146 V0) (Value.res_main_v139 V0) := rfl

theorem v164_eq : Value.res_main_v164 V0 = Leap.back1 (aW2 V0) (Value.res_main_v160 V0) (Value.res_main_v139 V0) (Value.res_main_v132 V0) := rfl

/-- The last backward product over these six layers is the gradient at the means of the pair. -/
theorem grad3_eq : Leap.back0 (aW1 V0) (Value.res_main_v164 V0) (Value.res_main_v132 V0) = Leap.gradH (aW1 V0) (aB1 V0) (aW2 V0) (aB2 V0) (aW3 V0) (aB3 V0) (aW4 V0) (meansR (Value.res_main_v118 V0) (Value.res_main_v60 V0)) :=
  gradH_of (v132_eq V0) (v139_eq V0) (v146_eq V0) (v156_eq V0) (v160_eq V0) (v164_eq V0)

/-- The new p: the half-moved p less (1/2 dt) times the first gradient component over 2^19. -/
theorem v177_eq : Value.res_main_v177 V0 = subStepP (Value.res_main_v60 V0) (aDt V0) (Leap.gradH (aW1 V0) (aB1 V0) (aW2 V0) (aB2 V0) (aW3 V0) (aB3 V0) (aW4 V0) (meansR (Value.res_main_v118 V0) (Value.res_main_v60 V0))) :=
  (rfl : Value.res_main_v177 V0 = subStepP (Value.res_main_v60 V0) (aDt V0) (Leap.back0 (aW1 V0) (Value.res_main_v164 V0) (Value.res_main_v132 V0))).trans
    (congrArg (subStepP (Value.res_main_v60 V0) (aDt V0)) (grad3_eq V0))

/-- The joined state: the new q and the new p along the channel axis. -/
theorem v178_eq : Value.res_main_v178 V0 = joinQP (Value.res_main_v118 V0) (Value.res_main_v177 V0) := rfl

/-! ### The result -/

/-- The run's term for the result is the correction of the joined state by the mean error of the two Casimir
    evaluations (at the means of the new pair and of the old pair), which is the reference's result function of the
    sixteen arguments. -/
theorem v237_eq : Value.val5 V0 (Proc.devRef .tc main_v237) = rOut (aSt V0) (aDt V0) (aW1 V0) (aB1 V0) (aW2 V0) (aB2 V0) (aW3 V0) (aB3 V0) (aW4 V0) (aB4 V0) (aCW1 V0) (aCB1 V0) (aCW2 V0) (aCB2 V0) (aCW3 V0) (aCB3 V0) := by
  refine (Value.val5_main_v237 V0).trans ?_
  refine Eq.trans (b := finR (Value.res_main_v178 V0) (errR (Leap.casF (aCW1 V0) (aCB1 V0) (aCW2 V0) (aCB2 V0) (aCW3 V0) (aCB3 V0) (meansR (Value.res_main_v118 V0) (Value.res_main_v177 V0)))
    (Leap.casF (aCW1 V0) (aCB1 V0) (aCW2 V0) (aCB2 V0) (aCW3 V0) (aCB3 V0) (meansR (Value.res_main_v0 V0) (Value.res_main_v1 V0))))) rfl ?_
  rw [v178_eq V0]
  exact rOut_of (v0_eq V0) (v1_eq V0) (v60_eq V0) (v118_eq V0) (v177_eq V0)

end layers

/-- Every weakly fair execution of the reference terminates with its result at `rOut` of the arguments' launch contents,
    the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v237) = rOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono
    (fun r h c => ⟨(h c).1.trans ((Value.val5_main_v237 (StableHlo.launchContents m c)).symm.trans
      (v237_eq (StableHlo.launchContents m c))), (h c).2⟩)
    (Value.run m ρ)

end LeapRef

end
-- ==== Proof.Words.lean ====
/-
  The float constants both programs spell, as the extended reals their patterns denote at the ideal instance: zero, one,
  plus and minus one half, 2^19 (the number of entries of a batch item of q) and 128 (the number of Casimir values);
  and the two constants whose decimal is not a dyadic, 0.1 and 1e-10, of which only this is used: each is some real, the
  second a positive one. Stated once here: every other module reads a constant's value from this one.
-/
import Idealize.ShloMosaic.PureOps.Ideal
import Idealize.ShloMosaic.PureOps.Ideal.Laws

noncomputable section

namespace Leap

open Idealize.ShloMosaic

theorem word_zero : Ideal.ofBits .f32 0x00000000#32 = ((0 : ℝ) : EReal) := by
  simp [Ideal.ofBits, Ideal.ieee]

theorem word_one : Ideal.ofBits .f32 0x3F800000#32 = ((1 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

theorem word_two_pow_19 : Ideal.ofBits .f32 0x49000000#32 = ((524288 : ℝ) : EReal) := by
  simp [Ideal.ofBits, Ideal.ieee, -EReal.coe_mul]; norm_num

theorem word_128 : Ideal.ofBits .f32 0x43000000#32 = ((128 : ℝ) : EReal) := by
  simp [Ideal.ofBits, Ideal.ieee, -EReal.coe_mul]; norm_num

/-- The pattern of 0.1 denotes 13421773 / 2^27. -/
theorem word_tenth_val : Ideal.ofBits .f32 0x3DCCCCCD#32 = ((13421773 / 134217728 : ℝ) : EReal) := by
  simp [Ideal.ofBits, Ideal.ieee, -EReal.coe_mul]; norm_num

/-- The pattern of 1e-10 denotes 14411519 / 2^57. -/
theorem word_eps_val : Ideal.ofBits .f32 0x2EDBE6FF#32 = ((14411519 / 144115188075855872 : ℝ) : EReal) := by
  simp [Ideal.ofBits, Ideal.ieee, -EReal.coe_mul]; norm_num

/-- The pattern of 0.1 denotes some real. -/
theorem word_tenth : ∃ r : ℝ, Ideal.ofBits .f32 0x3DCCCCCD#32 = (r : EReal) := ⟨_, word_tenth_val⟩

/-- The pattern of 1e-10 denotes some positive real. -/
theorem word_eps : ∃ r : ℝ, 0 < r ∧ Ideal.ofBits .f32 0x2EDBE6FF#32 = (r : EReal) :=
  ⟨_, by norm_num, word_eps_val⟩

end Leap

end
-- ==== Proof.Fin.lean ====
/-
  Finiteness. The extended reals carry the two infinities, and the last step of the comparison (a product distributed
  over a difference) holds only among finite numbers; so every array that reaches it must be shown finite. An array is
  FINITE when each entry is a real number. tanh of anything is a real in [-1, 1]; sums, differences and products of
  reals are reals; a quotient of reals by a nonzero real is a real. Hence: the network's gradient is finite as soon as the
  four weight matrices are (whatever the means are, since every hidden activation is a tanh); the Casimir values are
  finite as soon as the last layer's weights and bias are; the steps, the moved arrays and the mean error follow.
-/
import proofs.«126091_j27977416966525_1_alg».proof.Proof.Spec
import proofs.«126091_j27977416966525_1_alg».proof.Proof.Words
import Idealize.ShloMosaic.PureOps.Ideal.Laws
import Idealize.ShloMosaic.Lib.ValueIdx

set_option maxRecDepth 16384

noncomputable section

open scoped BigOperators

namespace Leap

open Cert.KernelIdeal Cert.KernelIdeal.Gen Idealize.ShloMosaic Idealize.ShloMosaic.ValueIdx

/-- Every entry of the array is a real number. -/
def IsFin {s : Shape} (x : Vec Ideal s .f32) : Prop := ∀ i, ∃ r : ℝ, x i = (r : EReal)

/-! ## The algebra of finite arrays, at any shape -/

section Algebra
variable {s t : Shape}

/-- Every entry of the array is a real number other than zero: what a divisor must be. -/
def IsNz {s : Shape} (x : Vec Ideal s .f32) : Prop := ∀ i, ∃ c : ℝ, c ≠ 0 ∧ x i = (c : EReal)

/-- A finite sum of real numbers is a real number. -/
theorem exists_real_sum {ι : Type} (S : Finset ι) (f : ι → EReal) (h : ∀ i ∈ S, ∃ r : ℝ, f i = (r : EReal)) :
    ∃ r : ℝ, ∑ i ∈ S, f i = (r : EReal) := by
  classical
  revert h
  refine Finset.induction_on S (fun _ => ⟨0, by rw [Finset.sum_empty, EReal.coe_zero]⟩) ?_
  intro a S ha ih h
  obtain ⟨r, hr⟩ := h a (Finset.mem_insert_self a S)
  obtain ⟨q, hq⟩ := ih fun i hi => h i (Finset.mem_insert_of_mem hi)
  exact ⟨r + q, by rw [Finset.sum_insert ha, hr, hq, EReal.coe_add]⟩

/-- A splat of a word that denotes a real is finite. -/
theorem isFin_constant (w : BitVec 32) {r : ℝ} (h : Ideal.ofBits .f32 w = (r : EReal)) :
    IsFin (constant (F := Ideal) s .f32 w) := fun _ => ⟨r, h⟩

/-- A splat of a word that denotes a nonzero real is a nonzero real everywhere. -/
theorem isNz_constant (w : BitVec 32) {c : ℝ} (hc : c ≠ 0) (h : Ideal.ofBits .f32 w = (c : EReal)) :
    IsNz (constant (F := Ideal) s .f32 w) := fun _ => ⟨c, hc, h⟩

/-- Each entry of a broadcast is an entry of its operand. -/
theorem isFin_broadcastInDim {x : Vec Ideal s .f32} (hx : IsFin x) (dims : Fin s.rank → Fin t.rank)
    (h : s.BroadcastsInDim t dims) : IsFin (broadcastInDim t dims h x : Vec Ideal t .f32) := by
  intro j; unfold broadcastInDim; exact hx _

theorem isNz_broadcastInDim {x : Vec Ideal s .f32} (hx : IsNz x) (dims : Fin s.rank → Fin t.rank)
    (h : s.BroadcastsInDim t dims) : IsNz (broadcastInDim t dims h x : Vec Ideal t .f32) := by
  intro j; unfold broadcastInDim; exact hx _

/-- Each entry of a shape cast is an entry of its operand. -/
theorem isFin_shapeCast {x : Vec Ideal s .f32} (hx : IsFin x) (h : s.ShapeCasts t) :
    IsFin (shapeCast t x h : Vec Ideal t .f32) := by
  intro j; unfold shapeCast; exact hx _

/-- Each entry of a slice is an entry of its operand. -/
theorem isFin_extractStridedSlice {x : Vec Ideal s .f32} (hx : IsFin x) (off : Fin s.rank → Nat) (h : s.Slices off t) :
    IsFin (extractStridedSlice t off x h : Vec Ideal t .f32) := by
  intro j; unfold extractStridedSlice; exact hx _

/-- A sum of reals is a real. -/
theorem isFin_addf {a b : Vec Ideal s .f32} (ha : IsFin a) (hb : IsFin b) :
    IsFin (addf (F := Ideal) (φ := .f32) a b) := by
  intro i
  obtain ⟨r, hr⟩ := ha i
  obtain ⟨q, hq⟩ := hb i
  refine ⟨r + q, ?_⟩
  show a i + b i = _
  rw [hr, hq, EReal.coe_add]

/-- A difference of reals is a real. -/
theorem isFin_subf {a b : Vec Ideal s .f32} (ha : IsFin a) (hb : IsFin b) :
    IsFin (subf (F := Ideal) (φ := .f32) a b) := by
  intro i
  obtain ⟨r, hr⟩ := ha i
  obtain ⟨q, hq⟩ := hb i
  refine ⟨r - q, ?_⟩
  show a i - b i = _
  rw [hr, hq, EReal.coe_sub]

/-- A product of reals is a real. -/
theorem isFin_mulf {a b : Vec Ideal s .f32} (ha : IsFin a) (hb : IsFin b) :
    IsFin (mulf (F := Ideal) (φ := .f32) a b) := by
  intro i
  obtain ⟨r, hr⟩ := ha i
  obtain ⟨q, hq⟩ := hb i
  refine ⟨r * q, ?_⟩
  show a i * b i = _
  rw [hr, hq, EReal.coe_mul]

/-- tanh of any extended real is a real: -1 at -∞, 1 at +∞, the real tanh in between. -/
theorem isFin_tanh (x : Vec Ideal s .f32) : IsFin (Host.tanh (F := Ideal) (φ := .f32) x) := by
  intro i
  show ∃ r : ℝ, Ideal.tanh (x i) = (r : EReal)
  generalize x i = y
  induction y using EReal.rec with
  | bot => exact ⟨-1, by rw [Ideal.tanh_bot, EReal.coe_neg, EReal.coe_one]⟩
  | top => exact ⟨1, by rw [Ideal.tanh_top, EReal.coe_one]⟩
  | coe r => exact ⟨Real.tanh r, rfl⟩

/-- A contraction of finite arrays is finite: each entry is a finite sum of products of reals. -/
theorem isFin_dotGeneral {sl sr so : Shape} (d : DotDims sl sr so) (prec : Option ContractPrecision)
    {lhs : Vec Ideal sl .f32} {rhs : Vec Ideal sr .f32} (hl : IsFin lhs) (hr : IsFin rhs) :
    IsFin (Host.dotGeneral (F := Ideal) (φ₁ := .f32) (φ₂ := .f32) d prec lhs rhs) := by
  intro j
  show ∃ r : ℝ, FloatOps.dotGeneral (F := Ideal) (φ₁ := .f32) (φ₂ := .f32) d prec .single lhs rhs j = (r : EReal)
  rw [Ideal.dotGeneral_apply]
  refine exists_real_sum _ _ fun k _ => ?_
  obtain ⟨a, ha⟩ := hl (d.lhsIdx j k)
  obtain ⟨b, hb⟩ := hr (d.rhsIdx j k)
  exact ⟨a * b, by rw [ha, hb, EReal.coe_mul]⟩

/-- A sum of a finite array from a finite initial value is finite. -/
theorem isFin_reduceAdd {u : Shape} {axes : List (Fin s.rank)} {x : Vec Ideal s .f32} {init : Vec Ideal u .f32}
    (hx : IsFin x) (hi : IsFin init) (h : s.ReducesTo axes t) (hu : 0 < u.numel) :
    IsFin (Host.reduceAdd (F := Ideal) (φ := .f32) x init h hu) := by
  intro j
  have key : ∀ S : Finset s.Idx, ∃ r : ℝ, init (Shape.Idx.first hu) + ∑ i ∈ S, x i = (r : EReal) := by
    intro S
    obtain ⟨a, ha⟩ := hi (Shape.Idx.first hu)
    obtain ⟨b, hb⟩ := exists_real_sum S x fun i _ => hx i
    exact ⟨a + b, by rw [ha, hb, EReal.coe_add]⟩
  exact key _

/-- A quotient of a real by a nonzero real is a real. -/
theorem isFin_divf {a b : Vec Ideal s .f32} (ha : IsFin a) (hb : IsNz b) :
    IsFin (Host.divf (F := Ideal) (φ := .f32) a b) := by
  intro i
  obtain ⟨r, hr⟩ := ha i
  obtain ⟨c, hc, hbc⟩ := hb i
  refine ⟨r * (1 / c), ?_⟩
  show Ideal.div (a i) (b i) = _
  rw [hr, hbc, Ideal.div_coe hc, EReal.coe_mul]

end Algebra

/-! ## The arrays of the leapfrog step -/

theorem qOf_fin {st : Vec Ideal S32x16x256x256 .f32} (h : IsFin st) : IsFin (qOf st) := by
  unfold qOf
  exact isFin_extractStridedSlice h _ _

theorem pOf_fin {st : Vec Ideal S32x16x256x256 .f32} (h : IsFin st) : IsFin (pOf st) := by
  unfold pOf
  exact isFin_extractStridedSlice h _ _

/-- A hidden activation is a tanh, hence finite whatever it is applied to. -/
theorem hid1_fin (W1 : Vec Ideal S2x128 .f32) (b1 : Vec Ideal S128 .f32) (s : Vec Ideal S32x2 .f32) :
    IsFin (hid1 W1 b1 s) := by
  unfold hid1
  exact isFin_tanh _

theorem hid2_fin (W2 : Vec Ideal S128x128 .f32) (b2 : Vec Ideal S128 .f32) (h : Vec Ideal S32x128 .f32) :
    IsFin (hid2 W2 b2 h) := by
  unfold hid2
  exact isFin_tanh _

theorem hid3_fin (W3 : Vec Ideal S128x64 .f32) (b3 : Vec Ideal S64 .f32) (h : Vec Ideal S32x128 .f32) :
    IsFin (hid3 W3 b3 h) := by
  unfold hid3
  exact isFin_tanh _

/-- The backward product through the output layer: ones times the finite weights, times one minus a finite activation. -/
theorem back3_fin {W4 : Vec Ideal S64x1 .f32} {h3 : Vec Ideal S32x64 .f32} (hW : IsFin W4) (hh : IsFin h3) :
    IsFin (back3 W4 h3) := by
  unfold back3
  exact isFin_mulf (isFin_dotGeneral _ _ (isFin_broadcastInDim (isFin_constant _ word_one) _ _) hW)
    (isFin_subf (isFin_broadcastInDim (isFin_constant _ word_one) _ _) hh)

theorem back2_fin {W3 : Vec Ideal S128x64 .f32} {d h3 : Vec Ideal S32x64 .f32} {h2 : Vec Ideal S32x128 .f32}
    (hW : IsFin W3) (hd : IsFin d) (hh3 : IsFin h3) (hh2 : IsFin h2) : IsFin (back2 W3 d h3 h2) := by
  unfold back2
  exact isFin_mulf (isFin_dotGeneral _ _ (isFin_addf hd (isFin_mulf hd hh3)) hW)
    (isFin_subf (isFin_broadcastInDim (isFin_constant _ word_one) _ _) hh2)

theorem back1_fin {W2 : Vec Ideal S128x128 .f32} {d h2 h1 : Vec Ideal S32x128 .f32}
    (hW : IsFin W2) (hd : IsFin d) (hh2 : IsFin h2) (hh1 : IsFin h1) : IsFin (back1 W2 d h2 h1) := by
  unfold back1
  exact isFin_mulf (isFin_dotGeneral _ _ (isFin_addf hd (isFin_mulf hd hh2)) hW)
    (isFin_subf (isFin_broadcastInDim (isFin_constant _ word_one) _ _) hh1)

theorem back0_fin {W1 : Vec Ideal S2x128 .f32} {d h1 : Vec Ideal S32x128 .f32}
    (hW : IsFin W1) (hd : IsFin d) (hh1 : IsFin h1) : IsFin (back0 W1 d h1) := by
  unfold back0
  exact isFin_dotGeneral _ _ (isFin_addf hd (isFin_mulf hd hh1)) hW

/-- The gradient is finite whenever the four weight matrices are: every activation it multiplies is a tanh. -/
theorem gradH_fin {W1 : Vec Ideal S2x128 .f32} {W2 : Vec Ideal S128x128 .f32} {W3 : Vec Ideal S128x64 .f32}
    {W4 : Vec Ideal S64x1 .f32} (h1 : IsFin W1) (h2 : IsFin W2) (h3 : IsFin W3) (h4 : IsFin W4)
    (b1 : Vec Ideal S128 .f32) (b2 : Vec Ideal S128 .f32) (b3 : Vec Ideal S64 .f32) (s : Vec Ideal S32x2 .f32) :
    IsFin (gradH W1 b1 W2 b2 W3 b3 W4 s) := by
  unfold gradH
  have a1 := hid1_fin W1 b1 s
  have a2 := hid2_fin W2 b2 (hid1 W1 b1 s)
  have a3 := hid3_fin W3 b3 (hid2 W2 b2 (hid1 W1 b1 s))
  exact back0_fin h1 (back1_fin h2 (back2_fin h3 (back3_fin h4 a3) a3 a2) a2 a1) a1

/-- The Casimir values are finite whenever the last layer's weights and bias are. -/
theorem casF_fin {cW3 : Vec Ideal S32x4 .f32} {cb3 : Vec Ideal S4 .f32} (h3 : IsFin cW3) (hb : IsFin cb3)
    (cW1 : Vec Ideal S2x64 .f32) (cb1 : Vec Ideal S64 .f32) (cW2 : Vec Ideal S64x32 .f32) (cb2 : Vec Ideal S32 .f32)
    (s : Vec Ideal S32x2 .f32) : IsFin (casF cW1 cb1 cW2 cb2 cW3 cb3 s) := by
  unfold casF
  exact isFin_addf (isFin_dotGeneral _ _ (isFin_tanh _) h3)
    (isFin_broadcastInDim (isFin_broadcastInDim hb _ _) _ _)

theorem stepP_fin {dt : Vec Ideal S_ .f32} {g : Vec Ideal S32x2 .f32} (hd : IsFin dt) (hg : IsFin g) : IsFin (stepP dt g) := by
  unfold stepP
  exact isFin_shapeCast
    (isFin_divf
      (isFin_mulf (isFin_broadcastInDim (isFin_mulf (isFin_constant _ word_neg_half) hd) _ _)
        (isFin_shapeCast (isFin_extractStridedSlice hg _ _) _))
      (isNz_broadcastInDim (isNz_constant _ (by norm_num) word_two_pow_19) _ _)) _

theorem stepQ_fin {dt : Vec Ideal S_ .f32} {g : Vec Ideal S32x2 .f32} (hd : IsFin dt) (hg : IsFin g) : IsFin (stepQ dt g) := by
  unfold stepQ
  exact isFin_shapeCast
    (isFin_divf
      (isFin_mulf (isFin_broadcastInDim hd _ _)
        (isFin_shapeCast (isFin_extractStridedSlice hg _ _) _))
      (isNz_broadcastInDim (isNz_constant _ (by norm_num) word_two_pow_19) _ _)) _

theorem addB_fin {x : Vec Ideal S32x8x256x256 .f32} {c : Vec Ideal S32x1x1x1 .f32} (hx : IsFin x) (hc : IsFin c) :
    IsFin (addB x c) := by
  intro i
  obtain ⟨r, hr⟩ := hx i
  obtain ⟨q, hq⟩ := hc (ix4 (i 0) 0 0 0)
  refine ⟨r + q, ?_⟩
  show x i + c (ix4 (i 0) 0 0 0) = _
  rw [hr, hq, EReal.coe_add]

theorem errOf_fin {cn co : Vec Ideal S32x4 .f32} (hn : IsFin cn) (ho : IsFin co) : IsFin (errOf cn co) := by
  unfold errOf
  exact isFin_divf (isFin_reduceAdd (isFin_subf hn ho) (isFin_constant _ word_zero) _ _)
    (isNz_constant _ (by norm_num) word_128)

end Leap

end
-- ==== Proof.Alg.lean ====
/-
  The joins that need no finiteness: where the kernel's and the reference's texts spell one extended real differently.
  (1) The means. The kernel sums a batch item tile by tile and axis by axis and divides the stacked sums by 2^19; the
  reference sums each array over its three trailing axes at once, divides, and lays the two columns side by side. Addition
  of extended reals is commutative and associative, so both are the same sum, and the division is entrywise.
  (2) The moves. The kernel adds ((-1/2 dt) g) / 2^19; the reference subtracts (1/2 dt) (g / 2^19). Division by the
  nonzero real 2^19 is multiplication by its inverse, multiplication is associative and commutative, and -(a b) = (-a) b
  on the extended reals, so the two agree for every g and dt, finite or not. The move of q has no sign to carry.
-/
import proofs.«126091_j27977416966525_1_alg».proof.Proof.Spec
import proofs.«126091_j27977416966525_1_alg».proof.Proof.RefSpec
import proofs.«126091_j27977416966525_1_alg».proof.Proof.Words
import proofs.«126091_j27977416966525_1_alg».proof.Proof.Sums
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

set_option maxRecDepth 16384

noncomputable section

open scoped BigOperators

namespace Leap

open Cert.KernelIdeal Cert.KernelIdeal.Gen Idealize.ShloMosaic Idealize.ShloMosaic.ValueIdx

namespace Alg

/-! ## The scalar laws: division by a nonzero real, and the sign of a product -/

/-- The word of minus one half denotes the negative of what the word of one half denotes. -/
theorem word_neg_half_eq : Ideal.ofBits .f32 0xBF000000#32 = -Ideal.ofBits .f32 0x3F000000#32 := by
  rw [word_neg_half, word_half, EReal.coe_neg]

/-- x + ((-h a) y) / N = x - (h a) (y / N) for a nonzero real N: the quotient is the product with 1/N, products
    associate, a difference is the sum with the negative, and -(u v) = (-u) v. No operand need be finite. -/
theorem move_neg (x h a y : EReal) (N : ℝ) (hN : N ≠ 0) :
    x + Ideal.div ((-h * a) * y) (N : EReal) = x - (h * a) * Ideal.div y (N : EReal) := by
  rw [Ideal.div_coe hN, Ideal.div_coe hN, sub_eq_add_neg, ← neg_mul, ← neg_mul, mul_assoc]

/-- x + (a y) / N = x + a (y / N) for a nonzero real N: the quotient is the product with 1/N, and products associate. -/
theorem move_pos (x a y : EReal) (N : ℝ) (hN : N ≠ 0) :
    x + Ideal.div (a * y) (N : EReal) = x + a * Ideal.div y (N : EReal) := by
  rw [Ideal.div_coe hN, Ideal.div_coe hN, mul_assoc]

/-! ## The two programs' per-batch scalars, read at a batch index -/

/-- The kernel's step of p at batch b: ((-1/2 dt) g(b,0)) / 2^19. -/
theorem stepP_ix (dt : Vec Ideal S_ .f32) (g : Vec Ideal S32x2 .f32) (b : Fin 32) :
    stepP dt g (ix4 b (0 : Fin 1) (0 : Fin 1) (0 : Fin 1))
      = Ideal.div ((Ideal.ofBits .f32 0xBF000000#32 * dt ix0) * g (ix2 b (0 : Fin 2))) (Ideal.ofBits .f32 0x49000000#32) := by
  unfold stepP
  rw [shapeCast_apply _ _ _ (ix1 b) (by
    rw [Shape.rowMajor_val_one, Shape.rowMajor_val_four]
    show b.val = ((b.val * 1 + 0) * 1 + 0) * 1 + 0
    omega)]
  rw [hostDivf_apply, mulf_apply, broadcastInDim_scalar_apply, broadcastInDim_scalar_apply, mulf_apply, constant_apply,
    constant_apply]
  rw [shapeCast_apply _ _ _ (ix2 b (0 : Fin 1)) (by
    rw [Shape.rowMajor_val_one, Shape.rowMajor_val_two]
    show b.val * 1 + 0 = b.val
    omega)]
  rw [slice2_axis1_apply 0 g _ b (0 : Fin 1) (0 : Fin 2) rfl]

/-- The kernel's step of q at batch b: (dt g(b,1)) / 2^19. -/
theorem stepQ_ix (dt : Vec Ideal S_ .f32) (g : Vec Ideal S32x2 .f32) (b : Fin 32) :
    stepQ dt g (ix4 b (0 : Fin 1) (0 : Fin 1) (0 : Fin 1))
      = Ideal.div (dt ix0 * g (ix2 b (1 : Fin 2))) (Ideal.ofBits .f32 0x49000000#32) := by
  unfold stepQ
  rw [shapeCast_apply _ _ _ (ix1 b) (by
    rw [Shape.rowMajor_val_one, Shape.rowMajor_val_four]
    show b.val = ((b.val * 1 + 0) * 1 + 0) * 1 + 0
    omega)]
  rw [hostDivf_apply, mulf_apply, broadcastInDim_scalar_apply, broadcastInDim_scalar_apply, constant_apply]
  rw [shapeCast_apply _ _ _ (ix2 b (0 : Fin 1)) (by
    rw [Shape.rowMajor_val_one, Shape.rowMajor_val_two]
    show b.val * 1 + 0 = b.val
    omega)]
  rw [slice2_axis1_apply 1 g _ b (0 : Fin 1) (1 : Fin 2) rfl]

/-- The reference's quotient of column 0 at batch b: g(b,0) / 2^19. -/
theorem quot0_ix (g : Vec Ideal S32x2 .f32) (b : Fin 32) :
    LeapRef.quot0 g (ix4 b (0 : Fin 1) (0 : Fin 1) (0 : Fin 1))
      = Ideal.div (g (ix2 b (0 : Fin 2))) (Ideal.ofBits .f32 0x49000000#32) := by
  unfold LeapRef.quot0
  rw [broadcastInDim_apply _ _ _ _ (ix1 b) (fun a => by
    match a with
    | ⟨0, _⟩ => rfl)]
  rw [hostDivf_apply, broadcastInDim_scalar_apply, constant_apply]
  rw [shapeCast_apply _ _ _ (ix2 b (0 : Fin 1)) (by
    rw [Shape.rowMajor_val_one, Shape.rowMajor_val_two]
    show b.val * 1 + 0 = b.val
    omega)]
  rw [slice2_axis1_apply 0 g _ b (0 : Fin 1) (0 : Fin 2) rfl]

/-- The reference's quotient of column 1 at batch b: g(b,1) / 2^19. -/
theorem quot1_ix (g : Vec Ideal S32x2 .f32) (b : Fin 32) :
    LeapRef.quot1 g (ix4 b (0 : Fin 1) (0 : Fin 1) (0 : Fin 1))
      = Ideal.div (g (ix2 b (1 : Fin 2))) (Ideal.ofBits .f32 0x49000000#32) := by
  unfold LeapRef.quot1
  rw [broadcastInDim_apply _ _ _ _ (ix1 b) (fun a => by
    match a with
    | ⟨0, _⟩ => rfl)]
  rw [hostDivf_apply, broadcastInDim_scalar_apply, constant_apply]
  rw [shapeCast_apply _ _ _ (ix2 b (0 : Fin 1)) (by
    rw [Shape.rowMajor_val_one, Shape.rowMajor_val_two]
    show b.val * 1 + 0 = b.val
    omega)]
  rw [slice2_axis1_apply 1 g _ b (0 : Fin 1) (1 : Fin 2) rfl]

/-- A [32,1,1,1] array broadcast over the batch items reads, at (b, ch, h, w), its entry of batch b. -/
theorem bcastItem_ix (hb : S32x1x1x1.BroadcastsInDim S32x8x256x256 ![0, 1, 2, 3]) (c : Vec Ideal S32x1x1x1 .f32) (b : Fin 32)
    (ch : Fin 8) (h w : Fin 256) :
    broadcastInDim S32x8x256x256 ![0, 1, 2, 3] hb c (ix4 b ch h w)
      = c (ix4 b (0 : Fin 1) (0 : Fin 1) (0 : Fin 1)) := by
  rw [broadcastInDim_apply _ _ _ _ (ix4 b (0 : Fin 1) (0 : Fin 1) (0 : Fin 1)) (fun a => by
    match a with
    | ⟨0, _⟩ => rfl
    | ⟨1, _⟩ => rfl
    | ⟨2, _⟩ => rfl
    | ⟨3, _⟩ => rfl)]

/-! ## The sum over the indices of one batch item -/

/-- Dropping the three trailing axes of an index leaves its batch coordinate. -/
theorem drop_eq_iff (hr : S32x8x256x256.ReducesTo [1, 2, 3] S32) (idx : S32x8x256x256.Idx) (i : Fin 32) :
    hr.drop idx = ix1 i ↔ (idx 0).val = i.val := by
  constructor
  · intro e
    have h2 := congrArg Fin.val (congrFun e 0)
    rw [Shape.ReducesTo.drop_apply_val_of_eq hr idx 0 0] at h2
    exact h2
  · intro e
    funext a
    match a with
    | ⟨0, _⟩ => exact Fin.ext ((Shape.ReducesTo.drop_apply_val_of_eq hr idx 0 0).trans e)

/-- The sum over the indices that reduce to batch i is the batch item's sum: they are the indices whose batch
    coordinate is i. -/
theorem filter_sum (hr : S32x8x256x256.ReducesTo [1, 2, 3] S32) (x : Vec Ideal S32x8x256x256 .f32) (i : Fin 32) :
    ∑ idx ∈ Finset.univ.filter (fun idx : S32x8x256x256.Idx => hr.drop idx = ix1 i), x idx = rowSum x i := by
  rw [Finset.filter_congr (fun idx _ => drop_eq_iff hr idx i)]
  exact sum_filter_batch x i

/-! ## The means -/

/-- The reference's column of means at batch i: the batch item's sum (from the zero initial value, 0 + x = x)
    divided by 2^19. -/
theorem meanCol_ix (x : Vec Ideal S32x8x256x256 .f32) (i : Fin 32) :
    LeapRef.meanCol x (ix2 i (0 : Fin 1)) = Ideal.div (rowSum x i) (Ideal.ofBits .f32 0x49000000#32) := by
  unfold LeapRef.meanCol
  rw [broadcastInDim_apply _ _ _ _ (ix1 i) (fun a => by
    match a with
    | ⟨0, _⟩ => rfl)]
  rw [hostDivf_apply, broadcastInDim_scalar_apply, constant_apply, hostReduceAdd_apply, constant_apply]
  unfold Ideal.hostReduceAdd
  rw [Ideal.ofBits_zero_f32, zero_add, filter_sum]

/-- The kernel's means at (i, k): the stacked sum there divided by 2^19. -/
theorem meansOf_ix (s : Vec Ideal S32x2 .f32) (i : Fin 32) (k : Fin 2) :
    meansOf s (ix2 i k) = Ideal.div (s (ix2 i k)) (Ideal.ofBits .f32 0x49000000#32) := by
  unfold meansOf
  rw [hostDivf_apply, broadcastInDim_scalar_apply, constant_apply]

end Alg

open Alg

/-! ## The four joins -/

/-- The means of the stacked sums are the reference's means. -/
theorem means_join (a b : Vec Ideal S32x8x256x256 .f32) : meansOf (sum2 a b) = LeapRef.meansR a b := by
  funext j
  obtain ⟨i, k, rfl⟩ : ∃ (i : Fin 32) (k : Fin 2), j = ix2 i k := ⟨j 0, j 1, eq_ix2 j⟩
  rw [meansOf_ix, sum2_ix]
  unfold LeapRef.meansR
  by_cases hk : k.val = 0
  · -- column 0 lies in the first piece
    rw [if_pos hk]
    obtain rfl : k = 0 := Fin.ext hk
    rw [concatenate_pair_apply_left (t := S32x2) (s₁ := S32x1) (s₂ := S32x1) 1 (LeapRef.meanCol a) (LeapRef.meanCol b) _
      (ix2 i (0 : Fin 2)) rfl (ix2 i (0 : Fin 1)) (fun c => by
        match c with
        | ⟨0, _⟩ => rfl
        | ⟨1, _⟩ => rfl)]
    rw [meanCol_ix]
  · -- column 1 lies in the second piece, at its column 0
    rw [if_neg hk]
    obtain rfl : k = 1 := Fin.ext (by omega)
    rw [concatenate_pair_apply_right (t := S32x2) (s₁ := S32x1) (s₂ := S32x1) 1 (LeapRef.meanCol a) (LeapRef.meanCol b) _
      (ix2 i (1 : Fin 2)) rfl rfl (ix2 i (0 : Fin 1)) (fun c hc => by
        match c with
        | ⟨0, _⟩ => rfl
        | ⟨1, _⟩ => exact absurd rfl hc) rfl]
    rw [meanCol_ix]

/-- Adding the kernel's step of p is subtracting the reference's. -/
theorem stepP_join (p : Vec Ideal S32x8x256x256 .f32) (dt : Vec Ideal S_ .f32) (g : Vec Ideal S32x2 .f32) :
    addB p (stepP dt g) = LeapRef.subStepP p dt g := by
  funext j
  obtain ⟨b, ch, h, w, rfl⟩ : ∃ (b : Fin 32) (ch : Fin 8) (h w : Fin 256), j = ix4 b ch h w :=
    ⟨j 0, j 1, j 2, j 3, eq_ix4 j⟩
  rw [addB_ix, stepP_ix]
  unfold LeapRef.subStepP
  rw [subf_apply, bcastItem_ix, mulf_apply, broadcastInDim_scalar_apply, mulf_apply, constant_apply, quot0_ix,
    word_neg_half_eq, word_two_pow_19]
  exact move_neg _ _ _ _ _ (by norm_num)

/-- Adding the kernel's step of q is adding the reference's. -/
theorem stepQ_join (q : Vec Ideal S32x8x256x256 .f32) (dt : Vec Ideal S_ .f32) (g : Vec Ideal S32x2 .f32) :
    addB q (stepQ dt g) = LeapRef.addStepQ q dt g := by
  funext j
  obtain ⟨b, ch, h, w, rfl⟩ : ∃ (b : Fin 32) (ch : Fin 8) (h w : Fin 256), j = ix4 b ch h w :=
    ⟨j 0, j 1, j 2, j 3, eq_ix4 j⟩
  rw [addB_ix, stepQ_ix]
  unfold LeapRef.addStepQ
  rw [addf_apply, bcastItem_ix, mulf_apply, broadcastInDim_scalar_apply, quot1_ix, word_two_pow_19]
  exact move_pos _ _ _ _ (by norm_num)

/-- The mean error is one function in both programs: the two reduction facts prove one proposition. -/
theorem err_join (cn co : Vec Ideal S32x4 .f32) : errOf cn co = LeapRef.errR cn co := rfl

end Leap

end
-- ==== Proof.Alg2.lean ====
/-
  The last join, which needs finiteness. With s the moved q and p side by side, a = 0.1 err and d = sqrt (sum s^2) + 1e-10:
  the kernel stores s (1 - a / d), the reference s - (a s) / d. The sum of the squares of s is the sum over q plus the sum
  over p (the channel axis splits in two halves), so both use one d; d is a positive real because a sum of squares of reals
  is a nonnegative real; and for real s, a, d with d nonzero, s (1 - a / d) = s - (a s) / d is the field identity.
  Among extended reals the identity fails at infinite s, which is why q, p and err are assumed finite.
-/
import proofs.«126091_j27977416966525_1_alg».proof.Proof.Spec
import proofs.«126091_j27977416966525_1_alg».proof.Proof.RefSpec
import proofs.«126091_j27977416966525_1_alg».proof.Proof.Fin
import proofs.«126091_j27977416966525_1_alg».proof.Proof.Words
import proofs.«126091_j27977416966525_1_alg».proof.Proof.Sums
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

set_option maxRecDepth 16384

noncomputable section

open scoped BigOperators

namespace Leap

open Cert.KernelIdeal Cert.KernelIdeal.Gen Idealize.ShloMosaic Idealize.ShloMosaic.ValueIdx

namespace Alg2

/-- The joined state at a channel below eight is q there. -/
theorem joinQP_left (q p : Vec Ideal S32x8x256x256 .f32) (b : Fin 32) (c : Fin 8) (h w : Fin 256) :
    LeapRef.joinQP q p (ix4 b (⟨c.val, by omega⟩ : Fin 16) h w) = q (ix4 b c h w) := by
  unfold LeapRef.joinQP
  refine concatenate_pair_apply_left (t := Cert.ReferenceIdeal.S32x16x256x256)
    (s₁ := Cert.ReferenceIdeal.S32x8x256x256) (s₂ := Cert.ReferenceIdeal.S32x8x256x256) 1 q p _ _
    (rfl : (4 : Nat) = 4) (ix4 b c h w) fun a => ?_
  match a with
  | ⟨0, _⟩ => rfl
  | ⟨1, _⟩ => rfl
  | ⟨2, _⟩ => rfl
  | ⟨3, _⟩ => rfl

/-- The joined state at channel eight plus c is p at channel c. -/
theorem joinQP_right (q p : Vec Ideal S32x8x256x256 .f32) (b : Fin 32) (c : Fin 8) (h w : Fin 256) :
    LeapRef.joinQP q p (ix4 b (⟨c.val + 8, by omega⟩ : Fin 16) h w) = p (ix4 b c h w) := by
  unfold LeapRef.joinQP
  refine concatenate_pair_apply_right (t := Cert.ReferenceIdeal.S32x16x256x256)
    (s₁ := Cert.ReferenceIdeal.S32x8x256x256) (s₂ := Cert.ReferenceIdeal.S32x8x256x256) 1 q p _ _
    (rfl : (4 : Nat) = 4) (rfl : (4 : Nat) = 4) (ix4 b c h w) (fun a ha => ?_) rfl
  match a, ha with
  | ⟨0, _⟩, _ => rfl
  | ⟨1, _⟩, ha => exact absurd rfl ha
  | ⟨2, _⟩, _ => rfl
  | ⟨3, _⟩, _ => rfl

/-- The sum of squares over the joined state is the sum over q plus the sum over p. -/
theorem sumSq_join (q p : Vec Ideal S32x8x256x256 .f32) :
    ∑ i : S32x16x256x256.Idx, LeapRef.joinQP q p i * LeapRef.joinQP q p i
      = (∑ i : S32x8x256x256.Idx, q i * q i) + ∑ i : S32x8x256x256.Idx, p i * p i := by
  rw [sum_idx4 (fun i => LeapRef.joinQP q p i * LeapRef.joinQP q p i),
    sum_idx4 (fun i => q i * q i), sum_idx4 (fun i => p i * p i), ← Finset.sum_add_distrib]
  refine Finset.sum_congr rfl fun b _ => ?_
  rw [sum_halves16]
  simp only [joinQP_left, joinQP_right]

/-- A finite sum of reals, read among the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The sum of the squares of an array of reals is a nonnegative real. -/
theorem sumSq_real {s : Shape} (x : Vec Ideal s .f32) (hx : IsFin x) :
    ∃ R : ℝ, 0 ≤ R ∧ ∑ i : s.Idx, x i * x i = (R : EReal) := by
  choose r hr using hx
  refine ⟨∑ i, r i * r i, Finset.sum_nonneg fun i _ => mul_self_nonneg _, ?_⟩
  rw [← coe_sum]
  refine Finset.sum_congr rfl fun i _ => ?_
  rw [hr i, EReal.coe_mul]

/-- For real x, a, e and a positive real divisor, x (1 - a e / d) = x - (a e x) / d, with d = sqrt (sq + sp) + eps. -/
theorem scale_identity {X A Ee Sq Sp E : EReal} (x a e sq sp ε : ℝ) (hX : X = x) (hA : A = a) (hEe : Ee = e)
    (hSq : Sq = sq) (hSp : Sp = sp) (hE : E = ε) (hsq : 0 ≤ sq) (hsp : 0 ≤ sp) (hε : 0 < ε) :
    X * (1 - Ideal.div (A * Ee) (Ideal.sqrt (Sq + Sp) + E))
      = X - Ideal.div ((A * Ee) * X) (Ideal.sqrt (Sq + Sp) + E) := by
  subst hX hA hEe hSq hSp hE
  have hd : Ideal.sqrt ((sq : EReal) + sp) + (ε : EReal) = ((Real.sqrt (sq + sp) + ε : ℝ) : EReal) := by
    rw [← EReal.coe_add, Ideal.sqrt_coe, if_neg (not_lt.mpr (add_nonneg hsq hsp)), ← EReal.coe_add]
  have hne : Real.sqrt (sq + sp) + ε ≠ 0 := ne_of_gt (add_pos_of_nonneg_of_pos (Real.sqrt_nonneg _) hε)
  rw [hd, Ideal.div_coe hne, Ideal.div_coe hne]
  norm_cast
  ring

/-- The square root of an array, entry by entry. -/
theorem hostSqrt_apply {s : Shape} (x : FVec Ideal s .f32) (i : s.Idx) : Host.sqrt x i = Ideal.sqrt (x i) := rfl

/-- The kernel's scale at its one entry. -/
theorem scaleOf_apply (err : Vec Ideal S_ .f32) (q p : Vec Ideal S32x8x256x256 .f32) (j : S1x1.Idx) :
    scaleOf err (sumSq q) (sumSq p) j
      = Ideal.ofBits .f32 0x3F800000#32
        - Ideal.div (Ideal.ofBits .f32 0x3DCCCCCD#32 * err ix0)
            (Ideal.sqrt ((∑ i : S32x8x256x256.Idx, q i * q i) + ∑ i : S32x8x256x256.Idx, p i * p i)
              + Ideal.ofBits .f32 0x2EDBE6FF#32) := by
  unfold scaleOf shapeCast
  rw [eq_ix0 (Shape.reshapeEquiv shapeCasts_S_S1x1 j)]
  rfl

/-- The reference's correction at an index. -/
theorem finR_apply (s : Vec Ideal S32x16x256x256 .f32) (err : Vec Ideal S_ .f32) (i : S32x16x256x256.Idx) :
    LeapRef.finR s err i
      = s i - Ideal.div ((Ideal.ofBits .f32 0x3DCCCCCD#32 * err ix0) * s i)
          (Ideal.sqrt (∑ k : S32x16x256x256.Idx, s k * s k) + Ideal.ofBits .f32 0x2EDBE6FF#32) := by
  have e1 : broadcastInDim Cert.ReferenceIdeal.S32x16x256x256 ![] Cert.ReferenceIdeal.Gen.bcast_S_S32x16x256x256
      (mulf (F := Ideal) (constant (F := Ideal) Cert.ReferenceIdeal.S_ .f32 0x3DCCCCCD#32) err) i
        = Ideal.ofBits .f32 0x3DCCCCCD#32 * err ix0 :=
    broadcastInDim_scalar_apply _ _ i
  have e2 : broadcastInDim Cert.ReferenceIdeal.S32x16x256x256 ![] Cert.ReferenceIdeal.Gen.bcast_S_S32x16x256x256
      (addf (F := Ideal) (Host.sqrt (F := Ideal) (Host.reduceAdd (F := Ideal) (mulf (F := Ideal) s s)
          (constant (F := Ideal) Cert.ReferenceIdeal.S_ .f32 0x00000000#32)
          Cert.ReferenceIdeal.Gen.reducesTo_S32x16x256x256_S_d0_1_2_3 Cert.ReferenceIdeal.Gen.h_S_))
        (constant (F := Ideal) Cert.ReferenceIdeal.S_ .f32 0x2EDBE6FF#32)) i
        = Ideal.sqrt (∑ k : S32x16x256x256.Idx, s k * s k) + Ideal.ofBits .f32 0x2EDBE6FF#32 := by
    refine (broadcastInDim_scalar_apply _ _ i).trans ?_
    show Ideal.sqrt (Ideal.hostReduceAdd Cert.ReferenceIdeal.Gen.reducesTo_S32x16x256x256_S_d0_1_2_3
      (mulf (F := Ideal) s s) (Ideal.ofBits .f32 0x00000000#32) ix0) + _ = _
    rw [Ideal.hostReduceAdd_total _ (fun b => b.elim0), word_zero, EReal.coe_zero, zero_add]
    rfl
  unfold LeapRef.finR
  show s i - Ideal.div (_ * s i) _ = _
  rw [e1, e2]

/-- The kernel's result at a channel below eight. -/
theorem finOut_left (q p : Vec Ideal S32x8x256x256 .f32) (s : Vec Ideal S1x1 .f32) (b : Fin 32) (c : Fin 8)
    (h w : Fin 256) :
    finOut q p s (ix4 b (⟨c.val, by omega⟩ : Fin 16) h w) = q (ix4 b c h w) * s (ix2 0 0) := by
  have hc : ((ix4 b (⟨c.val, by omega⟩ : Fin 16) h w : S32x16x256x256.Idx) 1).val < 8 := c.isLt
  unfold finOut
  rw [dif_pos hc]

/-- The kernel's result at channel eight plus c. -/
theorem finOut_right (q p : Vec Ideal S32x8x256x256 .f32) (s : Vec Ideal S1x1 .f32) (b : Fin 32) (c : Fin 8)
    (h w : Fin 256) :
    finOut q p s (ix4 b (⟨c.val + 8, by omega⟩ : Fin 16) h w) = p (ix4 b c h w) * s (ix2 0 0) := by
  have hc : ¬ ((ix4 b (⟨c.val + 8, by omega⟩ : Fin 16) h w : S32x16x256x256.Idx) 1).val < 8 := by
    show ¬ c.val + 8 < 8
    omega
  unfold finOut
  rw [dif_neg hc]
  have e : (⟨c.val + 8 - 8, by omega⟩ : Fin 8) = c := Fin.ext (by show c.val + 8 - 8 = c.val; omega)
  show p (ix4 b ⟨c.val + 8 - 8, _⟩ h w) * _ = _
  rw [e]

/-- The two sides agree at every entry of the first eight channels. -/
theorem half_left (q p : Vec Ideal S32x8x256x256 .f32) (err : Vec Ideal S_ .f32)
    (hq : IsFin q) (hp : IsFin p) (he : IsFin err) (b : Fin 32) (c : Fin 8) (h w : Fin 256) :
    finOut q p (scaleOf err (sumSq q) (sumSq p)) (ix4 b (⟨c.val, by omega⟩ : Fin 16) h w)
      = LeapRef.finR (LeapRef.joinQP q p) err (ix4 b (⟨c.val, by omega⟩ : Fin 16) h w) := by
  rw [finOut_left, scaleOf_apply, finR_apply, joinQP_left, sumSq_join, word_one, EReal.coe_one]
  obtain ⟨x, hx⟩ := hq (ix4 b c h w)
  obtain ⟨e, he'⟩ := he ix0
  obtain ⟨sq, hsq0, hsq⟩ := sumSq_real q hq
  obtain ⟨sp, hsp0, hsp⟩ := sumSq_real p hp
  obtain ⟨a, ha⟩ := word_tenth
  obtain ⟨ε, hε, hE⟩ := word_eps
  exact scale_identity x a e sq sp ε hx ha he' hsq hsp hE hsq0 hsp0 hε

/-- The two sides agree at every entry of the last eight channels. -/
theorem half_right (q p : Vec Ideal S32x8x256x256 .f32) (err : Vec Ideal S_ .f32)
    (hq : IsFin q) (hp : IsFin p) (he : IsFin err) (b : Fin 32) (c : Fin 8) (h w : Fin 256) :
    finOut q p (scaleOf err (sumSq q) (sumSq p)) (ix4 b (⟨c.val + 8, by omega⟩ : Fin 16) h w)
      = LeapRef.finR (LeapRef.joinQP q p) err (ix4 b (⟨c.val + 8, by omega⟩ : Fin 16) h w) := by
  rw [finOut_right, scaleOf_apply, finR_apply, joinQP_right, sumSq_join, word_one, EReal.coe_one]
  obtain ⟨x, hx⟩ := hp (ix4 b c h w)
  obtain ⟨e, he'⟩ := he ix0
  obtain ⟨sq, hsq0, hsq⟩ := sumSq_real q hq
  obtain ⟨sp, hsp0, hsp⟩ := sumSq_real p hp
  obtain ⟨a, ha⟩ := word_tenth
  obtain ⟨ε, hε, hE⟩ := word_eps
  exact scale_identity x a e sq sp ε hx ha he' hsq hsp hE hsq0 hsp0 hε

end Alg2

/-- Scaling the two halves by 1 - a / d is the reference's correction of the joined state. -/
theorem fin_join (q p : Vec Ideal S32x8x256x256 .f32) (err : Vec Ideal S_ .f32)
    (hq : IsFin q) (hp : IsFin p) (he : IsFin err) :
    finOut q p (scaleOf err (sumSq q) (sumSq p)) = LeapRef.finR (LeapRef.joinQP q p) err := by
  funext i
  obtain ⟨b, c, h, w, rfl⟩ : ∃ (b : Fin 32) (c : Fin 16) (h w : Fin 256), i = ix4 b c h w :=
    ⟨i 0, i 1, i 2, i 3, eq_ix4 i⟩
  by_cases hc : c.val < 8
  · exact Alg2.half_left q p err hq hp he b ⟨c.val, hc⟩ h w
  · have hc' : c = ⟨(c.val - 8) + 8, by omega⟩ := Fin.ext (by show c.val = c.val - 8 + 8; omega)
    rw [hc']
    exact Alg2.half_right q p err hq hp he b ⟨c.val - 8, by omega⟩ h w

end Leap

end
-- ==== Proof.Bridge.lean ====
/-
  The two programs compute one function. The kernel's result is built from the four region functions and the composed
  host stretches; the reference's from its own means, moves and correction around the same network functions. Stage by
  stage the joins identify them: the means (no finiteness), the three moves (no finiteness), the mean error (one
  function), and last the scale against the correction, which needs the moved q and p and the error finite — they are,
  because the state, the step size, the four weight matrices and the Casimir network's last layer are.
-/
import proofs.«126091_j27977416966525_1_alg».proof.Proof.Spec
import proofs.«126091_j27977416966525_1_alg».proof.Proof.RefSpec
import proofs.«126091_j27977416966525_1_alg».proof.Proof.Fin
import proofs.«126091_j27977416966525_1_alg».proof.Proof.Alg
import proofs.«126091_j27977416966525_1_alg».proof.Proof.Alg2

set_option maxRecDepth 16384

noncomputable section

open scoped BigOperators

namespace Leap

open Cert.KernelIdeal Cert.KernelIdeal.Gen Idealize.ShloMosaic

/-- On finite arguments the kernel's function of the sixteen arguments is the reference's. -/
theorem kOut_eq_rOut (st : Vec Ideal S32x16x256x256 .f32) (dt : Vec Ideal S_ .f32)
    (W1 : Vec Ideal S2x128 .f32) (b1 : Vec Ideal S128 .f32) (W2 : Vec Ideal S128x128 .f32) (b2 : Vec Ideal S128 .f32)
    (W3 : Vec Ideal S128x64 .f32) (b3 : Vec Ideal S64 .f32) (W4 : Vec Ideal S64x1 .f32) (b4 : Vec Ideal S1 .f32)
    (cW1 : Vec Ideal S2x64 .f32) (cb1 : Vec Ideal S64 .f32) (cW2 : Vec Ideal S64x32 .f32) (cb2 : Vec Ideal S32 .f32)
    (cW3 : Vec Ideal S32x4 .f32) (cb3 : Vec Ideal S4 .f32)
    (hst : IsFin st) (hdt : IsFin dt) (hW1 : IsFin W1) (hW2 : IsFin W2) (hW3 : IsFin W3) (hW4 : IsFin W4)
    (hcW3 : IsFin cW3) (hcb3 : IsFin cb3) :
    kOut st dt W1 b1 W2 b2 W3 b3 W4 b4 cW1 cb1 cW2 cb2 cW3 cb3
      = LeapRef.rOut st dt W1 b1 W2 b2 W3 b3 W4 b4 cW1 cb1 cW2 cb2 cW3 cb3 := by
  have hq := qOf_fin hst
  have hp := pOf_fin hst
  have hg : ∀ s, IsFin (gradH W1 b1 W2 b2 W3 b3 W4 s) := fun s => gradH_fin hW1 hW2 hW3 hW4 b1 b2 b3 s
  have hc : ∀ s, IsFin (casF cW1 cb1 cW2 cb2 cW3 cb3 s) := fun s => casF_fin hcW3 hcb3 cW1 cb1 cW2 cb2 s
  unfold kOut
  dsimp only
  have hph := addB_fin hp (stepP_fin hdt (hg (meansOf (sum2 (qOf st) (pOf st)))))
  have hqn := addB_fin hq (stepQ_fin hdt (hg (meansOf (sum2 (qOf st)
    (addB (pOf st) (stepP dt (gradH W1 b1 W2 b2 W3 b3 W4 (meansOf (sum2 (qOf st) (pOf st))))))))))
  have hpn := addB_fin hph (stepP_fin hdt (hg (meansOf (sum2
    (addB (qOf st) (stepQ dt (gradH W1 b1 W2 b2 W3 b3 W4 (meansOf (sum2 (qOf st)
      (addB (pOf st) (stepP dt (gradH W1 b1 W2 b2 W3 b3 W4 (meansOf (sum2 (qOf st) (pOf st)))))))))))
    (addB (pOf st) (stepP dt (gradH W1 b1 W2 b2 W3 b3 W4 (meansOf (sum2 (qOf st) (pOf st))))))))))
  rw [fin_join _ _ _ hqn hpn (errOf_fin (hc _) (hc _))]
  unfold LeapRef.rOut
  dsimp only
  simp only [means_join, stepP_join, stepQ_join, err_join]

end Leap

end
-- ==== Proof.PreFin.lean ====
/-
  The precondition read: it says that on every device the conjunction, over the sixteen arguments, of "every entry's
  absolute value is below +infinity" is all ones; an extended real whose absolute value is below +infinity is a real.
  So every argument array is finite.
-/
import proofs.«126091_j27977416966525_1_alg».proof.Defs
import proofs.«126091_j27977416966525_1_alg».proof.Proof.Gen.KernelIdeal
import proofs.«126091_j27977416966525_1_alg».proof.Proof.Gen.Pre_finite_inputs
import proofs.«126091_j27977416966525_1_alg».proof.Proof.Spec
import proofs.«126091_j27977416966525_1_alg».proof.Proof.Fin
import Idealize.ShloMosaic.Lib.ReduceAll
import Idealize.ShloMosaic.Lib.ValueIdx

set_option maxRecDepth 16384

noncomputable section

open scoped BigOperators

namespace Leap

open Cert.KernelIdeal Cert.KernelIdeal.Gen Idealize.ShloMosaic Idealize.ShloMosaic.TcCoe Idealize.SL.Sem

/-- An extended real whose absolute value (the larger of it and its negation) lies strictly below some bound is a real:
    the absolute value of either infinity is +infinity, and nothing lies strictly above +infinity. -/
theorem real_of_abs_lt (a b : EReal) (h : max a (-a) < b) : ∃ r : ℝ, a = (r : EReal) := by
  induction a using EReal.rec with
  | bot => simp at h
  | coe r => exact ⟨r, rfl⟩
  | top => simp at h

/-- A scalar array has one index. -/
theorem subsingleton_scalar_idx : Subsingleton (⟨0, ![]⟩ : Shape).Idx := ⟨fun a b => funext fun d => d.elim0⟩

/-- If the conjunction, over all entries of an array, of "the absolute value is strictly below the bound's entry" is
    one, then every entry of the array is a real (whatever the bound is). -/
theorem isFin_of_all {s u : Shape} {axes : List (Fin s.rank)} (x y : FVec Ideal s .f32) (init : u.Idx → BitVec 1)
    (hr : s.ReducesTo axes ⟨0, ![]⟩) (hu : 0 < u.numel) (j : (⟨0, ![]⟩ : Shape).Idx)
    (e : Host.reduce IntOp.andi (cmpf .olt (Host.absf x) y) init hr hu j = 1#1) : IsFin x := by
  intro i
  haveI := subsingleton_scalar_idx
  have hi : Ideal.cmp .olt (max (x i) (-(x i))) (y i) = 1#1 := Host.reduce_andi_all _ init hr hu j e i
  have hb : ∀ b : Bool, BitVec.ofBool b = 1#1 → b = true := by decide
  exact real_of_abs_lt (x i) (y i) (of_decide_eq_true (hb _ hi))

/-- Under the precondition every argument array of the idealized kernel is finite. -/
theorem isFin_of_pre (m : (ℓ : Loc nD τ sig) → Buf (Elt Ideal) ℓ) (h : Cert.Pre_KernelIdeal m) (c : Dev nD) :
    IsFin (m ((c : Thread nD τ).loc main_arg0)) ∧ IsFin (m ((c : Thread nD τ).loc main_arg1))
    ∧ IsFin (m ((c : Thread nD τ).loc main_arg2)) ∧ IsFin (m ((c : Thread nD τ).loc main_arg4))
    ∧ IsFin (m ((c : Thread nD τ).loc main_arg6)) ∧ IsFin (m ((c : Thread nD τ).loc main_arg8))
    ∧ IsFin (m ((c : Thread nD τ).loc main_arg14)) ∧ IsFin (m ((c : Thread nD τ).loc main_arg15)) := by
  -- the precondition at this device, read at the one index of its scalar result
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at e
  -- a conjunction of one-bit words is one exactly when each is: sixteen conjuncts, nested to the left
  simp only [IntOp.andi_eq_one] at e
  obtain ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ := e
  exact ⟨isFin_of_all _ _ _ _ _ _ h0, isFin_of_all _ _ _ _ _ _ h1, isFin_of_all _ _ _ _ _ _ h2,
    isFin_of_all _ _ _ _ _ _ h4, isFin_of_all _ _ _ _ _ _ h6, isFin_of_all _ _ _ _ _ _ h8,
    isFin_of_all _ _ _ _ _ _ h14, isFin_of_all _ _ _ _ _ _ h15⟩

end Leap

end
-- ==== Proof.lean ====
/-
  The certificate: a Pallas leapfrog step with a Casimir correction against its jnp reference, over the extended reals.

  The kernel splits the state into q and p, three times reduces a pair of arrays to per-batch sums (a grid of sixteen row
  tiles accumulating into one block), forms the means, evaluates the gradient of a small tanh network at them on the host
  and moves p, q, p by a per-batch scalar (a tiled broadcast-add); then it evaluates a second small network at the first and
  the last means, takes the mean difference, the norm of the moved state (two tiled sums of squares) and scales both halves
  by 1 - 0.1 err / (norm + 1e-10) into the output (a tiled store of two channel halves). The reference does the same with
  whole-array jnp operations and corrects by s - 0.1 err s / (norm + 1e-10).

  The three frames: the two kernels' are the generated frame certificates; the reference's is its run with the result
  dropped. The idealization rewrote nothing. For the value: the kernel's run with its result kept in the post, the result
  read through the sixteen segments as the kernel's function of the arguments, the reference's run read as the reference's
  function, and the two functions equal on finite arguments, which the precondition provides.
-/
import proofs.«126091_j27977416966525_1_alg».proof.Defs
import proofs.«126091_j27977416966525_1_alg».proof.Proof.Gen.Kernel
import proofs.«126091_j27977416966525_1_alg».proof.Proof.Gen.Kernel.Skeleton
import proofs.«126091_j27977416966525_1_alg».proof.Proof.Gen.Kernel.Launch
import proofs.«126091_j27977416966525_1_alg».proof.Proof.Gen.Kernel.Points
import proofs.«126091_j27977416966525_1_alg».proof.Proof.Gen.Kernel.Frame
import proofs.«126091_j27977416966525_1_alg».proof.Proof.Gen.KernelIdeal
import proofs.«126091_j27977416966525_1_alg».proof.Proof.Gen.KernelIdeal.Skeleton
import proofs.«126091_j27977416966525_1_alg».proof.Proof.Gen.KernelIdeal.Launch
import proofs.«126091_j27977416966525_1_alg».proof.Proof.Gen.KernelIdeal.Points
import proofs.«126091_j27977416966525_1_alg».proof.Proof.Gen.KernelIdeal.Frame
import proofs.«126091_j27977416966525_1_alg».proof.Proof.Gen.ReferenceIdeal
import proofs.«126091_j27977416966525_1_alg».proof.Proof.Gen.Pre_finite_inputs
import proofs.«126091_j27977416966525_1_alg».proof.Proof.KRun
import proofs.«126091_j27977416966525_1_alg».proof.Proof.KChainB
import proofs.«126091_j27977416966525_1_alg».proof.Proof.RefValue
import proofs.«126091_j27977416966525_1_alg».proof.Proof.Bridge
import proofs.«126091_j27977416966525_1_alg».proof.Proof.PreFin
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (LeapRef.ref_run (F := Ideal) m ρ)

theorem preserves : Cert.preserves_Kernel_KernelIdeal := trivial

/-- Both idealized programs run; the kernel's result is its function of the arguments, the reference's its own, and on the
    precondition's finite arguments the two functions agree. -/
theorem algebraic : Cert.algebraic_KernelIdeal_ReferenceIdeal := by
  intro m ρ m' ρ' hpre hagree
  refine ⟨_, (θ_run Cert.KernelIdeal.defs _ _).mono (fun r h c => ⟨(h c).1.trans (Leap.KChain.kernel_value m ρ c), (h c).2⟩)
    (Cert.KernelIdeal.KRun.run (F := Ideal) m ρ), ?_⟩
  refine (θ_run Cert.ReferenceIdeal.defs _ _).mono (fun r h c => ⟨(h c).1.trans ?_, (h c).2⟩) (LeapRef.ref_run (F := Ideal) m' ρ')
  obtain ⟨a0, a1, a2, a3, a4, a5, a6, a7, a8, a9, a10, a11, a12, a13, a14, a15⟩ := hagree c
  rw [a0, a1, a2, a3, a4, a5, a6, a7, a8, a9, a10, a11, a12, a13, a14, a15]
  obtain ⟨f0, f1, f2, f4, f6, f8, f14, f15⟩ := Leap.isFin_of_pre m hpre c
  exact (Leap.kOut_eq_rOut _ _ _ _ _ _ _ _ _ _ _ _ _ _ _ _ f0 f1 f2 f4 f6 f8 f14 f15).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
